-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x4 : Shape := ⟨2, ![64, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S4 .f32) (main_arg7 : FVec F S4x1 .f32) (main_arg8 : FVec F S1 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x1 .f32 := Host.absf main_arg7
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x4 .f32) (main_arg6 : FVec F S4 .f32) (main_arg7 : FVec F S4x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg5
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x4 : Shape := ⟨2, ![64, 4]⟩
abbrev S4 : Shape := ⟨1, ![4]⟩
abbrev S4x1 : Shape := ⟨2, ![4, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S100000x4 : Shape := ⟨2, ![100000, 4]⟩
abbrev S5000x4 : Shape := ⟨2, ![5000, 4]⟩
abbrev S3300000x4 : Shape := ⟨2, ![3300000, 4]⟩
abbrev S256 : Shape := ⟨1, ![256]⟩
abbrev S256x1 : Shape := ⟨2, ![256, 1]⟩
abbrev S1x4 : Shape := ⟨2, ![1, 4]⟩
abbrev S1x1 : Shape := ⟨2, ![1, 1]⟩
abbrev S2000x4 : Shape := ⟨2, ![2000, 4]⟩
abbrev S2000x1 : Shape := ⟨2, ![2000, 1]⟩
abbrev S256x4 : Shape := ⟨2, ![256, 4]⟩
abbrev S2000x256 : Shape := ⟨2, ![2000, 256]⟩

abbrev nBuf : Space → Nat
  | .hbm => 71
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x4, .f32⟩
  | .hbm, ⟨6, _⟩ => ⟨S4, .f32⟩
  | .hbm, ⟨7, _⟩ => ⟨S4x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x64, .f32⟩
  | .hbm, ⟨41, _⟩ => ⟨S_, .f32⟩
  | .hbm, ⟨42, _⟩ => ⟨S100000x64, .f32⟩
  | .hbm, ⟨43, _⟩ => ⟨S3300000x1, .i32⟩
  | .hbm, ⟨44, _⟩ => ⟨S100000x64, .f32⟩
  | .hbm, ⟨45, _⟩ => ⟨S1x64, .f32⟩
  | .hbm, ⟨46, _⟩ => ⟨S100000x4, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x4, .f32⟩
  | .hbm, ⟨56, _⟩ => ⟨S_, .f32⟩
  | .hbm, ⟨57, _⟩ => ⟨S100000x4, .f32⟩
  | .hbm, ⟨58, _⟩ => ⟨S3300000x1, .i32⟩
  | .hbm, ⟨59, _⟩ => ⟨S100000x4, .f32⟩
  | .hbm, ⟨60, _⟩ => ⟨S_, .f32⟩
  | .hbm, ⟨61, _⟩ => ⟨S100000, .f32⟩
  | .hbm, ⟨62, _⟩ => ⟨S_, .f32⟩
  | .hbm, ⟨63, _⟩ => ⟨S256, .f32⟩
  | .hbm, ⟨64, _⟩ => ⟨S100000x1, .i32⟩
  | .hbm, ⟨65, _⟩ => ⟨S256, .f32⟩
  | .hbm, ⟨66, _⟩ => ⟨S256x1, .f32⟩
  | .hbm, ⟨67, _⟩ => ⟨S100000x1, .i32⟩
  | .hbm, ⟨68, _⟩ => ⟨S1x4, .f32⟩
  | .hbm, ⟨69, _⟩ => ⟨S1x1, .f32⟩
  | .hbm, ⟨70, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x4, .f32⟩
  | .local _ .vmem, ⟨13, _⟩ => ⟨S5000x4, .f32⟩
  | .local _ .vmem, ⟨14, _⟩ => ⟨S5000x4, .f32⟩
  | .local _ .vmem, ⟨15, _⟩ => ⟨S2000x4, .f32⟩
  | .local _ .vmem, ⟨16, _⟩ => ⟨S2000x4, .f32⟩
  | .local _ .vmem, ⟨17, _⟩ => ⟨S2000x1, .f32⟩
  | .local _ .vmem, ⟨18, _⟩ => ⟨S2000x1, .f32⟩
  | .local _ .vmem, ⟨19, _⟩ => ⟨S1x4, .f32⟩
  | .local _ .vmem, ⟨20, _⟩ => ⟨S2000x1, .i32⟩
  | .local _ .vmem, ⟨21, _⟩ => ⟨S2000x1, .i32⟩
  | .local _ .vmem, ⟨22, _⟩ => ⟨S256x1, .f32⟩
  | .local _ .vmem, ⟨23, _⟩ => ⟨S4x1, .f32⟩
  | .local _ .vmem, ⟨24, _⟩ => ⟨S1x1, .f32⟩
  | .local _ .vmem, ⟨25, _⟩ => ⟨S256x1, .f32⟩
  | .local _ .vmem, ⟨26, _⟩ => ⟨S256x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v34 : BitVec 1 := Scalar.cmpi .eq arg0 c49_i32
  let v35 : BitVec 32 := Scalar.extui v34
  let c0_i32_14 : BitVec 32 := 0#32
  let v36 : BitVec 1 := Scalar.cmpi .ne v35 c0_i32_14
  v36

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x4_S64x4_0_0 : ∀ a, (![0, 0] : Fin 2 → Nat) a + S64x4.size a ≤ S64x4.size a
  h_S64x4 : 0 < S64x4.numel
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  bcast_S_S100000x4 : S_.BroadcastsInDim S100000x4 (![] : Fin 0 → Fin S100000x4.rank)
  bcast_S_S256 : S_.BroadcastsInDim S256 (![] : Fin 0 → Fin S256.rank)
  bcast_S100000_S100000x1_0 : S100000.BroadcastsInDim S100000x1 (![0] : Fin 1 → Fin S100000x1.rank)
  shapeCasts_S256_S256x1 : S256.ShapeCasts S256x1
  shapeCasts_S4_S1x4 : S4.ShapeCasts S1x4
  shapeCasts_S1_S1x1 : S1.ShapeCasts S1x1
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x4 : S2000x1.Broadcasts S2000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  iota_S2000x256_d1_w32 : S2000x256.Iotas .tc 32 [1]
  broadcasts_S2000x1_S2000x256 : S2000x1.Broadcasts S2000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4 : S256x1.Broadcasts S256x4
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x4_S5000x4_1_0_0_1_n_n_wf : DotDims.WF S5000x64 S64x4 S5000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  scatter_S256_S100000x1_S100000_n_0_0_1_wf : ScatterDims.WF S256 S100000x1 S100000 [] [0] [0] 1
  dot_S2000x256_S2000x4_S256x4_0_0_1_1_n_n_wf : DotDims.WF S2000x256 S2000x4 S256x4 [0] [0] [1] [1] [] []
  dot_S256x4_S4x1_S256x1_1_0_0_1_n_n_wf : DotDims.WF S256x4 S4x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4.size a ≤ S64x4.size a
  hwx1_3 : ∀ i : grid1.Coords, EltTy.bits .f32 = 32 ∨ (Rect.block (s := S64x4) S64x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x4.size a ≤ S100000x4.size a
  hwx1_4 : ∀ i : grid1.Coords, EltTy.bits .f32 = 32 ∨ (Rect.block (s := S100000x4) S5000x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x4.size a ≤ S100000x4.size a
  hwx2_0 : ∀ i : grid2.Coords, EltTy.bits .f32 = 32 ∨ (Rect.block (s := S100000x4) S2000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x1.size a ≤ S4x1.size a
  hwx2_5 : ∀ i : grid2.Coords, EltTy.bits .f32 = 32 ∨ (Rect.block (s := S4x1) S4x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S256x1.size a
  hwx2_7 : ∀ i : grid2.Coords, EltTy.bits .f32 = 32 ∨ (Rect.block (s := S256x1) S256x1.size (cc2_transform_7 i) (hinb2_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S2000x256_S2000x4_S256x4_0_0_1_1_n_n : DotDims S2000x256 S2000x4 S256x4 where
  lhsContracting := [0]
  rhsContracting := [0]
  lhsNonContracting := [1]
  rhsNonContracting := [1]
  lhsBatch := []
  rhsBatch := []
  wf := dot_S2000x256_S2000x4_S256x4_0_0_1_1_n_n_wf
def dot_S256x4_S4x1_S256x1_1_0_0_1_n_n : DotDims S256x4 S4x1 S256x1 where
  lhsContracting := [1]
  rhsContracting := [0]
  lhsNonContracting := [0]
  rhsNonContracting := [1]
  lhsBatch := []
  rhsBatch := []
  wf := dot_S256x4_S4x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v43) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S4x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S256x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x4 : Shape := ⟨2, ![64, 4]⟩
abbrev S4 : Shape := ⟨1, ![4]⟩
abbrev S4x1 : Shape := ⟨2, ![4, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x4 : Shape := ⟨2, ![100000, 4]⟩
abbrev S3300000x4 : Shape := ⟨2, ![3300000, 4]⟩
abbrev S1x4 : Shape := ⟨2, ![1, 4]⟩
abbrev S256x4 : Shape := ⟨2, ![256, 4]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x4, .f32⟩
  | 6 => ⟨S4, .f32⟩
  | 7 => ⟨S4x1, .f32⟩
  | 8 => ⟨S1, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .i1⟩
  | 72 => ⟨S_, .f32⟩
  | 73 => ⟨S100000x64, .f32⟩
  | 74 => ⟨S100000x64, .i1⟩
  | 75 => ⟨S_, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x4, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000x4, .f32⟩
  | 94 => ⟨S3300000x1, .f32⟩
  | 95 => ⟨S3300000x4, .f32⟩
  | 96 => ⟨S3300000x4, .f32⟩
  | 97 => ⟨S_, .f32⟩
  | 98 => ⟨S100000x4, .f32⟩
  | 99 => ⟨S3300000x1, .i32⟩
  | 100 => ⟨S100000x4, .f32⟩
  | 101 => ⟨S1x4, .f32⟩
  | 102 => ⟨S100000x4, .f32⟩
  | 103 => ⟨S100000x4, .f32⟩
  | 104 => ⟨S_, .f32⟩
  | 105 => ⟨S100000x4, .f32⟩
  | 106 => ⟨S100000x4, .i1⟩
  | 107 => ⟨S_, .f32⟩
  | 108 => ⟨S100000x4, .f32⟩
  | 109 => ⟨S100000x4, .i1⟩
  | 110 => ⟨S_, .f32⟩
  | 111 => ⟨S_, .f32⟩
  | 112 => ⟨S100000x4, .f32⟩
  | 113 => ⟨S100000x4, .f32⟩
  | 114 => ⟨S100000x4, .f32⟩
  | 115 => ⟨S_, .f32⟩
  | 116 => ⟨S100000x4, .f32⟩
  | 117 => ⟨S100000x4, .f32⟩
  | 118 => ⟨S100000x4, .f32⟩
  | 119 => ⟨S_, .f32⟩
  | 120 => ⟨S256x4, .f32⟩
  | 121 => ⟨S100000x1, .i32⟩
  | 122 => ⟨S256x4, .f32⟩
  | 123 => ⟨S_, .f32⟩
  | 124 => ⟨S100000, .f32⟩
  | 125 => ⟨S_, .f32⟩
  | 126 => ⟨S256, .f32⟩
  | 127 => ⟨S100000x1, .i32⟩
  | _ => ⟨S100000x128, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256x1, .f32⟩
  | 5 => ⟨S256x4, .f32⟩
  | 6 => ⟨S256x4, .f32⟩
  | 7 => ⟨S256x1, .f32⟩
  | 8 => ⟨S1x1, .f32⟩
  | 9 => ⟨S256x1, .f32⟩
  | 10 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v47 : Ref sig .tc := ⟨.hbm, 83, rfl⟩
abbrev main_v48 : Ref sig .tc := ⟨.hbm, 84, rfl⟩
abbrev main_c_9 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_cst_1 : Ref sig .tc := ⟨.hbm, 110, rfl⟩
abbrev main_call2_call0_v0 : Ref sig .tc := ⟨.hbm, 111, rfl⟩
abbrev main_call2_call0_v1 : Ref sig .tc := ⟨.hbm, 112, rfl⟩
abbrev main_call2_v4 : Ref sig .tc := ⟨.hbm, 113, rfl⟩
abbrev main_call2_v5 : Ref sig .tc := ⟨.hbm, 114, rfl⟩
abbrev main_call2_cst_2 : Ref sig .tc := ⟨.hbm, 115, rfl⟩
abbrev main_call2_v6 : Ref sig .tc := ⟨.hbm, 116, rfl⟩
abbrev main_call2_v7 : Ref sig .tc := ⟨.hbm, 117, rfl⟩
abbrev main_v65 : Ref sig .tc := ⟨.hbm, 118, rfl⟩
abbrev main_cst_12 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_13 : Ref sig .tc := ⟨.hbm, 123, rfl⟩
abbrev main_v69 : Ref sig .tc := ⟨.hbm, 124, rfl⟩
abbrev main_cst_14 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_15 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S256x4 : S_.BroadcastsInDim S256x4 (![] : Fin 0 → Fin S256x4.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x4_0_1 : S256x1.BroadcastsInDim S256x4 (![0, 1] : Fin 2 → Fin S256x4.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x4_S100000x4_1_0_0_1_n_n_wf : DotDims.WF S100000x64 S64x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  scatter_S256x4_S100000x1_S100000x4_1_0_0_1_wf : ScatterDims.WF S256x4 S100000x1 S100000x4 [1] [0] [0] 1
  scatter_S256_S100000x1_S100000_n_0_0_1_wf : ScatterDims.WF S256 S100000x1 S100000 [] [0] [0] 1
  dot_S256x4_S4x1_S256x1_1_0_0_1_n_n_wf : DotDims.WF S256x4 S4x1 S256x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def scatter_S256x4_S100000x1_S100000x4_1_0_0_1 : ScatterDims S256x4 S100000x1 S100000x4 where
  updateWindowDims := [1]
  insertedWindowDims := [0]
  scatterDimsToOperandDims := [0]
  indexVectorDim := 1
  wf := scatter_S256x4_S100000x1_S100000x4_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x4_S4x1_S256x1_1_0_0_1_n_n : DotDims S256x4 S4x1 S256x1 where
  lhsContracting := [1]
  rhsContracting := [0]
  lhsNonContracting := [0]
  rhsNonContracting := [1]
  lhsBatch := []
  rhsBatch := []
  wf := dot_S256x4_S4x1_S256x1_1_0_0_1_n_n_wf

class Facts : Prop extends Facts₀ where

variable [Facts]
-- ==== Proof.KR0.lean ====
/-
  Region 0 (the dense transform): at every grid point the body loads the block of x, the whole of W1 and the block
  of the dinv column, and stores (x·W1)·dinv into the output block. Stated at the buffer contents V the region is
  entered with: the windows' blocks, what the body leaves in the output window, the body's triple, the pipeline's
  proof data and the body obligation.
-/
import proofs.«418016_j33054068310762_3_alg».proof.Proof.Gen.Kernel.Launch
import proofs.«418016_j33054068310762_3_alg».proof.Proof.Gen.Kernel.Skeleton
import proofs.«418016_j33054068310762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x128 := Rect.unit (s := S5000x128) ![0, 0] S5000x128.size inb_S5000x128_S5000x128_0_0
abbrev r0_d : Rect S5000x1 := Rect.unit (s := S5000x1) ![0, 0] S5000x1.size inb_S5000x1_S5000x1_0_0
abbrev r0_w : Rect S128x64 := Rect.unit (s := S128x64) ![0, 0] S128x64.size inb_S128x64_S128x64_0_0
abbrev r0_o : Rect S5000x64 := Rect.unit (s := S5000x64) ![0, 0] S5000x64.size inb_S5000x64_S5000x64_0_0

/-! ## What the body leaves in the output window's buffer -/

/-- Window 3's staging buffer after the body, from the input windows' blocks (x, dinv column, W1): its one store. -/
def out0_3 (x0 : Vec F S5000x128 .f32) (x1 : Vec F S5000x1 .f32) (x2 : Vec F S128x64 .f32) : Vec F S5000x64 .f32 :=
  View.canon [⟨r0_o, k0_pay1 (View.ld x0 r0_x) (View.ld x2 r0_w) (View.ld x1 r0_d)⟩]

/-- The one store tiles the buffer, so it covers it. -/
theorem cover0_3 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

/-! ## The body's triple -/

set_option maxHeartbeats 1000000 in
/-- The body on whole staging memrefs, the inputs' at contents x0 x1 x2 and the output's at anything, runs to the
    continuation holding the inputs' as they were and the output's at `out0_3` of them. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x64 .f32) (harg3 : arg3.IsWhole) (arg4 : Memref sig .tc .vmem S5000x64 .f32) (harg4 : arg4.IsWhole)
    (x0 : Vec F S5000x128 .f32) (x1 : Vec F S5000x1 .f32) (x2 : Vec F S128x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_matmul_kernel i arg1 harg1 arg2 harg2 arg3 harg3 arg4 harg4) K := by
  simp only [cc0__dense_matmul_kernel_eq_skeleton]; unfold cc0__dense_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`: the invariant, what is owed, and each window's current staging buffer
    whole at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point `t`: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KR1.lean ====
/-
  Region 1 (bias, ELU, second transform): at every grid point the body loads the block of the summed messages, the
  block of the dinv column, the bias row and the whole of W2, forms v = raw·dinv + b1, its ELU, multiplies by W2 and
  by dinv again, and stores the block. Stated at the buffer contents V the region is entered with.
-/
import proofs.«418016_j33054068310762_3_alg».proof.Proof.Gen.Kernel.Launch
import proofs.«418016_j33054068310762_3_alg».proof.Proof.Gen.Kernel.Skeleton
import proofs.«418016_j33054068310762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S5000x64 := Rect.unit (s := S5000x64) ![0, 0] S5000x64.size inb_S5000x64_S5000x64_0_0
abbrev r1_d : Rect S5000x1 := Rect.unit (s := S5000x1) ![0, 0] S5000x1.size inb_S5000x1_S5000x1_0_0
abbrev r1_b : Rect S1x64 := Rect.unit (s := S1x64) ![0, 0] S1x64.size inb_S1x64_S1x64_0_0
abbrev r1_w : Rect S64x4 := Rect.unit (s := S64x4) ![0, 0] S64x4.size inb_S64x4_S64x4_0_0
abbrev r1_o : Rect S5000x4 := Rect.unit (s := S5000x4) ![0, 0] S5000x4.size inb_S5000x4_S5000x4_0_0

/-! ## What the body leaves in the output window's buffer -/

/-- Window 4's staging buffer after the body, from the input windows' blocks (messages, dinv column, bias row, W2):
    its one store. -/
def out1_4 (x0 : Vec F S5000x64 .f32) (x1 : Vec F S5000x1 .f32) (x2 : Vec F S1x64 .f32) (x3 : Vec F S64x4 .f32) : Vec F S5000x4 .f32 :=
  View.canon [⟨r1_o, k1_pay1 (View.ld x0 r1_x) (View.ld x1 r1_d) (View.ld x2 r1_b) (View.ld x3 r1_w) (View.ld x1 r1_d)⟩]

/-- The one store tiles the buffer, so it covers it. -/
theorem cover1_4 (p0 : Vec F S5000x4 .f32) (y : S5000x4.Idx) :
    ∃ pc ∈ ([⟨r1_o, p0⟩] : List (View.Piece (Elt F) S5000x4 .f32)), y ∈ pc.1.set :=
  View.cover_of_tiled [⟨r1_o, p0⟩] S5000x4.size (by rfl) y

/-! ## The body's triple -/

set_option maxHeartbeats 1000000 in
/-- The body on whole staging memrefs, the inputs' at contents x0 … x3 and the output's at anything, runs to the
    continuation holding the inputs' as they were and the output's at `out1_4` of them. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S5000x4 .f32) (harg5 : arg5.IsWhole)
    (x0 : Vec F S5000x64 .f32) (x1 : Vec F S5000x1 .f32) (x2 : Vec F S1x64 .f32) (x3 : Vec F S64x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_elu_matmul_kernel i arg1 harg1 arg2 harg2 arg3 harg3 arg4 harg4 arg5 harg5) K := by
  simp only [cc1__bias_elu_matmul_kernel_eq_skeleton]; unfold cc1__bias_elu_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, what is owed, and each window's current staging buffer
    whole at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point `t`: the same, each buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KR2.lean ====
/-
  Region 2 (bias, ELU, mean pool, head): a scratch accumulator [256, 4] is carried across the 50 grid points. At the
  first point it is reset to zero; at every point the block's activated features are added into it graph by graph (a
  one-hot matrix product); at the last point the accumulator is divided by the node counts, multiplied by W3, the
  bias added, and stored into the output window, which the pipeline writes back only then. Stated at the buffer
  contents V the region is entered with.
-/
import proofs.«418016_j33054068310762_3_alg».proof.Proof.Gen.Kernel.Launch
import proofs.«418016_j33054068310762_3_alg».proof.Proof.Gen.Kernel.Skeleton
import proofs.«418016_j33054068310762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S2000x4 := Rect.unit (s := S2000x4) ![0, 0] S2000x4.size inb_S2000x4_S2000x4_0_0
abbrev r2_d : Rect S2000x1 := Rect.unit (s := S2000x1) ![0, 0] S2000x1.size inb_S2000x1_S2000x1_0_0
abbrev r2_b : Rect S1x4 := Rect.unit (s := S1x4) ![0, 0] S1x4.size inb_S1x4_S1x4_0_0
abbrev r2_c : Rect S256x1 := Rect.unit (s := S256x1) ![0, 0] S256x1.size inb_S256x1_S256x1_0_0
abbrev r2_w : Rect S4x1 := Rect.unit (s := S4x1) ![0, 0] S4x1.size inb_S4x1_S4x1_0_0
abbrev r2_e : Rect S1x1 := Rect.unit (s := S1x1) ![0, 0] S1x1.size inb_S1x1_S1x1_0_0
abbrev r2_s : Rect S256x4 := Rect.unit (s := S256x4) ![0, 0] S256x4.size inb_S256x4_S256x4_0_0

/-- The scratch accumulator as a memref. -/
abbrev scM2 : Memref sig .tc .vmem S256x4 .f32 := Memref.whole cc2_scratch0

/-! ## What the body leaves in the scratch and in the output window -/

/-- The accumulator after the reset of the first point. -/
def accInit : Vec F S256x4 .f32 := View.canon [⟨r2_s, k2_pay1 (F := F)⟩]

/-- The accumulator after a point's update, from the point's blocks (messages, dinv column, bias row, graph words) and
    what the accumulator held. -/
def accStep (x0 : Vec F S2000x4 .f32) (x1 : Vec F S2000x1 .f32) (x2 : Vec F S1x4 .f32) (x3 : Vec F S2000x1 .i32) (s : Vec F S256x4 .f32) : Vec F S256x4 .f32 :=
  View.canon [⟨r2_s, k2_pay2 (View.ld x0 r2_x) (View.ld x1 r2_d) (View.ld x2 r2_b) (View.ld x3 r2_d) (View.ld s r2_s)⟩]

/-- The accumulator after point `n`: reset and updated at the first point, updated at every later one. -/
def acc2 (c : Dev nD) : (n : ℕ) → n < cfg2.N → Vec F S256x4 .f32
  | 0, h => accStep (iblk2 V c 0 ⟨0, h⟩) (iblk2 V c 1 ⟨0, h⟩) (iblk2 V c 2 ⟨0, h⟩) (iblk2 V c 3 ⟨0, h⟩) accInit
  | n + 1, h => accStep (iblk2 V c 0 ⟨n + 1, h⟩) (iblk2 V c 1 ⟨n + 1, h⟩) (iblk2 V c 2 ⟨n + 1, h⟩) (iblk2 V c 3 ⟨n + 1, h⟩) (acc2 c n (Nat.lt_of_succ_lt h))

theorem acc2_zero (c : Dev nD) (h : 0 < cfg2.N) :
    acc2 V c 0 h = accStep (iblk2 V c 0 ⟨0, h⟩) (iblk2 V c 1 ⟨0, h⟩) (iblk2 V c 2 ⟨0, h⟩) (iblk2 V c 3 ⟨0, h⟩) accInit := rfl
theorem acc2_succ (c : Dev nD) (n : ℕ) (h : n + 1 < cfg2.N) :
    acc2 V c (n + 1) h = accStep (iblk2 V c 0 ⟨n + 1, h⟩) (iblk2 V c 1 ⟨n + 1, h⟩) (iblk2 V c 2 ⟨n + 1, h⟩) (iblk2 V c 3 ⟨n + 1, h⟩) (acc2 V c n (Nat.lt_of_succ_lt h)) := rfl

/-- Window 7's staging buffer after the last point's body, from the accumulator and the blocks of the counts, W3 and
    the last bias: its one store. (At the other points the body stores nothing there and the pipeline does not write the
    window back: the same expression is only a placeholder then.) -/
def out2_7 (s : Vec F S256x4 .f32) (x4 : Vec F S256x1 .f32) (x5 : Vec F S4x1 .f32) (x6 : Vec F S1x1 .f32) : Vec F S256x1 .f32 :=
  View.canon [⟨r2_c, k2_pay3 (View.ld s r2_s) (View.ld x4 r2_c) (View.ld x5 r2_w) (View.ld x6 r2_e)⟩]

/-! ## The region invariant -/

/-- Before point `n`: at the first point the class's invariant (every scoped buffer that is no staging buffer of this
    region at anything, the generator register at some state); afterwards the same with the scratch accumulator at what
    the point before left in it. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ owns (c : Thread nD τ) scM2 fullShare (acc2 V c n hn)) ∗ (∃ r, prngReg c r))

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (acc2 V c t.val t.isLt) (iblk2 V c 4 t) (iblk2 V c 5 t) (iblk2 V c 6 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (acc2 V c t.val t.isLt) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body's two conditions over the grid -/

/-- The first conditional's test, from the grid coordinate. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional's test. -/
abbrev cond2_1 (i : grid2.Coords) : Prop := k2_cond2 i = 1#1
/-- It holds at the last point only. -/
theorem hcond2_1 : ∀ t : Fin cfg2.N, cond2_1 (grid2.coords t) ↔ t.val = 49 :=
  (by decide +kernel : ∀ t : Fin grid2.N, cond2_1 (grid2.coords t) ↔ t.val = 49)

/-- An input window is never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the body stores nothing into window 7: it is idle there, -/
theorem idleAt2_7 : ∀ t : Fin cfg2.N, ¬cond2_1 (grid2.coords t) → cfg2.idle 7 (grid2.coords t) = true := by decide +kernel
/-- and is not written back there; -/
theorem noFlush2_7 : ∀ t : Fin cfg2.N, ¬cond2_1 (grid2.coords t) → (cfg2.win 7).flush t = false := by decide +kernel
/-- at the last point it is live. -/
theorem liveAt2_7 : ∀ t : Fin cfg2.N, cond2_1 (grid2.coords t) → cfg2.idle 7 (grid2.coords t) = false := by decide +kernel

/-! ## The body's three cases -/

theorem hz2 : (![0, 0] : Fin 2 → Nat) = fun _ => 0 := funext fun a => by fin_cases a <;> rfl

/-- A list of stores whose last is through the whole-shape rectangle covers the shape. -/
theorem cover_cons_unit {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

set_option maxHeartbeats 1000000 in
/-- The first point: the scratch, at anything, is reset and then updated from the point's blocks; window 7's buffer is
    left as it was. -/
theorem run2_first (c : Dev nD) (E : Set ℕ) (i : grid2.Coords)
    (arg1 : Memref sig .tc .vmem S2000x4 .f32) (harg1 : arg1.IsWhole) (arg2 : Memref sig .tc .vmem S2000x1 .f32) (harg2 : arg2.IsWhole)
    (arg3 : Memref sig .tc .vmem S1x4 .f32) (harg3 : arg3.IsWhole) (arg4 : Memref sig .tc .vmem S2000x1 .i32) (harg4 : arg4.IsWhole)
    (arg5 : Memref sig .tc .vmem S256x1 .f32) (harg5 : arg5.IsWhole) (arg6 : Memref sig .tc .vmem S4x1 .f32) (harg6 : arg6.IsWhole)
    (arg7 : Memref sig .tc .vmem S1x1 .f32) (harg7 : arg7.IsWhole) (arg8 : Memref sig .tc .vmem S256x1 .f32) (harg8 : arg8.IsWhole)
    (arg9 : Memref sig .tc .vmem S256x4 .f32) (harg9 : arg9.IsWhole)
    (hc0 : cond2_0 i) (hc1 : ¬cond2_1 i)
    (x0 : Vec F S2000x4 .f32) (x1 : Vec F S2000x1 .f32) (x2 : Vec F S1x4 .f32) (x3 : Vec F S2000x1 .i32)
    (x4 : Vec F S256x1 .f32) (x5 : Vec F S4x1 .f32) (x6 : Vec F S1x1 .f32) (x7 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (accStep x0 x1 x2 x3 accInit)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_words
  unfold accStep accInit
  rw [View.read_writes_eq_canon _ _ _ (cover_cons_unit hz2 _ _ _)]
  simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]

set_option maxHeartbeats 1000000 in
/-- A middle point: the scratch, at `s`, is updated from the point's blocks; window 7's buffer is left as it was. -/
theorem run2_mid (c : Dev nD) (E : Set ℕ) (i : grid2.Coords)
    (arg1 : Memref sig .tc .vmem S2000x4 .f32) (harg1 : arg1.IsWhole) (arg2 : Memref sig .tc .vmem S2000x1 .f32) (harg2 : arg2.IsWhole)
    (arg3 : Memref sig .tc .vmem S1x4 .f32) (harg3 : arg3.IsWhole) (arg4 : Memref sig .tc .vmem S2000x1 .i32) (harg4 : arg4.IsWhole)
    (arg5 : Memref sig .tc .vmem S256x1 .f32) (harg5 : arg5.IsWhole) (arg6 : Memref sig .tc .vmem S4x1 .f32) (harg6 : arg6.IsWhole)
    (arg7 : Memref sig .tc .vmem S1x1 .f32) (harg7 : arg7.IsWhole) (arg8 : Memref sig .tc .vmem S256x1 .f32) (harg8 : arg8.IsWhole)
    (arg9 : Memref sig .tc .vmem S256x4 .f32) (harg9 : arg9.IsWhole)
    (hc0 : ¬cond2_0 i) (hc1 : ¬cond2_1 i)
    (x0 : Vec F S2000x4 .f32) (x1 : Vec F S2000x1 .f32) (x2 : Vec F S1x4 .f32) (x3 : Vec F S2000x1 .i32)
    (x4 : Vec F S256x1 .f32) (x5 : Vec F S4x1 .f32) (x6 : Vec F S1x1 .f32) (x7 : Vec F S256x1 .f32) (s : Vec F S256x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (accStep x0 x1 x2 x3 s)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_words
  unfold accStep
  rw [View.read_writes_eq_canon _ _ _ (cover_cons_unit hz2 _ _ _)]
  simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]

set_option maxHeartbeats 1000000 in
/-- The last point: the scratch, at `s`, is updated from the point's blocks, and window 7's buffer, at anything, is
    stored the head's output of the updated scratch, the counts, W3 and the bias. -/
theorem run2_last (c : Dev nD) (E : Set ℕ) (i : grid2.Coords)
    (arg1 : Memref sig .tc .vmem S2000x4 .f32) (harg1 : arg1.IsWhole) (arg2 : Memref sig .tc .vmem S2000x1 .f32) (harg2 : arg2.IsWhole)
    (arg3 : Memref sig .tc .vmem S1x4 .f32) (harg3 : arg3.IsWhole) (arg4 : Memref sig .tc .vmem S2000x1 .i32) (harg4 : arg4.IsWhole)
    (arg5 : Memref sig .tc .vmem S256x1 .f32) (harg5 : arg5.IsWhole) (arg6 : Memref sig .tc .vmem S4x1 .f32) (harg6 : arg6.IsWhole)
    (arg7 : Memref sig .tc .vmem S1x1 .f32) (harg7 : arg7.IsWhole) (arg8 : Memref sig .tc .vmem S256x1 .f32) (harg8 : arg8.IsWhole)
    (arg9 : Memref sig .tc .vmem S256x4 .f32) (harg9 : arg9.IsWhole)
    (hc0 : ¬cond2_0 i) (hc1 : cond2_1 i)
    (x0 : Vec F S2000x4 .f32) (x1 : Vec F S2000x1 .f32) (x2 : Vec F S1x4 .f32) (x3 : Vec F S2000x1 .i32)
    (x4 : Vec F S256x1 .f32) (x5 : Vec F S4x1 .f32) (x6 : Vec F S1x1 .f32) (s : Vec F S256x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 (accStep x0 x1 x2 x3 s) x4 x5 x6)
            ∗ owns (c : Thread nD τ) arg9 fullShare (accStep x0 x1 x2 x3 s)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    unfold out2_7 accStep
    rw [View.read_writes_eq_canon _ _ _ (cover_cons_unit hz2 _ _ _)]
    simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]
  iexists _; isplitr
  swap; · iexact HS
  ipureintro
  sl_unfold_words
  unfold accStep
  rw [View.read_writes_eq_canon _ _ _ (cover_cons_unit hz2 _ _ _)]
  simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]

/-! ## The invariant, opened -/

/-- The staging buffers of the other two regions, each at some contents, and one more conjunct last: the chain the
    invariant is written over. -/
def restWith (c : Dev nD) (X : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ X)

/-- The last conjunct taken out of the chain, and another put back in its place. -/
theorem restWith_swap (c : Dev nD) (X Y : sProp 𝕄) : restWith c X ⊢ iprop(X ∗ (Y -∗ restWith c Y)) := by
  unfold restWith
  iintro ⟨R0, R1, R2, R3, R4, R5, R6, R7, R8, R9, R10, R11, R12, R13, R14, HX⟩
  isplitl [HX]; · iexact HX
  iintro HY
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HY

/-- The class's invariant with the scratch as a memref owned at some contents. -/
theorem PhiA2_eq (c : Dev nD) :
    (Pipeline.ΦA spec2 c : sProp 𝕄)
      = iprop(restWith c (iprop(∃ d, owns (c : Thread nD τ) scM2 fullShare d)) ∗ (∃ r, prngReg c r)) := by
  unfold Pipeline.ΦA restWith; rw [scopedRest2_eq]; simp only [scM2, owns_whole]; try rfl

theorem PhiS2_zero (c : Dev nD) (n : ℕ) (h : n ≤ cfg2.N) (hz : n = 0) : PhiS2 V c n h = Pipeline.ΦA spec2 c := by
  subst hz; rfl

/-- After point `n`: the scratch at that point's accumulator. -/
theorem PhiS2_succ (c : Dev nD) (n : ℕ) (hn : n < cfg2.N) :
    PhiS2 V c (n + 1) hn = iprop(restWith c (owns (c : Thread nD τ) scM2 fullShare (acc2 V c n hn)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(restWith c (owns (c : Thread nD τ) scM2 fullShare (acc2 V c (n - 1) (by omega))) ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The accumulator after the first point, and after a later one. -/
theorem acc2_first (c : Dev nD) (t : Fin cfg2.N) (h0 : t.val = 0) :
    acc2 V c t.val t.isLt = accStep (iblk2 V c 0 t) (iblk2 V c 1 t) (iblk2 V c 2 t) (iblk2 V c 3 t) accInit := by
  obtain ⟨n, hn⟩ := t
  cases n with
  | zero => rfl
  | succ n => exact absurd h0 (Nat.succ_ne_zero n)
theorem acc2_later (c : Dev nD) (t : Fin cfg2.N) (h0 : t.val ≠ 0) :
    acc2 V c t.val t.isLt = accStep (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h0
  | succ n => rfl

/-! ## The body at a point -/

/-- Each window's current staging memref at point `t`, as the pipeline passes it, and its wholeness. -/
abbrev ms2_0 (t : Fin cfg2.N) : Memref sig .tc .vmem S2000x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x4 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256x1 .f32 := win2_7.stage (cfg2.slots t 7)
abbrev hs2_7 (t : Fin cfg2.N) : (ms2_7 t).IsWhole := hstage2_7 ((cfg2.slots t 7).cast nbuf2_7)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' buffers hold their blocks; the closed forms say whether the point is the first, a
    middle or the last one; the invariant hands the body the scratch (at anything at the first point, at what the point
    before left elsewhere) and takes it back at this point's accumulator; window 7's buffer is handed back untouched
    except at the last point, where it holds the head's output. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  have hN : t.val < 50 := lt_of_lt_of_eq t.isLt (show cfg2.N = 50 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    rw [acc2_first V c t h0]
    rw [PhiS2_castSucc V c t, PhiS2_zero V c _ _ h0, PhiA2_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨HS, HW⟩ := (restWith_swap c _ (owns (c : Thread nD τ) scM2 fullShare (accStep (iblk2 V c 0 t) (iblk2 V c 1 t) (iblk2 V c 2 t) (iblk2 V c 3 t) accInit))) $$ HR
    iapply (run2_first c Set.univ (grid2.coords t) _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) ((dat2 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HW Hg]
    · isplitl [HS HW]
      · iapply HW; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond2_0 (grid2.coords t) := fun h => h0 ((hcond2_0 t).mp h)
    rw [acc2_later V c t h0]
    rw [PhiS2_castSucc V c t, PhiS2_pos V c _ _ h0]
    by_cases h1 : t.val = 49
    · have hc1 : cond2_1 (grid2.coords t) := (hcond2_1 t).mpr h1
      rw [show (dat2 V c).leavesExact 7 t = owns (c : Thread nD τ) (ms2_7 t) fullShare ((dat2 V c).after 7 t) from by
        unfold Dat.leavesExact; rw [liveAt2_7 t hc1], after2_7, acc2_later V c t h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨HS, HW⟩ := (restWith_swap c _ (owns (c : Thread nD τ) scM2 fullShare (accStep (iblk2 V c 0 t) (iblk2 V c 1 t) (iblk2 V c 2 t) (iblk2 V c 3 t) (acc2 V c (t.val - 1) (Nat.lt_of_le_of_lt (Nat.sub_le _ _) t.isLt))))) $$ HR
      iapply (run2_last c Set.univ (grid2.coords t) _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HW Hg]
      · isplitl [HS HW]
        · iapply HW; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 V c) 7 t (idleAt2_7 t hc1) (noFlush2_7 t hc1)]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨HS, HW⟩ := (restWith_swap c _ (owns (c : Thread nD τ) scM2 fullShare (accStep (iblk2 V c 0 t) (iblk2 V c 1 t) (iblk2 V c 2 t) (iblk2 V c 3 t) (acc2 V c (t.val - 1) (Nat.lt_of_le_of_lt (Nat.sub_le _ _) t.isLt))))) $$ HR
      iapply (run2_mid c Set.univ (grid2.coords t) _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) ((dat2 V c).before 7 t d7) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HW Hg]
      · isplitl [HS HW]
        · iapply HW; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-! ## The body obligation, and the invariant at the region's ends -/

/-- The library's body obligation, at every point. -/
theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 50 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨HR, Hg⟩
  isplitl [HR]
  · ihave ⟨HS, HW⟩ := (restWith_swap c _ (iprop(∃ d, owns (c : Thread nD τ) scM2 fullShare d))) $$ HR
    iapply HW; iexists _; iexact HS
  iexact Hg

end Cert.Kernel.Reg

end
-- ==== Proof.KRun.lean ====
/-
  The run of the whole kernel program: three kernel regions among host stretches. The contents each region leaves in
  its output array are chosen to be what its pipeline's write-backs leave; with that choice every unscoped buffer of
  every core ends at the last valuation, the argument arrays end as launched, and the last region's output array ends
  at what its write-backs leave.
-/
import proofs.«418016_j33054068310762_3_alg».proof.Proof.KRunCond
import proofs.«418016_j33054068310762_3_alg».proof.Proof.KR0
import proofs.«418016_j33054068310762_3_alg».proof.Proof.KR1
import proofs.«418016_j33054068310762_3_alg».proof.Proof.KR2

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ)

/-! ## What the regions leave: the unknowns of the valuations, chosen -/

/-- What region 0's write-backs leave in its output array, entered at the valuation `V3`. -/
def o4 (c : Dev nD) : Buf (Elt F) ((c : Thread nD τ).loc main_v16) :=
  (dat0 (fun c b => V3 m c b) c).arrAt 3 cfg0.N

/-- The first stage of the choice: region 0's output, at every index. -/
def outsA : Outs (F := F) := fun _ r c => Function.update (V3 m c) main_v16 (o4 m c) r

/-- What region 1's write-backs leave in its output array, entered at the valuation `V5` over the first stage. -/
def o6 (c : Dev nD) : Buf (Elt F) ((c : Thread nD τ).loc main_v28) :=
  (dat1 (fun c b => V5 m (outsA m) c b) c).arrAt 4 cfg1.N

/-- The second stage: region 0's output at index 4, region 1's elsewhere. -/
def outsB : Outs (F := F) := fun J r c =>
  if J = 4 then outsA m J r c else Function.update (V5 m (outsA m) c) main_v28 (o6 m c) r

/-- What region 2's write-backs leave in its output array, entered at the valuation `V7` over the second stage. -/
def o8 (c : Dev nD) : Buf (Elt F) ((c : Thread nD τ).loc main_v47) :=
  (dat2 (fun c b => V7 m (outsB m) c b) c).arrAt 7 cfg2.N

/-- The choice: region 2's output at index 8, the second stage elsewhere. -/
def outs : Outs (F := F) := fun J r c =>
  if J = 8 then Function.update (V7 m (outsB m) c) main_v47 (o8 m c) r else outsB m J r c

theorem outsA_4 (c : Dev nD) : outsA m 4 main_v16 c = o4 m c := by
  unfold outsA; exact Function.update_self _ _ _
theorem outsB_4 (c : Dev nD) : outsB m 4 main_v16 c = o4 m c := by
  unfold outsB; rw [if_pos rfl]; exact outsA_4 m c
theorem outs_4 (c : Dev nD) : outs m 4 main_v16 c = o4 m c := by
  unfold outs; rw [if_neg (by decide)]; exact outsB_4 m c

/-- The valuations up to region 1's entry read the choice at region 0's output only. -/
theorem V4_outsB (c : Dev nD) : V4 m (outsB m) c = V4 m (outsA m) c := by
  show Function.update (V3 m c) main_v16 (outsB m 4 main_v16 c) = Function.update (V3 m c) main_v16 (outsA m 4 main_v16 c)
  rw [outsB_4, outsA_4]
theorem V4_outs (c : Dev nD) : V4 m (outs m) c = V4 m (outsA m) c := by
  show Function.update (V3 m c) main_v16 (outs m 4 main_v16 c) = Function.update (V3 m c) main_v16 (outsA m 4 main_v16 c)
  rw [outs_4, outsA_4]
theorem V5_outsB (c : Dev nD) : V5 m (outsB m) c = V5 m (outsA m) c := by
  show StableHlo.after hostOps1 (V4 m (outsB m) c) = StableHlo.after hostOps1 (V4 m (outsA m) c)
  rw [V4_outsB]
theorem V5_outs (c : Dev nD) : V5 m (outs m) c = V5 m (outsA m) c := by
  show StableHlo.after hostOps1 (V4 m (outs m) c) = StableHlo.after hostOps1 (V4 m (outsA m) c)
  rw [V4_outs]

theorem outsB_6 (c : Dev nD) : outsB m 6 main_v28 c = o6 m c := by
  unfold outsB; rw [if_neg (by decide)]; exact Function.update_self _ _ _
theorem outs_6 (c : Dev nD) : outs m 6 main_v28 c = o6 m c := by
  unfold outs; rw [if_neg (by decide)]; exact outsB_6 m c

/-- The valuations up to region 2's entry read the choice at the first two outputs only. -/
theorem V6_outs (c : Dev nD) : V6 m (outs m) c = V6 m (outsB m) c := by
  show Function.update (V5 m (outs m) c) main_v28 (outs m 6 main_v28 c) = Function.update (V5 m (outsB m) c) main_v28 (outsB m 6 main_v28 c)
  rw [outs_6, outsB_6, V5_outs, V5_outsB]
theorem V7_outs (c : Dev nD) : V7 m (outs m) c = V7 m (outsB m) c := by
  show StableHlo.after hostOps2 (V6 m (outs m) c) = StableHlo.after hostOps2 (V6 m (outsB m) c)
  rw [V6_outs]

theorem outs_8 (c : Dev nD) : outs m 8 main_v47 c = o8 m c := by
  unfold outs; rw [if_pos rfl]; exact Function.update_self _ _ _

/-- The regions' entry contents do not depend on the later stages of the choice. -/
theorem Vin1_eq : (fun (c : Dev nD) (b : Ref sig .tc) => V5 m (outs m) c b) = fun (c : Dev nD) (b : Ref sig .tc) => V5 m (outsA m) c b := by
  funext c b; rw [V5_outs]
theorem Vin2_eq : (fun (c : Dev nD) (b : Ref sig .tc) => V7 m (outs m) c b) = fun (c : Dev nD) (b : Ref sig .tc) => V7 m (outsB m) c b := by
  funext c b; rw [V7_outs]

/-! ## The exit facts: each region's output array ends at what its write-backs leave -/

theorem exit0 (c : Dev nD) : V4 m (outs m) c main_v16 = (dat0 (fun c b => V3 m c b) c).arrAt 3 cfg0.N := by
  show Function.update (V3 m c) main_v16 (outs m 4 main_v16 c) main_v16 = _
  rw [Function.update_self, outs_4]; rfl
theorem exit1 (c : Dev nD) : V6 m (outs m) c main_v28 = (dat1 (fun c b => V5 m (outs m) c b) c).arrAt 4 cfg1.N := by
  show Function.update (V5 m (outs m) c) main_v28 (outs m 6 main_v28 c) main_v28 = _
  rw [Function.update_self, outs_6, Vin1_eq]; rfl
theorem exit2 (c : Dev nD) : V8 m (outs m) c main_v47 = (dat2 (fun c b => V7 m (outs m) c b) c).arrAt 7 cfg2.N := by
  show Function.update (V7 m (outs m) c) main_v47 (outs m 8 main_v47 c) main_v47 = _
  rw [Function.update_self, outs_8, Vin2_eq]; rfl

/-! ## At each region's exit: its arrays at what the pipeline leaves, every other buffer as entered -/

theorem hF0 (c : Dev nD) (w : Fin cfg0.W) :
    (dat0 (fun c b => V3 m c b) c).arrAt w cfg0.N = V4 m (outs m) c (Pipeline.arrRef spec0 w) := by
  match w with
  | ⟨0, _⟩ => exact (((dat0 (fun c b => V3 m c b) c).arrAt_in 0 rfl _).trans (A_eq0 _ c 0)).trans (V4_of m (outs m) c main_arg0 (by decide)).symm
  | ⟨1, _⟩ => exact (((dat0 (fun c b => V3 m c b) c).arrAt_in 1 rfl _).trans (A_eq0 _ c 1)).trans (V4_of m (outs m) c main_v15 (by decide)).symm
  | ⟨2, _⟩ => exact (((dat0 (fun c b => V3 m c b) c).arrAt_in 2 rfl _).trans (A_eq0 _ c 2)).trans (V4_of m (outs m) c main_arg3 (by decide)).symm
  | ⟨3, _⟩ => exact (exit0 m c).symm
theorem hrest0 (c : Dev nD) : ∀ b : Ref sig .tc, b ∉ Finset.univ.image (Pipeline.arrRef spec0) → V4 m (outs m) c b = V3 m c b :=
  fun b hb => V4_of m (outs m) c b fun h => hb (by
    rw [List.mem_singleton] at h; subst h
    exact Finset.mem_image.mpr ⟨3, Finset.mem_univ _, rfl⟩)

theorem hF1 (c : Dev nD) (w : Fin cfg1.W) :
    (dat1 (fun c b => V5 m (outs m) c b) c).arrAt w cfg1.N = V6 m (outs m) c (Pipeline.arrRef spec1 w) := by
  match w with
  | ⟨0, _⟩ => exact (((dat1 (fun c b => V5 m (outs m) c b) c).arrAt_in 0 rfl _).trans (A_eq1 _ c 0)).trans (V6_of m (outs m) c main_v26 (by decide)).symm
  | ⟨1, _⟩ => exact (((dat1 (fun c b => V5 m (outs m) c b) c).arrAt_in 1 rfl _).trans (A_eq1 _ c 1)).trans (V6_of m (outs m) c main_v15 (by decide)).symm
  | ⟨2, _⟩ => exact (((dat1 (fun c b => V5 m (outs m) c b) c).arrAt_in 2 rfl _).trans (A_eq1 _ c 2)).trans (V6_of m (outs m) c main_v27 (by decide)).symm
  | ⟨3, _⟩ => exact (((dat1 (fun c b => V5 m (outs m) c b) c).arrAt_in 3 rfl _).trans (A_eq1 _ c 3)).trans (V6_of m (outs m) c main_arg5 (by decide)).symm
  | ⟨4, _⟩ => exact (exit1 m c).symm
theorem hrest1 (c : Dev nD) : ∀ b : Ref sig .tc, b ∉ Finset.univ.image (Pipeline.arrRef spec1) → V6 m (outs m) c b = V5 m (outs m) c b :=
  fun b hb => V6_of m (outs m) c b fun h => hb (by
    rw [List.mem_singleton] at h; subst h
    exact Finset.mem_image.mpr ⟨4, Finset.mem_univ _, rfl⟩)

set_option maxHeartbeats 2000000 in
theorem hF2 (c : Dev nD) (w : Fin cfg2.W) :
    (dat2 (fun c b => V7 m (outs m) c b) c).arrAt w cfg2.N = V8 m (outs m) c (Pipeline.arrRef spec2 w) := by
  match w with
  | ⟨0, _⟩ => exact (((dat2 (fun c b => V7 m (outs m) c b) c).arrAt_in 0 rfl _).trans (A_eq2 _ c 0)).trans (V8_of m (outs m) c main_v38 (by decide)).symm
  | ⟨1, _⟩ => exact (((dat2 (fun c b => V7 m (outs m) c b) c).arrAt_in 1 rfl _).trans (A_eq2 _ c 1)).trans (V8_of m (outs m) c main_v15 (by decide)).symm
  | ⟨2, _⟩ => exact (((dat2 (fun c b => V7 m (outs m) c b) c).arrAt_in 2 rfl _).trans (A_eq2 _ c 2)).trans (V8_of m (outs m) c main_v45 (by decide)).symm
  | ⟨3, _⟩ => exact (((dat2 (fun c b => V7 m (outs m) c b) c).arrAt_in 3 rfl _).trans (A_eq2 _ c 3)).trans (V8_of m (outs m) c main_v44 (by decide)).symm
  | ⟨4, _⟩ => exact (((dat2 (fun c b => V7 m (outs m) c b) c).arrAt_in 4 rfl _).trans (A_eq2 _ c 4)).trans (V8_of m (outs m) c main_v43 (by decide)).symm
  | ⟨5, _⟩ => exact (((dat2 (fun c b => V7 m (outs m) c b) c).arrAt_in 5 rfl _).trans (A_eq2 _ c 5)).trans (V8_of m (outs m) c main_arg7 (by decide)).symm
  | ⟨6, _⟩ => exact (((dat2 (fun c b => V7 m (outs m) c b) c).arrAt_in 6 rfl _).trans (A_eq2 _ c 6)).trans (V8_of m (outs m) c main_v46 (by decide)).symm
  | ⟨7, _⟩ => exact (exit2 m c).symm
theorem hrest2 (c : Dev nD) : ∀ b : Ref sig .tc, b ∉ Finset.univ.image (Pipeline.arrRef spec2) → V8 m (outs m) c b = V7 m (outs m) c b :=
  fun b hb => V8_of m (outs m) c b fun h => hb (by
    rw [List.mem_singleton] at h; subst h
    exact Finset.mem_image.mpr ⟨7, Finset.mem_univ _, rfl⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (fun c b => V3 m c b) c
  | ⟨1, _⟩ => fun c => dat1 (fun c b => V5 m (outs m) c b) c
  | ⟨2, _⟩ => fun c => dat2 (fun c b => V7 m (outs m) c b) c

abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its dues,
    at nothing. -/
abbrev Rst (c : Dev nD) : sProp 𝕄 := iprop((∃ r, prngReg c r) ∗ ∃ W, owes (c : Thread nD τ) (0 : CellTallies nD τ sig Unit) W)

/-! ## The regions as segments -/

-- applying a library lemma stated over the pinned configuration unifies with the printed one only when unification may
-- unfold plain definitions in a metavariable's type
set_option backward.isDefEq.respectTransparency.types false in
/-- REGION 0 over the thread state: entered from every unscoped buffer at `V3 m`, left at `V4 m (outs m)`. Its arrays are split
    out of the unscoped buffers and put back at the exit contents; the generator register goes into the region's
    invariant and comes back; nothing is owed; the kernel has no semaphore of its own. -/
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ Lz lvz 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 1 over the thread state: entered from every unscoped buffer at `V5 m (outs m)`, left at `V6 m (outs m)`. Its arrays are split
    out of the unscoped buffers and put back at the exit contents; the generator register goes into the region's
    invariant and comes back; nothing is owed; the kernel has no semaphore of its own. -/
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (fun c b => V5 m (outs m) c b) c).loose
  hwaits := Pipeline.hwaits_of_owed_zero _ _ _ _ Lz lvz 1 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 2 over the thread state: entered from every unscoped buffer at `V7 m (outs m)`, left at `V8 m (outs m)`. Its arrays are split
    out of the unscoped buffers and put back at the exit contents; the generator register goes into the region's
    invariant and comes back; nothing is owed; the kernel has no semaphore of its own. -/
def reg2 : Pipeline.RegionSeg (pcfgs (F := F)) adm (pdats m) () defs₀ 𝒱z Lz lvz 2 where
  win := launch2.win.to₀
  block_pos := launch2.block_pos
  stage_whole := launch2.stage_whole
  K := PEmpty
  osem k := k.elim
  ho := Pipeline.OwnSemFacts.none _
  hbody c := (body_obligation2 (fun c b => V7 m (outs m) c b) c).loose
  hwaits := Pipeline.hwaits_of_owed_zero _ _ _ _ Lz lvz 2 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => V7 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V7 m (outs m) c b) c).Φ 0 from rfl]
    have h2 := hin2 (fun c b => V7 m (outs m) c b) c
    unfold Pipeline.ΦA at h2
    iintro ⟨Hp, -, Hr⟩
    iapply h2
    isplitl [Hr]; · iexact Hr
    iexact Hp
  hout c := by
    rw [Pipeline.ownSems0_none,
      show (pdats m 2 c).Φ (Fin.last _) = (dat2 (fun c b => V7 m (outs m) c b) c).Φ (Fin.last cfg2.N) from rfl]
    have h2 := hout2 (fun c b => V7 m (outs m) c b) c
    unfold Pipeline.ΦA at h2
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (outs m) c b) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN: from any memory with zero counters every weakly fair execution of @main terminates, and every final memory
    holds every unscoped buffer of every core at the last valuation, the regions' outputs being what their pipelines'
    write-backs leave. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V8 m (outs m) c b) :=
  RunCond.run_cond m (EP := emb₁) (ι := ()) (𝒱₀ := 𝒱z) (L := Lz) (lv := lvz) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

/-- THE FRAME: every weakly fair execution of @main terminates and every final memory holds each argument array as
    launched: no host stretch writes an argument and no region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c)⟩) (run_main m ρ)

/-- In any final memory of the run, the last region's output array holds what its pipeline's write-backs leave. -/
theorem result_mem {r : PUnit × MemSt nD τ sig (Elt F)}
    (h : ∀ c : Dev nD, ∀ b ∈ Pipeline.ucRefs τ sig, r.2.mem ((c : Thread nD τ).1, b) = V8 m (outs m) c b) (c : Dev nD) :
    r.2.mem ((c.tc : Thread nD τ).loc main_v47) = (dat2 (fun c b => V7 m (outs m) c b) c).arrAt 7 cfg2.N :=
  (h c _ (mem_uc main_v47 (by decide))).trans (exit2 m c)

end Cert.Kernel.Run

end
-- ==== Proof.R0.lean ====
/-
  Region 0 (the dense transform): at every grid point the body loads the block of x, the whole of W1 and the block
  of the dinv column, and stores (x·W1)·dinv into the output block. Stated at the buffer contents V the region is
  entered with: the windows' blocks, what the body leaves in the output window, the body's triple, the pipeline's
  proof data and the body obligation.
-/
import proofs.«418016_j33054068310762_3_alg».proof.Proof.Gen.KernelIdeal.Launch
import proofs.«418016_j33054068310762_3_alg».proof.Proof.Gen.KernelIdeal.Skeleton
import proofs.«418016_j33054068310762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x128 := Rect.unit (s := S5000x128) ![0, 0] S5000x128.size inb_S5000x128_S5000x128_0_0
abbrev r0_d : Rect S5000x1 := Rect.unit (s := S5000x1) ![0, 0] S5000x1.size inb_S5000x1_S5000x1_0_0
abbrev r0_w : Rect S128x64 := Rect.unit (s := S128x64) ![0, 0] S128x64.size inb_S128x64_S128x64_0_0
abbrev r0_o : Rect S5000x64 := Rect.unit (s := S5000x64) ![0, 0] S5000x64.size inb_S5000x64_S5000x64_0_0

/-! ## What the body leaves in the output window's buffer -/

/-- Window 3's staging buffer after the body, from the input windows' blocks (x, dinv column, W1): its one store. -/
def out0_3 (x0 : Vec F S5000x128 .f32) (x1 : Vec F S5000x1 .f32) (x2 : Vec F S128x64 .f32) : Vec F S5000x64 .f32 :=
  View.canon [⟨r0_o, k0_pay1 (View.ld x0 r0_x) (View.ld x2 r0_w) (View.ld x1 r0_d)⟩]

/-- The one store tiles the buffer, so it covers it. -/
theorem cover0_3 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

/-! ## The body's triple -/

set_option maxHeartbeats 1000000 in
/-- The body on whole staging memrefs, the inputs' at contents x0 x1 x2 and the output's at anything, runs to the
    continuation holding the inputs' as they were and the output's at `out0_3` of them. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x64 .f32) (harg3 : arg3.IsWhole) (arg4 : Memref sig .tc .vmem S5000x64 .f32) (harg4 : arg4.IsWhole)
    (x0 : Vec F S5000x128 .f32) (x1 : Vec F S5000x1 .f32) (x2 : Vec F S128x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_matmul_kernel i arg1 harg1 arg2 harg2 arg3 harg3 arg4 harg4) K := by
  simp only [cc0__dense_matmul_kernel_eq_skeleton]; unfold cc0__dense_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`: the invariant, what is owed, and each window's current staging buffer
    whole at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point `t`: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.R1.lean ====
/-
  Region 1 (bias, ELU, second transform): at every grid point the body loads the block of the summed messages, the
  block of the dinv column, the bias row and the whole of W2, forms v = raw·dinv + b1, its ELU, multiplies by W2 and
  by dinv again, and stores the block. Stated at the buffer contents V the region is entered with.
-/
import proofs.«418016_j33054068310762_3_alg».proof.Proof.Gen.KernelIdeal.Launch
import proofs.«418016_j33054068310762_3_alg».proof.Proof.Gen.KernelIdeal.Skeleton
import proofs.«418016_j33054068310762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S5000x64 := Rect.unit (s := S5000x64) ![0, 0] S5000x64.size inb_S5000x64_S5000x64_0_0
abbrev r1_d : Rect S5000x1 := Rect.unit (s := S5000x1) ![0, 0] S5000x1.size inb_S5000x1_S5000x1_0_0
abbrev r1_b : Rect S1x64 := Rect.unit (s := S1x64) ![0, 0] S1x64.size inb_S1x64_S1x64_0_0
abbrev r1_w : Rect S64x4 := Rect.unit (s := S64x4) ![0, 0] S64x4.size inb_S64x4_S64x4_0_0
abbrev r1_o : Rect S5000x4 := Rect.unit (s := S5000x4) ![0, 0] S5000x4.size inb_S5000x4_S5000x4_0_0

/-! ## What the body leaves in the output window's buffer -/

/-- Window 4's staging buffer after the body, from the input windows' blocks (messages, dinv column, bias row, W2):
    its one store. -/
def out1_4 (x0 : Vec F S5000x64 .f32) (x1 : Vec F S5000x1 .f32) (x2 : Vec F S1x64 .f32) (x3 : Vec F S64x4 .f32) : Vec F S5000x4 .f32 :=
  View.canon [⟨r1_o, k1_pay1 (View.ld x0 r1_x) (View.ld x1 r1_d) (View.ld x2 r1_b) (View.ld x3 r1_w) (View.ld x1 r1_d)⟩]

/-- The one store tiles the buffer, so it covers it. -/
theorem cover1_4 (p0 : Vec F S5000x4 .f32) (y : S5000x4.Idx) :
    ∃ pc ∈ ([⟨r1_o, p0⟩] : List (View.Piece (Elt F) S5000x4 .f32)), y ∈ pc.1.set :=
  View.cover_of_tiled [⟨r1_o, p0⟩] S5000x4.size (by rfl) y

/-! ## The body's triple -/

set_option maxHeartbeats 1000000 in
/-- The body on whole staging memrefs, the inputs' at contents x0 … x3 and the output's at anything, runs to the
    continuation holding the inputs' as they were and the output's at `out1_4` of them. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S5000x4 .f32) (harg5 : arg5.IsWhole)
    (x0 : Vec F S5000x64 .f32) (x1 : Vec F S5000x1 .f32) (x2 : Vec F S1x64 .f32) (x3 : Vec F S64x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_elu_matmul_kernel i arg1 harg1 arg2 harg2 arg3 harg3 arg4 harg4 arg5 harg5) K := by
  simp only [cc1__bias_elu_matmul_kernel_eq_skeleton]; unfold cc1__bias_elu_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, what is owed, and each window's current staging buffer
    whole at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point `t`: the same, each buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.R2.lean ====
/-
  Region 2 (bias, ELU, mean pool, head): a scratch accumulator [256, 4] is carried across the 50 grid points. At the
  first point it is reset to zero; at every point the block's activated features are added into it graph by graph (a
  one-hot matrix product); at the last point the accumulator is divided by the node counts, multiplied by W3, the
  bias added, and stored into the output window, which the pipeline writes back only then. Stated at the buffer
  contents V the region is entered with.
-/
import proofs.«418016_j33054068310762_3_alg».proof.Proof.Gen.KernelIdeal.Launch
import proofs.«418016_j33054068310762_3_alg».proof.Proof.Gen.KernelIdeal.Skeleton
import proofs.«418016_j33054068310762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S2000x4 := Rect.unit (s := S2000x4) ![0, 0] S2000x4.size inb_S2000x4_S2000x4_0_0
abbrev r2_d : Rect S2000x1 := Rect.unit (s := S2000x1) ![0, 0] S2000x1.size inb_S2000x1_S2000x1_0_0
abbrev r2_b : Rect S1x4 := Rect.unit (s := S1x4) ![0, 0] S1x4.size inb_S1x4_S1x4_0_0
abbrev r2_c : Rect S256x1 := Rect.unit (s := S256x1) ![0, 0] S256x1.size inb_S256x1_S256x1_0_0
abbrev r2_w : Rect S4x1 := Rect.unit (s := S4x1) ![0, 0] S4x1.size inb_S4x1_S4x1_0_0
abbrev r2_e : Rect S1x1 := Rect.unit (s := S1x1) ![0, 0] S1x1.size inb_S1x1_S1x1_0_0
abbrev r2_s : Rect S256x4 := Rect.unit (s := S256x4) ![0, 0] S256x4.size inb_S256x4_S256x4_0_0

/-- The scratch accumulator as a memref. -/
abbrev scM2 : Memref sig .tc .vmem S256x4 .f32 := Memref.whole cc2_scratch0

/-! ## What the body leaves in the scratch and in the output window -/

/-- The accumulator after the reset of the first point. -/
def accInit : Vec F S256x4 .f32 := View.canon [⟨r2_s, k2_pay1 (F := F)⟩]

/-- The accumulator after a point's update, from the point's blocks (messages, dinv column, bias row, graph words) and
    what the accumulator held. -/
def accStep (x0 : Vec F S2000x4 .f32) (x1 : Vec F S2000x1 .f32) (x2 : Vec F S1x4 .f32) (x3 : Vec F S2000x1 .i32) (s : Vec F S256x4 .f32) : Vec F S256x4 .f32 :=
  View.canon [⟨r2_s, k2_pay2 (View.ld x0 r2_x) (View.ld x1 r2_d) (View.ld x2 r2_b) (View.ld x3 r2_d) (View.ld s r2_s)⟩]

/-- The accumulator after point `n`: reset and updated at the first point, updated at every later one. -/
def acc2 (c : Dev nD) : (n : ℕ) → n < cfg2.N → Vec F S256x4 .f32
  | 0, h => accStep (iblk2 V c 0 ⟨0, h⟩) (iblk2 V c 1 ⟨0, h⟩) (iblk2 V c 2 ⟨0, h⟩) (iblk2 V c 3 ⟨0, h⟩) accInit
  | n + 1, h => accStep (iblk2 V c 0 ⟨n + 1, h⟩) (iblk2 V c 1 ⟨n + 1, h⟩) (iblk2 V c 2 ⟨n + 1, h⟩) (iblk2 V c 3 ⟨n + 1, h⟩) (acc2 c n (Nat.lt_of_succ_lt h))

theorem acc2_zero (c : Dev nD) (h : 0 < cfg2.N) :
    acc2 V c 0 h = accStep (iblk2 V c 0 ⟨0, h⟩) (iblk2 V c 1 ⟨0, h⟩) (iblk2 V c 2 ⟨0, h⟩) (iblk2 V c 3 ⟨0, h⟩) accInit := rfl
theorem acc2_succ (c : Dev nD) (n : ℕ) (h : n + 1 < cfg2.N) :
    acc2 V c (n + 1) h = accStep (iblk2 V c 0 ⟨n + 1, h⟩) (iblk2 V c 1 ⟨n + 1, h⟩) (iblk2 V c 2 ⟨n + 1, h⟩) (iblk2 V c 3 ⟨n + 1, h⟩) (acc2 V c n (Nat.lt_of_succ_lt h)) := rfl

/-- Window 7's staging buffer after the last point's body, from the accumulator and the blocks of the counts, W3 and
    the last bias: its one store. (At the other points the body stores nothing there and the pipeline does not write the
    window back: the same expression is only a placeholder then.) -/
def out2_7 (s : Vec F S256x4 .f32) (x4 : Vec F S256x1 .f32) (x5 : Vec F S4x1 .f32) (x6 : Vec F S1x1 .f32) : Vec F S256x1 .f32 :=
  View.canon [⟨r2_c, k2_pay3 (View.ld s r2_s) (View.ld x4 r2_c) (View.ld x5 r2_w) (View.ld x6 r2_e)⟩]

/-! ## The region invariant -/

/-- Before point `n`: at the first point the class's invariant (every scoped buffer that is no staging buffer of this
    region at anything, the generator register at some state); afterwards the same with the scratch accumulator at what
    the point before left in it. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ owns (c : Thread nD τ) scM2 fullShare (acc2 V c n hn)) ∗ (∃ r, prngReg c r))

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (acc2 V c t.val t.isLt) (iblk2 V c 4 t) (iblk2 V c 5 t) (iblk2 V c 6 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (acc2 V c t.val t.isLt) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body's two conditions over the grid -/

/-- The first conditional's test, from the grid coordinate. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional's test. -/
abbrev cond2_1 (i : grid2.Coords) : Prop := k2_cond2 i = 1#1
/-- It holds at the last point only. -/
theorem hcond2_1 : ∀ t : Fin cfg2.N, cond2_1 (grid2.coords t) ↔ t.val = 49 :=
  (by decide +kernel : ∀ t : Fin grid2.N, cond2_1 (grid2.coords t) ↔ t.val = 49)

/-- An input window is never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the body stores nothing into window 7: it is idle there, -/
theorem idleAt2_7 : ∀ t : Fin cfg2.N, ¬cond2_1 (grid2.coords t) → cfg2.idle 7 (grid2.coords t) = true := by decide +kernel
/-- and is not written back there; -/
theorem noFlush2_7 : ∀ t : Fin cfg2.N, ¬cond2_1 (grid2.coords t) → (cfg2.win 7).flush t = false := by decide +kernel
/-- at the last point it is live. -/
theorem liveAt2_7 : ∀ t : Fin cfg2.N, cond2_1 (grid2.coords t) → cfg2.idle 7 (grid2.coords t) = false := by decide +kernel

/-! ## The body's three cases -/

theorem hz2 : (![0, 0] : Fin 2 → Nat) = fun _ => 0 := funext fun a => by fin_cases a <;> rfl

/-- A list of stores whose last is through the whole-shape rectangle covers the shape. -/
theorem cover_cons_unit {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

set_option maxHeartbeats 1000000 in
/-- The first point: the scratch, at anything, is reset and then updated from the point's blocks; window 7's buffer is
    left as it was. -/
theorem run2_first (c : Dev nD) (E : Set ℕ) (i : grid2.Coords)
    (arg1 : Memref sig .tc .vmem S2000x4 .f32) (harg1 : arg1.IsWhole) (arg2 : Memref sig .tc .vmem S2000x1 .f32) (harg2 : arg2.IsWhole)
    (arg3 : Memref sig .tc .vmem S1x4 .f32) (harg3 : arg3.IsWhole) (arg4 : Memref sig .tc .vmem S2000x1 .i32) (harg4 : arg4.IsWhole)
    (arg5 : Memref sig .tc .vmem S256x1 .f32) (harg5 : arg5.IsWhole) (arg6 : Memref sig .tc .vmem S4x1 .f32) (harg6 : arg6.IsWhole)
    (arg7 : Memref sig .tc .vmem S1x1 .f32) (harg7 : arg7.IsWhole) (arg8 : Memref sig .tc .vmem S256x1 .f32) (harg8 : arg8.IsWhole)
    (arg9 : Memref sig .tc .vmem S256x4 .f32) (harg9 : arg9.IsWhole)
    (hc0 : cond2_0 i) (hc1 : ¬cond2_1 i)
    (x0 : Vec F S2000x4 .f32) (x1 : Vec F S2000x1 .f32) (x2 : Vec F S1x4 .f32) (x3 : Vec F S2000x1 .i32)
    (x4 : Vec F S256x1 .f32) (x5 : Vec F S4x1 .f32) (x6 : Vec F S1x1 .f32) (x7 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (accStep x0 x1 x2 x3 accInit)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_words
  unfold accStep accInit
  rw [View.read_writes_eq_canon _ _ _ (cover_cons_unit hz2 _ _ _)]
  simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]

set_option maxHeartbeats 1000000 in
/-- A middle point: the scratch, at `s`, is updated from the point's blocks; window 7's buffer is left as it was. -/
theorem run2_mid (c : Dev nD) (E : Set ℕ) (i : grid2.Coords)
    (arg1 : Memref sig .tc .vmem S2000x4 .f32) (harg1 : arg1.IsWhole) (arg2 : Memref sig .tc .vmem S2000x1 .f32) (harg2 : arg2.IsWhole)
    (arg3 : Memref sig .tc .vmem S1x4 .f32) (harg3 : arg3.IsWhole) (arg4 : Memref sig .tc .vmem S2000x1 .i32) (harg4 : arg4.IsWhole)
    (arg5 : Memref sig .tc .vmem S256x1 .f32) (harg5 : arg5.IsWhole) (arg6 : Memref sig .tc .vmem S4x1 .f32) (harg6 : arg6.IsWhole)
    (arg7 : Memref sig .tc .vmem S1x1 .f32) (harg7 : arg7.IsWhole) (arg8 : Memref sig .tc .vmem S256x1 .f32) (harg8 : arg8.IsWhole)
    (arg9 : Memref sig .tc .vmem S256x4 .f32) (harg9 : arg9.IsWhole)
    (hc0 : ¬cond2_0 i) (hc1 : ¬cond2_1 i)
    (x0 : Vec F S2000x4 .f32) (x1 : Vec F S2000x1 .f32) (x2 : Vec F S1x4 .f32) (x3 : Vec F S2000x1 .i32)
    (x4 : Vec F S256x1 .f32) (x5 : Vec F S4x1 .f32) (x6 : Vec F S1x1 .f32) (x7 : Vec F S256x1 .f32) (s : Vec F S256x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (accStep x0 x1 x2 x3 s)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS
  ipureintro
  sl_unfold_words
  unfold accStep
  rw [View.read_writes_eq_canon _ _ _ (cover_cons_unit hz2 _ _ _)]
  simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]

set_option maxHeartbeats 1000000 in
/-- The last point: the scratch, at `s`, is updated from the point's blocks, and window 7's buffer, at anything, is
    stored the head's output of the updated scratch, the counts, W3 and the bias. -/
theorem run2_last (c : Dev nD) (E : Set ℕ) (i : grid2.Coords)
    (arg1 : Memref sig .tc .vmem S2000x4 .f32) (harg1 : arg1.IsWhole) (arg2 : Memref sig .tc .vmem S2000x1 .f32) (harg2 : arg2.IsWhole)
    (arg3 : Memref sig .tc .vmem S1x4 .f32) (harg3 : arg3.IsWhole) (arg4 : Memref sig .tc .vmem S2000x1 .i32) (harg4 : arg4.IsWhole)
    (arg5 : Memref sig .tc .vmem S256x1 .f32) (harg5 : arg5.IsWhole) (arg6 : Memref sig .tc .vmem S4x1 .f32) (harg6 : arg6.IsWhole)
    (arg7 : Memref sig .tc .vmem S1x1 .f32) (harg7 : arg7.IsWhole) (arg8 : Memref sig .tc .vmem S256x1 .f32) (harg8 : arg8.IsWhole)
    (arg9 : Memref sig .tc .vmem S256x4 .f32) (harg9 : arg9.IsWhole)
    (hc0 : ¬cond2_0 i) (hc1 : cond2_1 i)
    (x0 : Vec F S2000x4 .f32) (x1 : Vec F S2000x1 .f32) (x2 : Vec F S1x4 .f32) (x3 : Vec F S2000x1 .i32)
    (x4 : Vec F S256x1 .f32) (x5 : Vec F S4x1 .f32) (x6 : Vec F S1x1 .f32) (s : Vec F S256x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 (accStep x0 x1 x2 x3 s) x4 x5 x6)
            ∗ owns (c : Thread nD τ) arg9 fullShare (accStep x0 x1 x2 x3 s)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    unfold out2_7 accStep
    rw [View.read_writes_eq_canon _ _ _ (cover_cons_unit hz2 _ _ _)]
    simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]
  iexists _; isplitr
  swap; · iexact HS
  ipureintro
  sl_unfold_words
  unfold accStep
  rw [View.read_writes_eq_canon _ _ _ (cover_cons_unit hz2 _ _ _)]
  simp only [View.readAt_eq_ld, harg1.read_unread, harg2.read_unread, harg3.read_unread, harg4.read_unread, harg5.read_unread, harg6.read_unread, harg7.read_unread, harg9.read_unread,
    View.canon_cons_unit_zero (S := S256x4) hz2, View.canon_cons_unit_zero (S := S256x1) hz2, View.readCov_unit_zero (S := S256x4) _ hz2,
    View.ld_unit_zero (S := S2000x4) hz2, View.ld_unit_zero (S := S2000x1) hz2, View.ld_unit_zero (S := S1x4) hz2, View.ld_unit_zero (S := S256x4) hz2,
    View.ld_unit_zero (S := S256x1) hz2, View.ld_unit_zero (S := S4x1) hz2, View.ld_unit_zero (S := S1x1) hz2]

/-! ## The invariant, opened -/

/-- The staging buffers of the other two regions, each at some contents, and one more conjunct last: the chain the
    invariant is written over. -/
def restWith (c : Dev nD) (X : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ X)

/-- The last conjunct taken out of the chain, and another put back in its place. -/
theorem restWith_swap (c : Dev nD) (X Y : sProp 𝕄) : restWith c X ⊢ iprop(X ∗ (Y -∗ restWith c Y)) := by
  unfold restWith
  iintro ⟨R0, R1, R2, R3, R4, R5, R6, R7, R8, R9, R10, R11, R12, R13, R14, HX⟩
  isplitl [HX]; · iexact HX
  iintro HY
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HY

/-- The class's invariant with the scratch as a memref owned at some contents. -/
theorem PhiA2_eq (c : Dev nD) :
    (Pipeline.ΦA spec2 c : sProp 𝕄)
      = iprop(restWith c (iprop(∃ d, owns (c : Thread nD τ) scM2 fullShare d)) ∗ (∃ r, prngReg c r)) := by
  unfold Pipeline.ΦA restWith; rw [scopedRest2_eq]; simp only [scM2, owns_whole]; try rfl

theorem PhiS2_zero (c : Dev nD) (n : ℕ) (h : n ≤ cfg2.N) (hz : n = 0) : PhiS2 V c n h = Pipeline.ΦA spec2 c := by
  subst hz; rfl

/-- After point `n`: the scratch at that point's accumulator. -/
theorem PhiS2_succ (c : Dev nD) (n : ℕ) (hn : n < cfg2.N) :
    PhiS2 V c (n + 1) hn = iprop(restWith c (owns (c : Thread nD τ) scM2 fullShare (acc2 V c n hn)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(restWith c (owns (c : Thread nD τ) scM2 fullShare (acc2 V c (n - 1) (by omega))) ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The accumulator after the first point, and after a later one. -/
theorem acc2_first (c : Dev nD) (t : Fin cfg2.N) (h0 : t.val = 0) :
    acc2 V c t.val t.isLt = accStep (iblk2 V c 0 t) (iblk2 V c 1 t) (iblk2 V c 2 t) (iblk2 V c 3 t) accInit := by
  obtain ⟨n, hn⟩ := t
  cases n with
  | zero => rfl
  | succ n => exact absurd h0 (Nat.succ_ne_zero n)
theorem acc2_later (c : Dev nD) (t : Fin cfg2.N) (h0 : t.val ≠ 0) :
    acc2 V c t.val t.isLt = accStep (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h0
  | succ n => rfl

/-! ## The body at a point -/

/-- Each window's current staging memref at point `t`, as the pipeline passes it, and its wholeness. -/
abbrev ms2_0 (t : Fin cfg2.N) : Memref sig .tc .vmem S2000x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x4 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256x1 .f32 := win2_7.stage (cfg2.slots t 7)
abbrev hs2_7 (t : Fin cfg2.N) : (ms2_7 t).IsWhole := hstage2_7 ((cfg2.slots t 7).cast nbuf2_7)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' buffers hold their blocks; the closed forms say whether the point is the first, a
    middle or the last one; the invariant hands the body the scratch (at anything at the first point, at what the point
    before left elsewhere) and takes it back at this point's accumulator; window 7's buffer is handed back untouched
    except at the last point, where it holds the head's output. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  have hN : t.val < 50 := lt_of_lt_of_eq t.isLt (show cfg2.N = 50 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    rw [acc2_first V c t h0]
    rw [PhiS2_castSucc V c t, PhiS2_zero V c _ _ h0, PhiA2_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨HS, HW⟩ := (restWith_swap c _ (owns (c : Thread nD τ) scM2 fullShare (accStep (iblk2 V c 0 t) (iblk2 V c 1 t) (iblk2 V c 2 t) (iblk2 V c 3 t) accInit))) $$ HR
    iapply (run2_first c Set.univ (grid2.coords t) _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) ((dat2 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HW Hg]
    · isplitl [HS HW]
      · iapply HW; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond2_0 (grid2.coords t) := fun h => h0 ((hcond2_0 t).mp h)
    rw [acc2_later V c t h0]
    rw [PhiS2_castSucc V c t, PhiS2_pos V c _ _ h0]
    by_cases h1 : t.val = 49
    · have hc1 : cond2_1 (grid2.coords t) := (hcond2_1 t).mpr h1
      rw [show (dat2 V c).leavesExact 7 t = owns (c : Thread nD τ) (ms2_7 t) fullShare ((dat2 V c).after 7 t) from by
        unfold Dat.leavesExact; rw [liveAt2_7 t hc1], after2_7, acc2_later V c t h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨HS, HW⟩ := (restWith_swap c _ (owns (c : Thread nD τ) scM2 fullShare (accStep (iblk2 V c 0 t) (iblk2 V c 1 t) (iblk2 V c 2 t) (iblk2 V c 3 t) (acc2 V c (t.val - 1) (Nat.lt_of_le_of_lt (Nat.sub_le _ _) t.isLt))))) $$ HR
      iapply (run2_last c Set.univ (grid2.coords t) _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HW Hg]
      · isplitl [HS HW]
        · iapply HW; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 V c) 7 t (idleAt2_7 t hc1) (noFlush2_7 t hc1)]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨HS, HW⟩ := (restWith_swap c _ (owns (c : Thread nD τ) scM2 fullShare (accStep (iblk2 V c 0 t) (iblk2 V c 1 t) (iblk2 V c 2 t) (iblk2 V c 3 t) (acc2 V c (t.val - 1) (Nat.lt_of_le_of_lt (Nat.sub_le _ _) t.isLt))))) $$ HR
      iapply (run2_mid c Set.univ (grid2.coords t) _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) ((dat2 V c).before 7 t d7) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HW Hg]
      · isplitl [HS HW]
        · iapply HW; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-! ## The body obligation, and the invariant at the region's ends -/

/-- The library's body obligation, at every point. -/
theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 50 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨HR, Hg⟩
  isplitl [HR]
  · ihave ⟨HS, HW⟩ := (restWith_swap c _ (iprop(∃ d, owns (c : Thread nD τ) scM2 fullShare d))) $$ HR
    iapply HW; iexists _; iexact HS
  iexact Hg

end Cert.KernelIdeal.Reg

end
-- ==== Proof.Run.lean ====
/-
  The run of the whole kernel program: three kernel regions among host stretches. The contents each region leaves in
  its output array are chosen to be what its pipeline's write-backs leave; with that choice every unscoped buffer of
  every core ends at the last valuation, the argument arrays end as launched, and the last region's output array ends
  at what its write-backs leave.
-/
import proofs.«418016_j33054068310762_3_alg».proof.Proof.RunCond
import proofs.«418016_j33054068310762_3_alg».proof.Proof.R0
import proofs.«418016_j33054068310762_3_alg».proof.Proof.R1
import proofs.«418016_j33054068310762_3_alg».proof.Proof.R2

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## What the regions leave: the unknowns of the valuations, chosen -/

/-- What region 0's write-backs leave in its output array, entered at the valuation `V3`. -/
def o4 (c : Dev nD) : Buf (Elt F) ((c : Thread nD τ).loc main_v16) :=
  (dat0 (fun c b => V3 m c b) c).arrAt 3 cfg0.N

/-- The first stage of the choice: region 0's output, at every index. -/
def outsA : Outs (F := F) := fun _ r c => Function.update (V3 m c) main_v16 (o4 m c) r

/-- What region 1's write-backs leave in its output array, entered at the valuation `V5` over the first stage. -/
def o6 (c : Dev nD) : Buf (Elt F) ((c : Thread nD τ).loc main_v28) :=
  (dat1 (fun c b => V5 m (outsA m) c b) c).arrAt 4 cfg1.N

/-- The second stage: region 0's output at index 4, region 1's elsewhere. -/
def outsB : Outs (F := F) := fun J r c =>
  if J = 4 then outsA m J r c else Function.update (V5 m (outsA m) c) main_v28 (o6 m c) r

/-- What region 2's write-backs leave in its output array, entered at the valuation `V7` over the second stage. -/
def o8 (c : Dev nD) : Buf (Elt F) ((c : Thread nD τ).loc main_v47) :=
  (dat2 (fun c b => V7 m (outsB m) c b) c).arrAt 7 cfg2.N

/-- The choice: region 2's output at index 8, the second stage elsewhere. -/
def outs : Outs (F := F) := fun J r c =>
  if J = 8 then Function.update (V7 m (outsB m) c) main_v47 (o8 m c) r else outsB m J r c

theorem outsA_4 (c : Dev nD) : outsA m 4 main_v16 c = o4 m c := by
  unfold outsA; exact Function.update_self _ _ _
theorem outsB_4 (c : Dev nD) : outsB m 4 main_v16 c = o4 m c := by
  unfold outsB; rw [if_pos rfl]; exact outsA_4 m c
theorem outs_4 (c : Dev nD) : outs m 4 main_v16 c = o4 m c := by
  unfold outs; rw [if_neg (by decide)]; exact outsB_4 m c

/-- The valuations up to region 1's entry read the choice at region 0's output only. -/
theorem V4_outsB (c : Dev nD) : V4 m (outsB m) c = V4 m (outsA m) c := by
  show Function.update (V3 m c) main_v16 (outsB m 4 main_v16 c) = Function.update (V3 m c) main_v16 (outsA m 4 main_v16 c)
  rw [outsB_4, outsA_4]
theorem V4_outs (c : Dev nD) : V4 m (outs m) c = V4 m (outsA m) c := by
  show Function.update (V3 m c) main_v16 (outs m 4 main_v16 c) = Function.update (V3 m c) main_v16 (outsA m 4 main_v16 c)
  rw [outs_4, outsA_4]
theorem V5_outsB (c : Dev nD) : V5 m (outsB m) c = V5 m (outsA m) c := by
  show StableHlo.after hostOps1 (V4 m (outsB m) c) = StableHlo.after hostOps1 (V4 m (outsA m) c)
  rw [V4_outsB]
theorem V5_outs (c : Dev nD) : V5 m (outs m) c = V5 m (outsA m) c := by
  show StableHlo.after hostOps1 (V4 m (outs m) c) = StableHlo.after hostOps1 (V4 m (outsA m) c)
  rw [V4_outs]

theorem outsB_6 (c : Dev nD) : outsB m 6 main_v28 c = o6 m c := by
  unfold outsB; rw [if_neg (by decide)]; exact Function.update_self _ _ _
theorem outs_6 (c : Dev nD) : outs m 6 main_v28 c = o6 m c := by
  unfold outs; rw [if_neg (by decide)]; exact outsB_6 m c

/-- The valuations up to region 2's entry read the choice at the first two outputs only. -/
theorem V6_outs (c : Dev nD) : V6 m (outs m) c = V6 m (outsB m) c := by
  show Function.update (V5 m (outs m) c) main_v28 (outs m 6 main_v28 c) = Function.update (V5 m (outsB m) c) main_v28 (outsB m 6 main_v28 c)
  rw [outs_6, outsB_6, V5_outs, V5_outsB]
theorem V7_outs (c : Dev nD) : V7 m (outs m) c = V7 m (outsB m) c := by
  show StableHlo.after hostOps2 (V6 m (outs m) c) = StableHlo.after hostOps2 (V6 m (outsB m) c)
  rw [V6_outs]

theorem outs_8 (c : Dev nD) : outs m 8 main_v47 c = o8 m c := by
  unfold outs; rw [if_pos rfl]; exact Function.update_self _ _ _

/-- The regions' entry contents do not depend on the later stages of the choice. -/
theorem Vin1_eq : (fun (c : Dev nD) (b : Ref sig .tc) => V5 m (outs m) c b) = fun (c : Dev nD) (b : Ref sig .tc) => V5 m (outsA m) c b := by
  funext c b; rw [V5_outs]
theorem Vin2_eq : (fun (c : Dev nD) (b : Ref sig .tc) => V7 m (outs m) c b) = fun (c : Dev nD) (b : Ref sig .tc) => V7 m (outsB m) c b := by
  funext c b; rw [V7_outs]

/-! ## The exit facts: each region's output array ends at what its write-backs leave -/

theorem exit0 (c : Dev nD) : V4 m (outs m) c main_v16 = (dat0 (fun c b => V3 m c b) c).arrAt 3 cfg0.N := by
  show Function.update (V3 m c) main_v16 (outs m 4 main_v16 c) main_v16 = _
  rw [Function.update_self, outs_4]; rfl
theorem exit1 (c : Dev nD) : V6 m (outs m) c main_v28 = (dat1 (fun c b => V5 m (outs m) c b) c).arrAt 4 cfg1.N := by
  show Function.update (V5 m (outs m) c) main_v28 (outs m 6 main_v28 c) main_v28 = _
  rw [Function.update_self, outs_6, Vin1_eq]; rfl
theorem exit2 (c : Dev nD) : V8 m (outs m) c main_v47 = (dat2 (fun c b => V7 m (outs m) c b) c).arrAt 7 cfg2.N := by
  show Function.update (V7 m (outs m) c) main_v47 (outs m 8 main_v47 c) main_v47 = _
  rw [Function.update_self, outs_8, Vin2_eq]; rfl

/-! ## At each region's exit: its arrays at what the pipeline leaves, every other buffer as entered -/

theorem hF0 (c : Dev nD) (w : Fin cfg0.W) :
    (dat0 (fun c b => V3 m c b) c).arrAt w cfg0.N = V4 m (outs m) c (Pipeline.arrRef spec0 w) := by
  match w with
  | ⟨0, _⟩ => exact (((dat0 (fun c b => V3 m c b) c).arrAt_in 0 rfl _).trans (A_eq0 _ c 0)).trans (V4_of m (outs m) c main_arg0 (by decide)).symm
  | ⟨1, _⟩ => exact (((dat0 (fun c b => V3 m c b) c).arrAt_in 1 rfl _).trans (A_eq0 _ c 1)).trans (V4_of m (outs m) c main_v15 (by decide)).symm
  | ⟨2, _⟩ => exact (((dat0 (fun c b => V3 m c b) c).arrAt_in 2 rfl _).trans (A_eq0 _ c 2)).trans (V4_of m (outs m) c main_arg3 (by decide)).symm
  | ⟨3, _⟩ => exact (exit0 m c).symm
theorem hrest0 (c : Dev nD) : ∀ b : Ref sig .tc, b ∉ Finset.univ.image (Pipeline.arrRef spec0) → V4 m (outs m) c b = V3 m c b :=
  fun b hb => V4_of m (outs m) c b fun h => hb (by
    rw [List.mem_singleton] at h; subst h
    exact Finset.mem_image.mpr ⟨3, Finset.mem_univ _, rfl⟩)

theorem hF1 (c : Dev nD) (w : Fin cfg1.W) :
    (dat1 (fun c b => V5 m (outs m) c b) c).arrAt w cfg1.N = V6 m (outs m) c (Pipeline.arrRef spec1 w) := by
  match w with
  | ⟨0, _⟩ => exact (((dat1 (fun c b => V5 m (outs m) c b) c).arrAt_in 0 rfl _).trans (A_eq1 _ c 0)).trans (V6_of m (outs m) c main_v26 (by decide)).symm
  | ⟨1, _⟩ => exact (((dat1 (fun c b => V5 m (outs m) c b) c).arrAt_in 1 rfl _).trans (A_eq1 _ c 1)).trans (V6_of m (outs m) c main_v15 (by decide)).symm
  | ⟨2, _⟩ => exact (((dat1 (fun c b => V5 m (outs m) c b) c).arrAt_in 2 rfl _).trans (A_eq1 _ c 2)).trans (V6_of m (outs m) c main_v27 (by decide)).symm
  | ⟨3, _⟩ => exact (((dat1 (fun c b => V5 m (outs m) c b) c).arrAt_in 3 rfl _).trans (A_eq1 _ c 3)).trans (V6_of m (outs m) c main_arg5 (by decide)).symm
  | ⟨4, _⟩ => exact (exit1 m c).symm
theorem hrest1 (c : Dev nD) : ∀ b : Ref sig .tc, b ∉ Finset.univ.image (Pipeline.arrRef spec1) → V6 m (outs m) c b = V5 m (outs m) c b :=
  fun b hb => V6_of m (outs m) c b fun h => hb (by
    rw [List.mem_singleton] at h; subst h
    exact Finset.mem_image.mpr ⟨4, Finset.mem_univ _, rfl⟩)

set_option maxHeartbeats 2000000 in
theorem hF2 (c : Dev nD) (w : Fin cfg2.W) :
    (dat2 (fun c b => V7 m (outs m) c b) c).arrAt w cfg2.N = V8 m (outs m) c (Pipeline.arrRef spec2 w) := by
  match w with
  | ⟨0, _⟩ => exact (((dat2 (fun c b => V7 m (outs m) c b) c).arrAt_in 0 rfl _).trans (A_eq2 _ c 0)).trans (V8_of m (outs m) c main_v38 (by decide)).symm
  | ⟨1, _⟩ => exact (((dat2 (fun c b => V7 m (outs m) c b) c).arrAt_in 1 rfl _).trans (A_eq2 _ c 1)).trans (V8_of m (outs m) c main_v15 (by decide)).symm
  | ⟨2, _⟩ => exact (((dat2 (fun c b => V7 m (outs m) c b) c).arrAt_in 2 rfl _).trans (A_eq2 _ c 2)).trans (V8_of m (outs m) c main_v45 (by decide)).symm
  | ⟨3, _⟩ => exact (((dat2 (fun c b => V7 m (outs m) c b) c).arrAt_in 3 rfl _).trans (A_eq2 _ c 3)).trans (V8_of m (outs m) c main_v44 (by decide)).symm
  | ⟨4, _⟩ => exact (((dat2 (fun c b => V7 m (outs m) c b) c).arrAt_in 4 rfl _).trans (A_eq2 _ c 4)).trans (V8_of m (outs m) c main_v43 (by decide)).symm
  | ⟨5, _⟩ => exact (((dat2 (fun c b => V7 m (outs m) c b) c).arrAt_in 5 rfl _).trans (A_eq2 _ c 5)).trans (V8_of m (outs m) c main_arg7 (by decide)).symm
  | ⟨6, _⟩ => exact (((dat2 (fun c b => V7 m (outs m) c b) c).arrAt_in 6 rfl _).trans (A_eq2 _ c 6)).trans (V8_of m (outs m) c main_v46 (by decide)).symm
  | ⟨7, _⟩ => exact (exit2 m c).symm
theorem hrest2 (c : Dev nD) : ∀ b : Ref sig .tc, b ∉ Finset.univ.image (Pipeline.arrRef spec2) → V8 m (outs m) c b = V7 m (outs m) c b :=
  fun b hb => V8_of m (outs m) c b fun h => hb (by
    rw [List.mem_singleton] at h; subst h
    exact Finset.mem_image.mpr ⟨7, Finset.mem_univ _, rfl⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (fun c b => V3 m c b) c
  | ⟨1, _⟩ => fun c => dat1 (fun c b => V5 m (outs m) c b) c
  | ⟨2, _⟩ => fun c => dat2 (fun c b => V7 m (outs m) c b) c

abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its dues,
    at nothing. -/
abbrev Rst (c : Dev nD) : sProp 𝕄 := iprop((∃ r, prngReg c r) ∗ ∃ W, owes (c : Thread nD τ) (0 : CellTallies nD τ sig Unit) W)

/-! ## The regions as segments -/

-- applying a library lemma stated over the pinned configuration unifies with the printed one only when unification may
-- unfold plain definitions in a metavariable's type
set_option backward.isDefEq.respectTransparency.types false in
/-- REGION 0 over the thread state: entered from every unscoped buffer at `V3 m`, left at `V4 m (outs m)`. Its arrays are split
    out of the unscoped buffers and put back at the exit contents; the generator register goes into the region's
    invariant and comes back; nothing is owed; the kernel has no semaphore of its own. -/
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ Lz lvz 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 1 over the thread state: entered from every unscoped buffer at `V5 m (outs m)`, left at `V6 m (outs m)`. Its arrays are split
    out of the unscoped buffers and put back at the exit contents; the generator register goes into the region's
    invariant and comes back; nothing is owed; the kernel has no semaphore of its own. -/
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (fun c b => V5 m (outs m) c b) c).loose
  hwaits := Pipeline.hwaits_of_owed_zero _ _ _ _ Lz lvz 1 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 2 over the thread state: entered from every unscoped buffer at `V7 m (outs m)`, left at `V8 m (outs m)`. Its arrays are split
    out of the unscoped buffers and put back at the exit contents; the generator register goes into the region's
    invariant and comes back; nothing is owed; the kernel has no semaphore of its own. -/
def reg2 : Pipeline.RegionSeg (pcfgs (F := F)) adm (pdats m) () defs₀ 𝒱z Lz lvz 2 where
  win := launch2.win.to₀
  block_pos := launch2.block_pos
  stage_whole := launch2.stage_whole
  K := PEmpty
  osem k := k.elim
  ho := Pipeline.OwnSemFacts.none _
  hbody c := (body_obligation2 (fun c b => V7 m (outs m) c b) c).loose
  hwaits := Pipeline.hwaits_of_owed_zero _ _ _ _ Lz lvz 2 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => V7 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V7 m (outs m) c b) c).Φ 0 from rfl]
    have h2 := hin2 (fun c b => V7 m (outs m) c b) c
    unfold Pipeline.ΦA at h2
    iintro ⟨Hp, -, Hr⟩
    iapply h2
    isplitl [Hr]; · iexact Hr
    iexact Hp
  hout c := by
    rw [Pipeline.ownSems0_none,
      show (pdats m 2 c).Φ (Fin.last _) = (dat2 (fun c b => V7 m (outs m) c b) c).Φ (Fin.last cfg2.N) from rfl]
    have h2 := hout2 (fun c b => V7 m (outs m) c b) c
    unfold Pipeline.ΦA at h2
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (outs m) c b) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN: from any memory with zero counters every weakly fair execution of @main terminates, and every final memory
    holds every unscoped buffer of every core at the last valuation, the regions' outputs being what their pipelines'
    write-backs leave. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V8 m (outs m) c b) :=
  RunCond.run_cond m (EP := emb₁) (ι := ()) (𝒱₀ := 𝒱z) (L := Lz) (lv := lvz) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

/-- THE FRAME: every weakly fair execution of @main terminates and every final memory holds each argument array as
    launched: no host stretch writes an argument and no region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c)⟩) (run_main m ρ)

/-- In any final memory of the run, the last region's output array holds what its pipeline's write-backs leave. -/
theorem result_mem {r : PUnit × MemSt nD τ sig (Elt F)}
    (h : ∀ c : Dev nD, ∀ b ∈ Pipeline.ucRefs τ sig, r.2.mem ((c : Thread nD τ).1, b) = V8 m (outs m) c b) (c : Dev nD) :
    r.2.mem ((c.tc : Thread nD τ).loc main_v47) = (dat2 (fun c b => V7 m (outs m) c b) c).arrAt 7 cfg2.N :=
  (h c _ (mem_uc main_v47 (by decide))).trans (exit2 m c)

end Cert.KernelIdeal.Run

end
-- ==== Proof.KerTerm.lean ====
/-
  The kernel program's result as one term of the nine argument arrays at the extended reals: the host lines
  around the three regions as they are printed, and each region's output array as one function of the arrays the
  region reads, index by index:
  * region 0 : (x·W1)[i, j] · dinv[i];
  * region 1 : (elu(raw1[i, ·]·dinv[i] + b1) · W2)[i, j] · dinv[i];
  * region 2 : per graph g the sum over all nodes n with batch[n] = g of elu(raw2[n, ·]·dinv[n] + b2), divided
    by max(count[g], 1), through W3, plus b3 — the sum taken block by block (50 blocks of 2000 nodes).
-/
import proofs.«418016_j33054068310762_3_alg».proof.KernelIdeal
import Idealize.ShloMosaic.PureOps.Ideal
import Idealize.ShloMosaic.Lib.ValueIdx

noncomputable section

namespace Cert.KernelIdeal.KerTerm

open Idealize.ShloMosaic Idealize.ShloMosaic.ValueIdx Cert.KernelIdeal
open Cert.KernelIdeal.Facts₀ Cert.KernelIdeal.Facts

section Host

variable {F : FTy → Type} [FloatOps F] [Cert.KernelIdeal.Facts]

/-- Row `r` of the edge array followed by the node numbers 0 … 99999 (one self loop per node). -/
def rowv (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0
def colv (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- An edge list as a column of scatter indices. -/
def col2d (v : IVec S3300000 32) : IVec S3300000x1 32 := broadcastInDim S3300000x1 ![0] bcast_S3300000_S3300000x1_0 v
/-- An edge list with negative entries moved up by the node count, as a column of gather indices. -/
def wrap2d (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The in-degree: one per edge (self loops included) added up at the edge's target. -/
def deg (ei : IVec S2x3200000 32) : FVec F S100000 .f32 :=
  Host.scatterAdd scatter_S100000_S3300000x1_S3300000_n_0_0_1
    (broadcastInDim S100000 ![] bcast_S_S100000 (constant S_ .f32 0x00000000#32))
    (col2d (colv ei))
    (broadcastInDim S3300000 ![] bcast_S_S3300000 (constant S_ .f32 0x3F800000#32))
/-- Its inverse square root where it is positive, zero elsewhere. -/
def dinv (ei : IVec S2x3200000 32) : FVec F S100000 .f32 :=
  select (cmpf .ogt (deg (F := F) ei) (broadcastInDim S100000 ![] bcast_S_S100000 (constant S_ .f32 0x00000000#32)))
    (Host.rsqrt (deg (F := F) ei))
    (broadcastInDim S100000 ![] bcast_S_S100000 (id (constant S_ .f32 0x00000000#32)))
/-- The same as a column. -/
def dinv2d (ei : IVec S2x3200000 32) : FVec F S100000x1 .f32 := shapeCast S100000x1 (dinv (F := F) ei) shapeCasts_S100000_S100000x1

/-- Between regions 0 and 1: the rows of region 0's output at the edges' sources, added up at the targets. -/
def raw1 (hs1 : FVec F S100000x64 .f32) (ei : IVec S2x3200000 32) : FVec F S100000x64 .f32 :=
  Host.scatterAdd scatter_S100000x64_S3300000x1_S3300000x64_1_0_0_1
    (broadcastInDim S100000x64 ![] bcast_S_S100000x64 (constant S_ .f32 0x00000000#32))
    (col2d (colv ei))
    (Host.gather gather_S100000x64_S3300000x1_S3300000x64_1_0_n_n_0_1_164 hs1 (wrap2d (rowv ei)))
/-- Between regions 1 and 2: the same with region 1's output. -/
def raw2 (hs2 : FVec F S100000x4 .f32) (ei : IVec S2x3200000 32) : FVec F S100000x4 .f32 :=
  Host.scatterAdd scatter_S100000x4_S3300000x1_S3300000x4_1_0_0_1
    (broadcastInDim S100000x4 ![] bcast_S_S100000x4 (constant S_ .f32 0x00000000#32))
    (col2d (colv ei))
    (Host.gather gather_S100000x4_S3300000x1_S3300000x4_1_0_n_n_0_1_14 hs2 (wrap2d (rowv ei)))
/-- Nodes per graph, as a column. -/
def counts (batch : IVec S100000 32) : FVec F S256x1 .f32 :=
  shapeCast S256x1
    (Host.scatterAdd scatter_S256_S100000x1_S100000_n_0_0_1
      (broadcastInDim S256 ![] bcast_S_S256 (constant S_ .f32 0x00000000#32))
      (broadcastInDim S100000x1 ![0] bcast_S100000_S100000x1_0 batch)
      (broadcastInDim S100000 ![] bcast_S_S100000 (constant S_ .f32 0x3F800000#32)))
    shapeCasts_S256_S256x1
def batch2d (batch : IVec S100000 32) : IVec S100000x1 32 := shapeCast S100000x1 batch shapeCasts_S100000_S100000x1
def b1row (b1 : FVec F S64 .f32) : FVec F S1x64 .f32 := shapeCast S1x64 b1 shapeCasts_S64_S1x64
def b2row (b2 : FVec F S4 .f32) : FVec F S1x4 .f32 := shapeCast S1x4 b2 shapeCasts_S4_S1x4
def b3row (b3 : FVec F S1 .f32) : FVec F S1x1 .f32 := shapeCast S1x1 b3 shapeCasts_S1_S1x1

end Host

/-! ## The regions' outputs at the extended reals -/

/-- The kernels' ELU on one number: v where v > 0, else exp v − 1. -/
def eluK (v : Ideal .f32) : Ideal .f32 :=
  Scalar.select (FloatOps.cmpf (F := Ideal) .ogt v (FloatOps.ofBits (F := Ideal) .f32 0x00000000#32)) v
    (FloatOps.subf (F := Ideal) (FloatOps.exp (F := Ideal) v) (FloatOps.ofBits (F := Ideal) .f32 0x3F800000#32))

/-- Region 0's output array. -/
def G0 (x : FVec Ideal S100000x128 .f32) (d : FVec Ideal S100000x1 .f32) (w : FVec Ideal S128x64 .f32) : FVec Ideal S100000x64 .f32 :=
  fun i => (∑ k : Fin 128, x (ix2 (i 0) k) * w (ix2 k (i 1))) * d (ix2 (i 0) (0 : Fin 1))

/-- Region 1's output array. -/
def G1 (x : FVec Ideal S100000x64 .f32) (d : FVec Ideal S100000x1 .f32) (b : FVec Ideal S1x64 .f32) (w : FVec Ideal S64x4 .f32) : FVec Ideal S100000x4 .f32 :=
  fun i => (∑ k : Fin 64, eluK (x (ix2 (i 0) k) * d (ix2 (i 0) (0 : Fin 1)) + b (ix2 (0 : Fin 1) k)) * w (ix2 k (i 1))) * d (ix2 (i 0) (0 : Fin 1))

/-- Node r of block t. -/
def blockRow (t : Fin 50) (r : Fin 2000) : Fin 100000 := ⟨2000 * t.val + r.val, by omega⟩

/-- Whether a node's graph word is g, as 1.0 or 0.0: the one-hot entry the pooling matmul multiplies by. -/
def oneHot (wd : BitVec 32) (g : Fin 256) : Ideal .f32 :=
  FloatOps.sitofp (F := Ideal) .f32 ((IntOp.cmpi .eq wd (BitVec.ofNat 32 g.val)).setWidth 32)

/-- Region 2's accumulator after the last block: per graph and feature, the sum over the blocks of the sum over the
    block's nodes of the one-hot entry times the activated feature. -/
def pooled (x : FVec Ideal S100000x4 .f32) (d : FVec Ideal S100000x1 .f32) (b : FVec Ideal S1x4 .f32) (bt : IVec S100000x1 32)
    (g : Fin 256) (dd : Fin 4) : Ideal .f32 :=
  ∑ t : Fin 50, ∑ r : Fin 2000,
    oneHot (bt (ix2 (blockRow t r) (0 : Fin 1))) g
      * eluK (x (ix2 (blockRow t r) dd) * d (ix2 (blockRow t r) (0 : Fin 1)) + b (ix2 (0 : Fin 1) dd))

/-- Region 2's output array. -/
def G2 (x : FVec Ideal S100000x4 .f32) (d : FVec Ideal S100000x1 .f32) (b : FVec Ideal S1x4 .f32) (bt : IVec S100000x1 32)
    (cn : FVec Ideal S256x1 .f32) (w : FVec Ideal S4x1 .f32) (b3 : FVec Ideal S1x1 .f32) : FVec Ideal S256x1 .f32 :=
  fun i => (∑ dd : Fin 4,
      FloatOps.divf (F := Ideal) (pooled x d b bt (i 0) dd)
          (FloatOps.maximumf (F := Ideal) (cn (ix2 (i 0) (0 : Fin 1))) (FloatOps.ofBits (F := Ideal) .f32 0x3F800000#32))
        * w (ix2 dd (0 : Fin 1)))
    + b3 (ix2 (0 : Fin 1) (0 : Fin 1))

/-- The kernel program's result. -/
def out [Cert.KernelIdeal.Facts] (x : FVec Ideal S100000x128 .f32) (ei : IVec S2x3200000 32) (batch : IVec S100000 32) (W1 : FVec Ideal S128x64 .f32) (b1 : FVec Ideal S64 .f32)
    (W2 : FVec Ideal S64x4 .f32) (b2 : FVec Ideal S4 .f32) (W3 : FVec Ideal S4x1 .f32) (b3 : FVec Ideal S1 .f32) : FVec Ideal S256x1 .f32 :=
  G2 (raw2 (G1 (raw1 (G0 x (dinv2d ei) W1) ei) (dinv2d ei) (b1row b1) W2) ei) (dinv2d ei) (b2row b2) (batch2d batch) (counts batch) W3 (b3row b3)

end Cert.KernelIdeal.KerTerm

end
-- ==== Proof.LibRowCol.lean ====
/-
  Layout operations of rank-2 vectors read at an index: one column `[a, 1]` broadcast over `b` lanes; a column cut
  out of a matrix and so broadcast; a row cut out of a matrix, flattened to a vector, lifted back to one row and
  broadcast over `a` sublanes. Each is the source matrix at one fixed row or column.
-/
import Idealize.ShloMosaic.Lib.ValueIdx
import Idealize.ShloMosaic.Lib.ValueLayout
import Idealize.ShloMosaic.Lib.Pipeline.Value

namespace Cert.LibRowCol

open Idealize.ShloMosaic Idealize.ShloMosaic.ValueIdx

variable {α : Type}

/-- An `[a, 1]` column broadcast to `[a, b]` reads, at `(p, c)`, the column's entry `p`, whatever the lane `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `d` of an `[a, n]` matrix, cut out as `[a, 1]` and broadcast over `b` lanes, reads at `(p, c)` the matrix
    at `(p, d)`. -/
theorem col_bcast_apply {a n b : ℕ} (d : ℕ) (X : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] X hs) hb (ix2 p c) = X (ix2 p k) := by
  rw [broadcastTo_a1_ab_apply, slice2_axis1_apply d X hs p (0 : Fin 1) k (by rw [hk]; rfl)]

/-- Row `d` of an `[n, b]` matrix, cut out as `[1, b]`, flattened to `[b]`, lifted back to `[1, b]` and broadcast
    over `a` sublanes, reads at `(p, c)` the matrix at `(d, c)`. -/
theorem row_bcast_apply {n b a : ℕ} (d : ℕ) (X : (⟨2, ![n, b]⟩ : Shape).Idx → α)
    (hs : (⟨2, ![n, b]⟩ : Shape).Slices ![d, 0] ⟨2, ![1, b]⟩)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) (k : Fin n) (hk : k.val = d) :
    broadcastTo ⟨2, ![a, b]⟩
        (shapeCast ⟨2, ![1, b]⟩ (shapeCast ⟨1, ![b]⟩ (extractStridedSlice ⟨2, ![1, b]⟩ ![d, 0] X hs) h1) h2) hb (ix2 p c)
      = X (ix2 k c) := by
  rw [broadcastTo_1b_ab_apply, shapeCast_a_1a_apply, shapeCast_1a_a_apply,
    slice2_axis0_apply d X hs (0 : Fin 1) c k (by rw [hk]; rfl)]

/-- A row `[1, b]` cut at row `d` out of an `[n, b]` matrix and broadcast over `a` sublanes reads at `(p, c)` the
    matrix at `(d, c)`. -/
theorem row_direct_bcast_apply {n b a : ℕ} (d : ℕ) (X : (⟨2, ![n, b]⟩ : Shape).Idx → α)
    (hs : (⟨2, ![n, b]⟩ : Shape).Slices ![d, 0] ⟨2, ![1, b]⟩)
    (hb : (⟨2, ![1, b]⟩ : Shape).Broadcasts ⟨2, ![a, b]⟩) (p : Fin a) (c : Fin b) (k : Fin n) (hk : k.val = d) :
    broadcastTo ⟨2, ![a, b]⟩ (extractStridedSlice ⟨2, ![1, b]⟩ ![d, 0] X hs) hb (ix2 p c) = X (ix2 k c) := by
  rw [broadcastTo_1b_ab_apply, slice2_axis0_apply d X hs (0 : Fin 1) c k (by rw [hk]; rfl)]

end Cert.LibRowCol
-- ==== Proof.Val0.lean ====
/-
  Region 0's output array after the region, at the extended reals: every block of 5000 rows is written back at its
  own grid point with (x·W1)·dinv of that block's rows, and the 20 blocks cover the array, so the array is the one
  function G0 of the arrays the region reads.

  The steps: the body's arithmetic read at one index of the block (the product into the zero accumulator is the sum
  over the 128 contracted columns, the narrowing of its operands is the identity at the extended reals, the dinv
  column is read at the row whatever the lane); the same with the blocks' entries named by the arrays' entries; the
  blocks' places in the arrays (row block t of x, of dinv and of the output, the whole of W1) from the printed index
  maps; and the cover of the 100000 rows by the 20 row blocks.
-/
import proofs.«418016_j33054068310762_3_alg».proof.Proof.R0
import proofs.«418016_j33054068310762_3_alg».proof.Proof.KerTerm
import proofs.«418016_j33054068310762_3_alg».proof.Proof.LibRowCol
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg

variable (V : (c : Dev nD) → (b : Ref sig .tc) → Buf (Elt Ideal) ((c : Thread nD τ).loc b))

/-! ## The body's arithmetic at one index of the block -/

/-- The product's dimension numbers are the plain ones: a 5000×128 matrix by a 128×64 matrix, contracted over the
    first's columns and the second's rows. -/
theorem dims0_plain : dot_S5000x128_S128x64_S5000x64_1_0_0_1_n_n = DotDims.plain 5000 128 64 := rfl

/-- The block product at (p, q): row p of the x block against column q of W1. The narrowing of the operands is the
    identity at the extended reals, and the accumulator is the zero splat, so nothing is added to the sum. -/
theorem mm0_apply (x0 : Vec Ideal S5000x128 .f32) (x2 : Vec Ideal S128x64 .f32) (p : Fin 5000) (q : Fin 64) :
    matmul (F := Ideal) dot_S5000x128_S128x64_S5000x64_1_0_0_1_n_n none (truncf (F := Ideal) .bf16 x0 bitsLt_bf16_f32)
        (truncf (F := Ideal) .bf16 x2 bitsLt_bf16_f32) (constant (F := Ideal) S5000x64 .f32 0x00000000#32) (ix2 p q)
      = ∑ k : Fin 128, x0 (ix2 p k) * x2 (ix2 k q) := by
  rw [dims0_plain, matmul_zero_eq_dotGeneral]
  exact StackMember.dotGeneral_plain_apply none _ _ p q

/-- The body's result at (p, q): that sum times the dinv block's entry of row p (the column broadcast over the 64
    lanes reads row p whatever the lane). -/
theorem pay0_apply (x0 : Vec Ideal S5000x128 .f32) (x2 : Vec Ideal S128x64 .f32) (x1 : Vec Ideal S5000x1 .f32)
    (p : Fin 5000) (q : Fin 64) :
    k0_pay1 x0 x2 x1 (ix2 p q) = (∑ k : Fin 128, x0 (ix2 p k) * x2 (ix2 k q)) * x1 (ix2 p (0 : Fin 1)) := by
  unfold k0_pay1
  show _ * _ = _
  rw [mm0_apply, shapeCast_self, Cert.LibRowCol.broadcastTo_a1_ab_apply]

/-- A block's entry against the array's: if row (j 0) of the x block is row (i 0) of x, the dinv block's entry
    (j 0) is dinv's entry (i 0), and column (j 1) of the W1 block is column (i 1) of W1, the body's result at j is
    G0 at i. -/
theorem pay0_block (X : FVec Ideal S100000x128 .f32) (D : FVec Ideal S100000x1 .f32) (W : FVec Ideal S128x64 .f32)
    (x0 : Vec Ideal S5000x128 .f32) (x1 : Vec Ideal S5000x1 .f32) (x2 : Vec Ideal S128x64 .f32)
    (j : S5000x64.Idx) (i : S100000x64.Idx)
    (h0 : ∀ k : Fin 128, x0 (ix2 (j 0) k) = X (ix2 (i 0) k))
    (h1 : x1 (ix2 (j 0) (0 : Fin 1)) = D (ix2 (i 0) (0 : Fin 1)))
    (h2 : ∀ k : Fin 128, x2 (ix2 k (j 1)) = W (ix2 k (i 1))) :
    k0_pay1 x0 x2 x1 j = KerTerm.G0 X D W i := by
  obtain ⟨p, q, rfl⟩ : ∃ (p : Fin 5000) (q : Fin 64), j = ix2 p q := ⟨j 0, j 1, eq_ix2 j⟩
  rw [pay0_apply]
  show _ = (∑ k : Fin 128, X (ix2 (i 0) k) * W (ix2 k (i 1))) * D (ix2 (i 0) (0 : Fin 1))
  rw [← h1]
  exact congrArg (· * x1 (ix2 p (0 : Fin 1))) (Finset.sum_congr rfl fun k _ => by rw [← h0 k, ← h2 k])

/-! ## What a point writes back -/

/-- The body's accesses start at the origin of their buffers. -/
theorem origin2 : (![0, 0] : Fin 2 → Nat) = fun _ => 0 := funext fun a => by fin_cases a <;> rfl

/-- The printed index maps over the 20 grid points: the x block and the dinv block move with the output block
    down the rows, W1's block stays, and the output block of point t is row block t. -/
theorem index_facts0 : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of G0 of the arrays as the region finds them: a block's coordinate in its
    array is the block's index times the block's extent plus the coordinate inside the block, so row r of the three
    row blocks is the same row of x, of dinv and of the output, and W1's one block is W1. -/
theorem flushed0_eq (c : Dev nD) (t : Fin cfg0.N) :
    (dat0 (F := Ideal) V c).flushed 3 t
      = ((cfg0.win 3).blk t).view.read (Elt Ideal) (KerTerm.G0 (V c main_arg0) (V c main_v15) (V c main_arg3)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S5000x1) origin2,
    View.ld_unit_zero (S := S128x64) origin2]
  obtain ⟨e00, e01, e10, e11, e20, e21, e30, e31⟩ := index_facts0 t
  funext j
  show k0_pay1 (iblk0 V c 0 t) (iblk0 V c 2 t) (iblk0 V c 1 t) j
    = KerTerm.G0 (V c main_arg0) (V c main_v15) (V c main_arg3) (((cfg0.win 3).blk t).view.emb j)
  refine pay0_block (V c main_arg0) (V c main_v15) (V c main_arg3) (iblk0 V c 0 t) (iblk0 V c 1 t) (iblk0 V c 2 t) j
    (((cfg0.win 3).blk t).view.emb j) (fun k => ?_) ?_ (fun k => ?_)
  · show V c main_arg0 (((cfg0.win 0).blk t).view.emb (ix2 (j 0) k))
      = V c main_arg0 (ix2 (((cfg0.win 3).blk t).view.emb j 0) k)
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      rw [e00]
    | ⟨1, _⟩ =>
      show win0_0.index t (1 : Fin 2) * 128 + 1 * k.val = k.val
      rw [e01]; omega
  · show V c main_v15 (((cfg0.win 1).blk t).view.emb (ix2 (j 0) (0 : Fin 1)))
      = V c main_v15 (ix2 (((cfg0.win 3).blk t).view.emb j 0) (0 : Fin 1))
    refine congrArg (V c main_v15) (funext fun a => Fin.ext ?_)
    match a with
    | ⟨0, _⟩ =>
      show win0_1.index t (0 : Fin 2) * 5000 + 1 * (j 0).val = win0_3.index t (0 : Fin 2) * 5000 + 1 * (j 0).val
      rw [e10]
    | ⟨1, _⟩ =>
      show win0_1.index t (1 : Fin 2) * 1 + 1 * 0 = 0
      rw [e11]
  · show V c main_arg3 (((cfg0.win 2).blk t).view.emb (ix2 k (j 1)))
      = V c main_arg3 (ix2 k (((cfg0.win 3).blk t).view.emb j 1))
    refine congrArg (V c main_arg3) (funext fun a => Fin.ext ?_)
    match a with
    | ⟨0, _⟩ =>
      show win0_2.index t (0 : Fin 2) * 128 + 1 * k.val = k.val
      rw [e20]; omega
    | ⟨1, _⟩ =>
      show win0_2.index t (1 : Fin 2) * 64 + 1 * (j 1).val = win0_3.index t (1 : Fin 2) * 64 + 1 * (j 1).val
      rw [e21, e31]

/-! ## The blocks cover the array -/

/-- An index of the output array is in point t's block iff each coordinate is in the block's range on its axis. -/
theorem mem_blk0 (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v16).slice (win0_3.rect t)).set ↔ _
  rw [View.set_slice_whole, Rect.mem_set_unit]
  exact Iff.rfl

/-- Row r of the output array lies in the block of point r / 5000, and every point writes its block back: the 20
    blocks cover the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, e30, e31⟩ := index_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 64 ≤ (i 1).val ∧ (i 1).val < win0_3.index t (1 : Fin 2) * 64 + 64
    rw [e31]; omega

/-- The output array after the region is G0 of the arrays the region reads: every point writes back its block of G0,
    and the blocks cover the array. -/
theorem final0 (c : Dev nD) :
    (dat0 (F := Ideal) V c).arrAt 3 cfg0.N = KerTerm.G0 (V c main_arg0) (V c main_v15) (V c main_arg3) :=
  (dat0 (F := Ideal) V c).arrAt_eq_of_cover 3 (KerTerm.G0 (V c main_arg0) (V c main_v15) (V c main_arg3))
    (fun t _ => flushed0_eq V c t) cover0

end Cert.KernelIdeal.Val

end
-- ==== Proof.Val1.lean ====
/-
  Region 1's output array after the region, at the extended reals: every block of 5000 rows is written back at its
  own grid point with (elu(raw·dinv + b1)·W2)·dinv of that block's rows, and the 20 blocks cover the array, so the
  array is the one function G1 of the arrays the region reads.

  Three steps. (1) One entry (p, q) of the body's result over any four blocks: the two column broadcasts read the dinv
  block at row p, the row broadcast reads the bias at lane k, the narrowing of the product's operands is the identity
  at the extended reals, and the product into the zero accumulator is the sum over the 64 contracted lanes; the
  comparison with zero, the exponential and the subtraction of one are the kernel's ELU at each lane. (2) At grid
  point t the messages and dinv blocks are rows 5000·t … 5000·t + 4999 of their arrays and the bias and weight blocks
  are their whole arrays, so what point t writes back is block t of G1. (3) Row r of the array lies in the block of
  point r / 5000, and every point writes back, so the array ends as G1.
-/
import proofs.«418016_j33054068310762_3_alg».proof.Proof.R1
import proofs.«418016_j33054068310762_3_alg».proof.Proof.KerTerm
import proofs.«418016_j33054068310762_3_alg».proof.Proof.LibRowCol
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg

/-! ## One entry of the body's result -/

/-- The product of a 5000×64 by a 64×4 matrix into the zero accumulator, at entry (p, q): the sum over the 64
    contracted lanes of the products of the entries. The contraction contracts the first operand's lanes against the
    second operand's rows, which is the plain matrix product. -/
theorem prod_at (A : FVec Ideal S5000x64 .bf16) (B : FVec Ideal S64x4 .bf16) (p : Fin 5000) (q : Fin 4) :
    matmul dot_S5000x64_S64x4_S5000x4_1_0_0_1_n_n none A B (constant S5000x4 .f32 0x00000000#32) (ix2 p q)
      = ∑ k : Fin 64, A (ix2 p k) * B (ix2 k q) := by
  rw [show dot_S5000x64_S64x4_S5000x4_1_0_0_1_n_n = DotDims.plain 5000 64 4 from rfl, matmul_zero_eq_dotGeneral]
  exact StackMember.dotGeneral_plain_apply none A B p q

/-- Entry (p, q) of the body's result over four blocks x0 (messages), x1 (dinv column), x2 (bias row), x3 (weights):
    the sum over the lanes k of elu(x0[p, k]·x1[p] + x2[k])·x3[k, q], times x1[p]. -/
theorem pay_at (x0 : Vec Ideal S5000x64 .f32) (x1 : Vec Ideal S5000x1 .f32) (x2 : Vec Ideal S1x64 .f32) (x3 : Vec Ideal S64x4 .f32)
    (p : Fin 5000) (q : Fin 4) :
    k1_pay1 x0 x1 x2 x3 x1 (ix2 p q)
      = (∑ k : Fin 64, KerTerm.eluK (x0 (ix2 p k) * x1 (ix2 p (0 : Fin 1)) + x2 (ix2 (0 : Fin 1) k)) * x3 (ix2 k q)) * x1 (ix2 p (0 : Fin 1)) := by
  unfold k1_pay1
  simp only [shapeCast_self]
  refine (congrArg₂ (· * ·) (prod_at _ _ p q) (LibRowCol.broadcastTo_a1_ab_apply x1 broadcasts_S5000x1_S5000x4 p q)).trans ?_
  refine congrArg (· * x1 (ix2 p (0 : Fin 1))) (Finset.sum_congr rfl fun k _ => ?_)
  have hd : broadcastTo S5000x64 x1 broadcasts_S5000x1_S5000x64 (ix2 p k) = x1 (ix2 p (0 : Fin 1)) :=
    LibRowCol.broadcastTo_a1_ab_apply x1 broadcasts_S5000x1_S5000x64 p k
  have hb : broadcastTo S5000x64 x2 broadcasts_S1x64_S5000x64 (ix2 p k) = x2 (ix2 (0 : Fin 1) k) :=
    broadcastTo_1b_ab_apply x2 broadcasts_S1x64_S5000x64 p k
  show KerTerm.eluK (x0 (ix2 p k) * broadcastTo S5000x64 x1 broadcasts_S5000x1_S5000x64 (ix2 p k)
      + broadcastTo S5000x64 x2 broadcasts_S1x64_S5000x64 (ix2 p k)) * x3 (ix2 k q) = _
  rw [hd, hb]

/-- One entry of the block's result from the rows of the arrays: if row p of the messages block and of the dinv block
    is row P of their arrays, and the bias and weight blocks are their arrays, then entry (p, q) of the body's result
    is entry (P, q) of G1. -/
theorem block_rows (X : FVec Ideal S100000x64 .f32) (D : FVec Ideal S100000x1 .f32) (B : FVec Ideal S1x64 .f32) (W : FVec Ideal S64x4 .f32)
    (x0 : Vec Ideal S5000x64 .f32) (x1 : Vec Ideal S5000x1 .f32) (x2 : Vec Ideal S1x64 .f32) (x3 : Vec Ideal S64x4 .f32)
    (p : Fin 5000) (q : Fin 4) (P : Fin 100000)
    (h0 : ∀ k : Fin 64, x0 (ix2 p k) = X (ix2 P k)) (h1 : x1 (ix2 p (0 : Fin 1)) = D (ix2 P (0 : Fin 1)))
    (h2 : ∀ k : Fin 64, x2 (ix2 (0 : Fin 1) k) = B (ix2 (0 : Fin 1) k)) (h3 : ∀ k : Fin 64, x3 (ix2 k q) = W (ix2 k q)) :
    k1_pay1 x0 x1 x2 x3 x1 (ix2 p q) = KerTerm.G1 X D B W (ix2 P q) := by
  rw [pay_at]
  show _ = (∑ k : Fin 64, KerTerm.eluK (X (ix2 P k) * D (ix2 P (0 : Fin 1)) + B (ix2 (0 : Fin 1) k)) * W (ix2 k q)) * D (ix2 P (0 : Fin 1))
  rw [h1]
  refine congrArg (· * D (ix2 P (0 : Fin 1))) (Finset.sum_congr rfl fun k _ => ?_)
  rw [h0 k, h2 k, h3 k]

/-! ## The blocks at a grid point -/

/-- The zero offsets of a rank-2 rectangle are the constant zero function. -/
theorem zeros2 : (![0, 0] : Fin 2 → Nat) = fun _ => 0 := funext fun a => by fin_cases a <;> rfl

/-- The index maps over the 20 points: the blocks of windows 0 (messages), 1 (dinv) and 4 (output) step down the rows
    with the point; windows 2 (bias) and 3 (weights) stay at their one block. -/
theorem steps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of the messages block at point t is row 5000·t + p of the messages array. -/
theorem msgs_at (c : Dev nD) (t : Fin cfg1.N) (p : Fin 5000) (k : Fin 64) (P : Fin 100000) (hP : P.val = t.val * 5000 + p.val) :
    (iblk1 V c 0 t : Vec Ideal S5000x64 .f32) (ix2 p k) = (V c main_v26 : FVec Ideal S100000x64 .f32) (ix2 P k) := by
  obtain ⟨e0, e1, -⟩ := steps1 t
  show V c main_v26 (((cfg1.win 0).blk t).view.emb (ix2 p k)) = V c main_v26 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- Row p of the dinv block at point t is row 5000·t + p of the dinv column. -/
theorem dinv_at (c : Dev nD) (t : Fin cfg1.N) (p : Fin 5000) (P : Fin 100000) (hP : P.val = t.val * 5000 + p.val) :
    (iblk1 V c 1 t : Vec Ideal S5000x1 .f32) (ix2 p (0 : Fin 1)) = (V c main_v15 : FVec Ideal S100000x1 .f32) (ix2 P (0 : Fin 1)) := by
  obtain ⟨-, -, e0, e1, -⟩ := steps1 t
  show V c main_v15 (((cfg1.win 1).blk t).view.emb (ix2 p (0 : Fin 1))) = V c main_v15 (ix2 P (0 : Fin 1))
  refine congrArg _ (funext fun a => Fin.ext ?_)
  match a with
  | ⟨0, _⟩ => show win1_1.index t (0 : Fin 2) * 5000 + 1 * p.val = P.val; omega
  | ⟨1, _⟩ => show win1_1.index t (1 : Fin 2) * 1 + 1 * 0 = 0; omega

/-- The bias block at every point is the bias row. -/
theorem bias_at (c : Dev nD) (t : Fin cfg1.N) (k : Fin 64) :
    (iblk1 V c 2 t : Vec Ideal S1x64 .f32) (ix2 (0 : Fin 1) k) = (V c main_v27 : FVec Ideal S1x64 .f32) (ix2 (0 : Fin 1) k) := by
  obtain ⟨-, -, -, -, e0, e1, -⟩ := steps1 t
  show V c main_v27 (((cfg1.win 2).blk t).view.emb (ix2 (0 : Fin 1) k)) = V c main_v27 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- The weight block at every point is the weight matrix. -/
theorem weight_at (c : Dev nD) (t : Fin cfg1.N) (k : Fin 64) (q : Fin 4) :
    (iblk1 V c 3 t : Vec Ideal S64x4 .f32) (ix2 k q) = (V c main_arg5 : FVec Ideal S64x4 .f32) (ix2 k q) := by
  obtain ⟨-, -, -, -, -, -, e0, e1, -⟩ := steps1 t
  show V c main_arg5 (((cfg1.win 3).blk t).view.emb (ix2 k q)) = V c main_arg5 (ix2 k q)
  refine congrArg _ (funext fun a => Fin.ext ?_)
  match a with
  | ⟨0, _⟩ => show win1_3.index t (0 : Fin 2) * 64 + 1 * k.val = k.val; omega
  | ⟨1, _⟩ => show win1_3.index t (1 : Fin 2) * 4 + 1 * q.val = q.val; omega

/-! ## From the blocks to the array -/

/-- What point t writes back is block t of G1 of the arrays the region reads: the body's one store fills the output
    buffer with its result over the four blocks, whose entry (p, q) is entry (5000·t + p, q) of G1, and that is where
    the output's block t puts it. -/
theorem wrote1 (c : Dev nD) (t : Fin cfg1.N) :
    (dat1 (F := Ideal) V c).flushed 4 t = ((cfg1.win 4).blk t).view.read (Elt Ideal) (KerTerm.G1 (V c main_v26) (V c main_v15) (V c main_v27) (V c main_arg5)) := by
  show (cfg1.win 4).cut (grid1.coords t) ((dat1 V c).after 4 t) = _
  rw [after1_4]
  unfold out1_4
  rw [View.canon_unit_zero zeros2]
  simp only [View.ld_unit_zero (S := S5000x64) zeros2, View.ld_unit_zero (S := S5000x1) zeros2, View.ld_unit_zero (S := S1x64) zeros2, View.ld_unit_zero (S := S64x4) zeros2]
  funext j
  obtain ⟨p, q, rfl⟩ : ∃ (p : Fin 5000) (q : Fin 4), j = ix2 p q := ⟨j 0, j 1, eq_ix2 j⟩
  have ht : t.val < 20 := lt_of_lt_of_eq t.isLt N_1
  obtain ⟨P, hP⟩ : ∃ P : Fin 100000, P.val = t.val * 5000 + p.val := ⟨⟨t.val * 5000 + p.val, by have := p.isLt; omega⟩, rfl⟩
  refine (block_rows (V c main_v26) (V c main_v15) (V c main_v27) (V c main_arg5)
    (iblk1 V c 0 t) (iblk1 V c 1 t) (iblk1 V c 2 t) (iblk1 V c 3 t) p q P
    (fun k => msgs_at V c t p k P hP) (dinv_at V c t p P hP) (fun k => bias_at V c t k) (fun k => weight_at V c t k q)).trans ?_
  obtain ⟨-, -, -, -, -, -, -, -, e0, e1⟩ := steps1 t
  show KerTerm.G1 (V c main_v26) (V c main_v15) (V c main_v27) (V c main_arg5) (ix2 P q)
    = KerTerm.G1 (V c main_v26) (V c main_v15) (V c main_v27) (V c main_arg5) (((cfg1.win 4).blk t).view.emb (ix2 p q))
  refine congrArg _ (funext fun a => Fin.ext ?_)
  match a with
  | ⟨0, _⟩ => show P.val = win1_4.index t (0 : Fin 2) * 5000 + 1 * p.val; omega
  | ⟨1, _⟩ => show q.val = win1_4.index t (1 : Fin 2) * 4 + 1 * q.val; omega

/-- Every row r of the output array lies in the block of the point r / 5000, and that point writes back. -/
theorem covered1 (i : S100000x4.Idx) :
    ∃ t : Fin cfg1.N, (cfg1.win 4).flush t = true ∧ i ∈ ((cfg1.win 4).blk t).view.set := by
  have hi0 : (i 0).val < 100000 := (i 0).isLt
  have hi1 : (i 1).val < 4 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, e0, e1⟩ := steps1 t
  refine ⟨t, flush1_4 t, ?_⟩
  show i ∈ ((View.whole main_v28).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 4 ≤ (i 1).val ∧ (i 1).val < win1_4.index t (1 : Fin 2) * 4 + 4; omega

theorem final1 (c : Dev nD) :
    (dat1 (F := Ideal) V c).arrAt 4 cfg1.N = KerTerm.G1 (V c main_v26) (V c main_v15) (V c main_v27) (V c main_arg5) := by
  exact (dat1 V c).arrAt_eq_of_cover 4 (KerTerm.G1 (V c main_v26) (V c main_v15) (V c main_v27) (V c main_arg5))
    (fun t _ => wrote1 V c t) covered1

end Cert.KernelIdeal.Val

end
-- ==== Proof.Val2.lean ====
/-
  Region 2's output array after the region, at the extended reals: the accumulator after the last point is, graph by
  graph and feature by feature, the sum over the 50 blocks of the one-hot products; the output window is written back
  once, at the last point, with that accumulator divided by the counts, through W3, plus the bias: the function G2 of
  the arrays the region reads.

  The steps. (1) The two payloads at an index: the update's product contracts the node axis of the one-hot matrix
  [2000, 256] with the node axis of the activated block [2000, 4], so its entry (g, dd) is the sum over the block's
  nodes r of onehot[r, g] · act[r, dd], added to the old accumulator; the head's product [256, 4] x [4, 1] at (g, 0) is
  the sum over the four features; a rounding to a narrower format is the identity on extended reals. (2) A window's
  block at point t reads its array at row 2000·t + r (the three row-blocked windows) or is the whole array (the
  others). (3) By induction on the point, the accumulator after point n is the sum of the shares of blocks 0 … n:
  it starts from zero and every point adds its block's share; addition of extended reals is a commutative monoid, so
  the fold in point order is the sum. (4) Only the last point writes the output window back, its block is the whole
  array, and what it writes is G2 of the arrays at every graph.
-/
import proofs.«418016_j33054068310762_3_alg».proof.Proof.R2
import proofs.«418016_j33054068310762_3_alg».proof.Proof.KerTerm
import proofs.«418016_j33054068310762_3_alg».proof.Proof.LibRowCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg
open scoped BigOperators

/-! ## The head's product [256, 4] x [4, 1] and the last point's payload, at a graph

The product contracts axis 1 of the left operand with axis 0 of the right: at output index (g, 0) and contraction
position dd the operands are read at (g, dd) and (dd, 0). -/

theorem lhsB_0 (j : S256x1.Idx) (k : dot_S256x4_S4x1_S256x1_1_0_0_1_n_n.contr.Idx) :
    (dot_S256x4_S4x1_S256x1_1_0_0_1_n_n.lhsIdx j k 0).val = (j 0).val := by
  simp [DotDims.lhsIdx, dot_S256x4_S4x1_S256x1_1_0_0_1_n_n]
  rfl
theorem lhsB_1 (j : S256x1.Idx) (k : dot_S256x4_S4x1_S256x1_1_0_0_1_n_n.contr.Idx) :
    (dot_S256x4_S4x1_S256x1_1_0_0_1_n_n.lhsIdx j k 1).val = (k ⟨0, by decide⟩).val :=
  dot_S256x4_S4x1_S256x1_1_0_0_1_n_n.lhsIdx_val_of_single rfl j k
theorem rhsB_0 (j : S256x1.Idx) (k : dot_S256x4_S4x1_S256x1_1_0_0_1_n_n.contr.Idx) :
    (dot_S256x4_S4x1_S256x1_1_0_0_1_n_n.rhsIdx j k 0).val = (k ⟨0, by decide⟩).val :=
  dot_S256x4_S4x1_S256x1_1_0_0_1_n_n.rhsIdx_val_of_single rfl j k
theorem rhsB_1 (j : S256x1.Idx) (k : dot_S256x4_S4x1_S256x1_1_0_0_1_n_n.contr.Idx) :
    (dot_S256x4_S4x1_S256x1_1_0_0_1_n_n.rhsIdx j k 1).val = (j 1).val := by
  simp [DotDims.rhsIdx, dot_S256x4_S4x1_S256x1_1_0_0_1_n_n]
  have h := idx2_lt1 j
  omega

/-- The head's product at a graph: the sum over the four features. -/
theorem matmulB_apply (L : FVec Ideal S256x4 .bf16) (R : FVec Ideal S4x1 .bf16) (g : Fin 256) :
    matmul dot_S256x4_S4x1_S256x1_1_0_0_1_n_n none L R (constant (F := Ideal) S256x1 .f32 0x00000000#32) (ix2 g (0 : Fin 1))
      = ∑ dd : Fin 4, L (ix2 g dd) * R (ix2 dd (0 : Fin 1)) := by
  show FloatOps.matmul _ none L R _ (ix2 g (0 : Fin 1)) = _
  rw [Ideal.matmul_constant_zero_apply, ← Equiv.sum_comp (contrEquiv1 dot_S256x4_S4x1_S256x1_1_0_0_1_n_n 4 rfl rfl).symm]
  refine Finset.sum_congr rfl fun dd _ => ?_
  have c2 := contrEquiv1_symm_val dot_S256x4_S4x1_S256x1_1_0_0_1_n_n 4 rfl rfl dd
  have l2 : dot_S256x4_S4x1_S256x1_1_0_0_1_n_n.lhsIdx (ix2 g (0 : Fin 1)) ((contrEquiv1 _ 4 rfl rfl).symm dd) = ix2 g dd := by
    funext ax; apply Fin.ext
    match ax with
    | ⟨0, _⟩ => exact lhsB_0 _ _
    | ⟨1, _⟩ => exact (lhsB_1 _ _).trans c2
  have r2 : dot_S256x4_S4x1_S256x1_1_0_0_1_n_n.rhsIdx (ix2 g (0 : Fin 1)) ((contrEquiv1 _ 4 rfl rfl).symm dd) = ix2 dd (0 : Fin 1) := by
    funext ax; apply Fin.ext
    match ax with
    | ⟨0, _⟩ => exact (rhsB_0 _ _).trans c2
    | ⟨1, _⟩ => exact rhsB_1 _ _
  rw [l2, r2]

/-- The last point's payload at a graph: the accumulator's row divided by the clamped count, through W3, plus the bias. -/
theorem pay3_apply (s : Vec Ideal S256x4 .f32) (cn : Vec Ideal S256x1 .f32) (w : Vec Ideal S4x1 .f32) (b3 : Vec Ideal S1x1 .f32) (g : Fin 256) :
    k2_pay3 (F := Ideal) s cn w b3 (ix2 g (0 : Fin 1))
      = (∑ dd : Fin 4, FloatOps.divf (F := Ideal) (s (ix2 g dd))
            (FloatOps.maximumf (F := Ideal) (cn (ix2 g (0 : Fin 1))) (FloatOps.ofBits (F := Ideal) .f32 0x3F800000#32))
          * w (ix2 dd (0 : Fin 1)))
        + b3 (ix2 (0 : Fin 1) (0 : Fin 1)) := by
  unfold k2_pay3
  rw [addf_apply, matmulB_apply]
  congr 1
  · refine Finset.sum_congr rfl fun dd _ => ?_
    rw [truncf_apply, truncf_apply, divf_apply, Cert.LibRowCol.broadcastTo_a1_ab_apply, maximumf_apply, shapeCast_self, broadcast_apply]
    rfl
  · rw [broadcastTo_1b_ab_apply, shapeCast_self]

/-! ## The pooling product and a point's update payload, at (graph, feature)

The product contracts axis 0 of both operands (the block's nodes): at output index (g, dd) and contraction position r
the one-hot matrix is read at (r, g) and the activated block at (r, dd). -/

theorem lhsA_0 (j : S256x4.Idx) (k : dot_S2000x256_S2000x4_S256x4_0_0_1_1_n_n.contr.Idx) :
    (dot_S2000x256_S2000x4_S256x4_0_0_1_1_n_n.lhsIdx j k 0).val = (k ⟨0, by decide⟩).val :=
  dot_S2000x256_S2000x4_S256x4_0_0_1_1_n_n.lhsIdx_val_of_single rfl j k
theorem lhsA_1 (j : S256x4.Idx) (k : dot_S2000x256_S2000x4_S256x4_0_0_1_1_n_n.contr.Idx) :
    (dot_S2000x256_S2000x4_S256x4_0_0_1_1_n_n.lhsIdx j k 1).val = (j 0).val := by
  simp [DotDims.lhsIdx, dot_S2000x256_S2000x4_S256x4_0_0_1_1_n_n]
  rfl
theorem rhsA_0 (j : S256x4.Idx) (k : dot_S2000x256_S2000x4_S256x4_0_0_1_1_n_n.contr.Idx) :
    (dot_S2000x256_S2000x4_S256x4_0_0_1_1_n_n.rhsIdx j k 0).val = (k ⟨0, by decide⟩).val :=
  dot_S2000x256_S2000x4_S256x4_0_0_1_1_n_n.rhsIdx_val_of_single rfl j k
theorem rhsA_1 (j : S256x4.Idx) (k : dot_S2000x256_S2000x4_S256x4_0_0_1_1_n_n.contr.Idx) :
    (dot_S2000x256_S2000x4_S256x4_0_0_1_1_n_n.rhsIdx j k 1).val = (j 1).val := by
  simp [DotDims.rhsIdx, dot_S2000x256_S2000x4_S256x4_0_0_1_1_n_n]
  rfl

/-- The pooling product at (graph, feature): the sum over the block's 2000 nodes, both operands read at the node's row. -/
theorem matmulA_apply (L : FVec Ideal S2000x256 .bf16) (R : FVec Ideal S2000x4 .bf16) (g : Fin 256) (dd : Fin 4) :
    matmul dot_S2000x256_S2000x4_S256x4_0_0_1_1_n_n none L R (constant (F := Ideal) S256x4 .f32 0x00000000#32) (ix2 g dd)
      = ∑ r : Fin 2000, L (ix2 r g) * R (ix2 r dd) := by
  show FloatOps.matmul _ none L R _ (ix2 g dd) = _
  rw [Ideal.matmul_constant_zero_apply, ← Equiv.sum_comp (contrEquiv1 dot_S2000x256_S2000x4_S256x4_0_0_1_1_n_n 2000 rfl rfl).symm]
  refine Finset.sum_congr rfl fun r _ => ?_
  have c2 := contrEquiv1_symm_val dot_S2000x256_S2000x4_S256x4_0_0_1_1_n_n 2000 rfl rfl r
  have l2 : dot_S2000x256_S2000x4_S256x4_0_0_1_1_n_n.lhsIdx (ix2 g dd) ((contrEquiv1 _ 2000 rfl rfl).symm r) = ix2 r g := by
    funext ax; apply Fin.ext
    match ax with
    | ⟨0, _⟩ => exact (lhsA_0 _ _).trans c2
    | ⟨1, _⟩ => exact lhsA_1 _ _
  have r2 : dot_S2000x256_S2000x4_S256x4_0_0_1_1_n_n.rhsIdx (ix2 g dd) ((contrEquiv1 _ 2000 rfl rfl).symm r) = ix2 r dd := by
    funext ax; apply Fin.ext
    match ax with
    | ⟨0, _⟩ => exact (rhsA_0 _ _).trans c2
    | ⟨1, _⟩ => exact rhsA_1 _ _
  rw [l2, r2]

/-- The block's one-hot matrix at (node, graph): whether the node's graph word is the graph's number, as 1.0 or 0.0. -/
theorem oneHot_apply (bt : Vec Ideal S2000x1 .i32) (r : Fin 2000) (g : Fin 256) :
    (truncf .bf16
        (sitofp (F := Ideal) .f32
          (extui 32
            (cmpi .eq
              (broadcastTo S2000x256 (shapeCast S2000x1 bt shapeCasts_S2000x1_S2000x1) broadcasts_S2000x1_S2000x256)
              (iota .tc S2000x256 32 [1] iota_S2000x256_d1_w32))
            natLt_1_32))
        bitsLt_bf16_f32 : FVec Ideal S2000x256 .bf16) (ix2 r g)
      = KerTerm.oneHot (bt (ix2 r (0 : Fin 1))) g := by
  rw [truncf_apply, sitofp_apply, extui_apply]
  show FloatOps.sitofp (F := Ideal) .f32 ((IntOp.cmpi .eq
      (broadcastTo S2000x256 (shapeCast S2000x1 bt shapeCasts_S2000x1_S2000x1) broadcasts_S2000x1_S2000x256 (ix2 r g))
      (iota .tc S2000x256 32 [1] iota_S2000x256_d1_w32 (ix2 r g))).setWidth 32) = _
  rw [Cert.LibRowCol.broadcastTo_a1_ab_apply, shapeCast_self, iota_single_apply]
  rfl

/-- The activation, elementwise: the kernels' ELU of the element. -/
theorem elu_apply (v : FVec Ideal S2000x4 .f32) (i : S2000x4.Idx) :
    (truncf .bf16
        (select (cmpf .ogt v (broadcast S2000x4 (Scalar.ofBits (F := Ideal) .f32 0x00000000#32))) v
          (subf (exp v) (broadcast S2000x4 (Scalar.ofBits (F := Ideal) .f32 0x3F800000#32))))
        bitsLt_bf16_f32 : FVec Ideal S2000x4 .bf16) i
      = KerTerm.eluK (v i) := rfl

/-- The pre-activation at (node, feature): the message times the node's scale plus the feature's bias. -/
theorem preact_apply (x : Vec Ideal S2000x4 .f32) (d : Vec Ideal S2000x1 .f32) (b : Vec Ideal S1x4 .f32) (r : Fin 2000) (dd : Fin 4) :
    (addf
      (mulf (shapeCast S2000x4 x shapeCasts_S2000x4_S2000x4)
        (broadcastTo S2000x4 (shapeCast S2000x1 d shapeCasts_S2000x1_S2000x1) broadcasts_S2000x1_S2000x4))
      (broadcastTo S2000x4 (shapeCast S1x4 b shapeCasts_S1x4_S1x4) broadcasts_S1x4_S2000x4) : FVec Ideal S2000x4 .f32) (ix2 r dd)
      = x (ix2 r dd) * d (ix2 r (0 : Fin 1)) + b (ix2 (0 : Fin 1) dd) := by
  rw [addf_apply, mulf_apply, shapeCast_self, Cert.LibRowCol.broadcastTo_a1_ab_apply, shapeCast_self, broadcastTo_1b_ab_apply, shapeCast_self]

/-- A point's update payload at (graph, feature): the old accumulator there plus the sum over the block's nodes of the
    one-hot entry times the activated feature. -/
theorem pay2_apply (x : Vec Ideal S2000x4 .f32) (d : Vec Ideal S2000x1 .f32) (b : Vec Ideal S1x4 .f32) (bt : Vec Ideal S2000x1 .i32)
    (s : Vec Ideal S256x4 .f32) (g : Fin 256) (dd : Fin 4) :
    k2_pay2 (F := Ideal) x d b bt s (ix2 g dd)
      = s (ix2 g dd) + ∑ r : Fin 2000, KerTerm.oneHot (bt (ix2 r (0 : Fin 1))) g
          * KerTerm.eluK (x (ix2 r dd) * d (ix2 r (0 : Fin 1)) + b (ix2 (0 : Fin 1) dd)) := by
  unfold k2_pay2
  rw [shapeCast_self, addf_apply, matmulA_apply]
  congr 1
  refine Finset.sum_congr rfl fun r _ => ?_
  rw [oneHot_apply, elu_apply, preact_apply]

/-! ## The accumulator's reset and update and the output window's store, at an index

Each is one store through the whole-block rectangle at zero offsets of a payload whose loads read whole buffers. -/

theorem zeroOff2 : (![0, 0] : Fin 2 → Nat) = fun _ => 0 := funext fun a => by fin_cases a <;> rfl

/-- The reset accumulator is zero everywhere. -/
theorem accInit_apply (g : Fin 256) (dd : Fin 4) : accInit (F := Ideal) (ix2 g dd) = 0 := by
  unfold accInit
  rw [View.canon_unit_zero zeroOff2]
  unfold k2_pay1
  rw [shapeCast_self, broadcast_apply]
  exact Ideal.ofBits_zero_f32

/-- A point's update of the accumulator at (graph, feature). -/
theorem accStep_apply (x : Vec Ideal S2000x4 .f32) (d : Vec Ideal S2000x1 .f32) (b : Vec Ideal S1x4 .f32) (bt : Vec Ideal S2000x1 .i32)
    (s : Vec Ideal S256x4 .f32) (g : Fin 256) (dd : Fin 4) :
    accStep (F := Ideal) x d b bt s (ix2 g dd)
      = s (ix2 g dd) + ∑ r : Fin 2000, KerTerm.oneHot (bt (ix2 r (0 : Fin 1))) g
          * KerTerm.eluK (x (ix2 r dd) * d (ix2 r (0 : Fin 1)) + b (ix2 (0 : Fin 1) dd)) := by
  unfold accStep
  rw [View.canon_unit_zero zeroOff2]
  simp only [View.ld_unit_zero (S := S2000x4) zeroOff2, View.ld_unit_zero (S := S2000x1) zeroOff2, View.ld_unit_zero (S := S1x4) zeroOff2,
    View.ld_unit_zero (S := S256x4) zeroOff2]
  exact pay2_apply x d b bt s g dd

/-- The output window's staging buffer after the last point's body, at a graph. -/
theorem out2_7_apply (s : Vec Ideal S256x4 .f32) (cn : Vec Ideal S256x1 .f32) (w : Vec Ideal S4x1 .f32) (b3 : Vec Ideal S1x1 .f32) (g : Fin 256) :
    out2_7 (F := Ideal) s cn w b3 (ix2 g (0 : Fin 1))
      = (∑ dd : Fin 4, FloatOps.divf (F := Ideal) (s (ix2 g dd))
            (FloatOps.maximumf (F := Ideal) (cn (ix2 g (0 : Fin 1))) (FloatOps.ofBits (F := Ideal) .f32 0x3F800000#32))
          * w (ix2 dd (0 : Fin 1)))
        + b3 (ix2 (0 : Fin 1) (0 : Fin 1)) := by
  unfold out2_7
  rw [View.canon_unit_zero zeroOff2]
  simp only [View.ld_unit_zero (S := S256x4) zeroOff2, View.ld_unit_zero (S := S256x1) zeroOff2, View.ld_unit_zero (S := S4x1) zeroOff2,
    View.ld_unit_zero (S := S1x1) zeroOff2]
  exact pay3_apply s cn w b3 g

/-! ## The windows' blocks, read off the arrays -/

variable (V : (c : Dev nD) → (b : Ref sig .tc) → Buf (Elt Ideal) ((c : Thread nD τ).loc b))

/-- The printed index maps, decided over the grid: the three row-blocked windows are at block (t, 0) at point t, the
    whole-array windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The grid has 50 points. -/
theorem lt50 (t : Fin cfg2.N) : t.val < 50 := by have := t.isLt; have hN : cfg2.N = 50 := N_2; omega

/-- Point t as a block number. -/
abbrev blkNo (t : Fin cfg2.N) : Fin 50 := ⟨t.val, lt50 t⟩

/-- The arrays the region reads, at their literal types. -/
abbrev arrX (c : Dev nD) : FVec Ideal S100000x4 .f32 := V c main_v38
abbrev arrD (c : Dev nD) : FVec Ideal S100000x1 .f32 := V c main_v15
abbrev arrB (c : Dev nD) : FVec Ideal S1x4 .f32 := V c main_v45
abbrev arrT (c : Dev nD) : IVec S100000x1 32 := V c main_v44
abbrev arrC (c : Dev nD) : FVec Ideal S256x1 .f32 := V c main_v43
abbrev arrW (c : Dev nD) : FVec Ideal S4x1 .f32 := V c main_arg7
abbrev arrE (c : Dev nD) : FVec Ideal S1x1 .f32 := V c main_v46

/-- The message window's block at point t reads the array at the block's rows. -/
theorem iblk2_0_apply (c : Dev nD) (t : Fin cfg2.N) (r : Fin 2000) (dd : Fin 4) :
    (iblk2 V c 0 t : Vec Ideal S2000x4 .f32) (ix2 r dd) = arrX V c (ix2 (KerTerm.blockRow (blkNo t) r) dd) := by
  obtain ⟨e0, e1, -⟩ := idx_facts2 t
  unfold iblk2
  rw [View.read_apply]
  show V c main_v38 _ = V c main_v38 _
  congr 1
  funext a
  apply Fin.ext
  match a with
  | ⟨0, _⟩ => show win2_0.index t (0 : Fin 2) * 2000 + 1 * r.val = 2000 * t.val + r.val; rw [e0]; omega
  | ⟨1, _⟩ => show win2_0.index t (1 : Fin 2) * 4 + 1 * dd.val = dd.val; rw [e1]; omega

/-- The scale column's block at point t reads the array at the block's rows. -/
theorem iblk2_1_apply (c : Dev nD) (t : Fin cfg2.N) (r : Fin 2000) :
    (iblk2 V c 1 t : Vec Ideal S2000x1 .f32) (ix2 r (0 : Fin 1)) = arrD V c (ix2 (KerTerm.blockRow (blkNo t) r) (0 : Fin 1)) := by
  obtain ⟨-, -, e0, e1, -⟩ := idx_facts2 t
  unfold iblk2
  rw [View.read_apply]
  show V c main_v15 _ = V c main_v15 _
  congr 1
  funext a
  apply Fin.ext
  match a with
  | ⟨0, _⟩ => show win2_1.index t (0 : Fin 2) * 2000 + 1 * r.val = 2000 * t.val + r.val; rw [e0]; omega
  | ⟨1, _⟩ => show win2_1.index t (1 : Fin 2) * 1 + 1 * 0 = 0; rw [e1]

/-- The bias row's block is the whole row at every point. -/
theorem iblk2_2_apply (c : Dev nD) (t : Fin cfg2.N) (dd : Fin 4) :
    (iblk2 V c 2 t : Vec Ideal S1x4 .f32) (ix2 (0 : Fin 1) dd) = arrB V c (ix2 (0 : Fin 1) dd) := by
  obtain ⟨-, -, -, -, e0, e1, -⟩ := idx_facts2 t
  unfold iblk2
  rw [View.read_apply]
  show V c main_v45 _ = V c main_v45 _
  congr 1
  funext a
  apply Fin.ext
  match a with
  | ⟨0, _⟩ => show win2_2.index t (0 : Fin 2) * 1 + 1 * 0 = 0; rw [e0]
  | ⟨1, _⟩ => show win2_2.index t (1 : Fin 2) * 4 + 1 * dd.val = dd.val; rw [e1]; omega

/-- The graph words' block at point t reads the array at the block's rows. -/
theorem iblk2_3_apply (c : Dev nD) (t : Fin cfg2.N) (r : Fin 2000) :
    (iblk2 V c 3 t : Vec Ideal S2000x1 .i32) (ix2 r (0 : Fin 1)) = arrT V c (ix2 (KerTerm.blockRow (blkNo t) r) (0 : Fin 1)) := by
  obtain ⟨-, -, -, -, -, -, e0, e1, -⟩ := idx_facts2 t
  unfold iblk2
  rw [View.read_apply]
  show V c main_v44 _ = V c main_v44 _
  congr 1
  funext a
  apply Fin.ext
  match a with
  | ⟨0, _⟩ => show win2_3.index t (0 : Fin 2) * 2000 + 1 * r.val = 2000 * t.val + r.val; rw [e0]; omega
  | ⟨1, _⟩ => show win2_3.index t (1 : Fin 2) * 1 + 1 * 0 = 0; rw [e1]

/-- The counts' block is the whole column at every point. -/
theorem iblk2_4_apply (c : Dev nD) (t : Fin cfg2.N) (g : Fin 256) :
    (iblk2 V c 4 t : Vec Ideal S256x1 .f32) (ix2 g (0 : Fin 1)) = arrC V c (ix2 g (0 : Fin 1)) := by
  obtain ⟨-, -, -, -, -, -, -, -, e0, e1, -⟩ := idx_facts2 t
  unfold iblk2
  rw [View.read_apply]
  show V c main_v43 _ = V c main_v43 _
  congr 1
  funext a
  apply Fin.ext
  match a with
  | ⟨0, _⟩ => show win2_4.index t (0 : Fin 2) * 256 + 1 * g.val = g.val; rw [e0]; omega
  | ⟨1, _⟩ => show win2_4.index t (1 : Fin 2) * 1 + 1 * 0 = 0; rw [e1]

/-- The head's weights' block is the whole column at every point. -/
theorem iblk2_5_apply (c : Dev nD) (t : Fin cfg2.N) (dd : Fin 4) :
    (iblk2 V c 5 t : Vec Ideal S4x1 .f32) (ix2 dd (0 : Fin 1)) = arrW V c (ix2 dd (0 : Fin 1)) := by
  obtain ⟨-, -, -, -, -, -, -, -, -, -, e0, e1, -⟩ := idx_facts2 t
  unfold iblk2
  rw [View.read_apply]
  show V c main_arg7 _ = V c main_arg7 _
  congr 1
  funext a
  apply Fin.ext
  match a with
  | ⟨0, _⟩ => show win2_5.index t (0 : Fin 2) * 4 + 1 * dd.val = dd.val; rw [e0]; omega
  | ⟨1, _⟩ => show win2_5.index t (1 : Fin 2) * 1 + 1 * 0 = 0; rw [e1]

/-- The head's bias' block is the one entry at every point. -/
theorem iblk2_6_apply (c : Dev nD) (t : Fin cfg2.N) :
    (iblk2 V c 6 t : Vec Ideal S1x1 .f32) (ix2 (0 : Fin 1) (0 : Fin 1)) = arrE V c (ix2 (0 : Fin 1) (0 : Fin 1)) := by
  obtain ⟨-, -, -, -, -, -, -, -, -, -, -, -, e0, e1, -⟩ := idx_facts2 t
  unfold iblk2
  rw [View.read_apply]
  show V c main_v46 _ = V c main_v46 _
  congr 1
  funext a
  apply Fin.ext
  match a with
  | ⟨0, _⟩ => show win2_6.index t (0 : Fin 2) * 1 + 1 * 0 = 0; rw [e0]
  | ⟨1, _⟩ => show win2_6.index t (1 : Fin 2) * 1 + 1 * 0 = 0; rw [e1]

/-! ## The accumulator across the grid -/

/-- Block t's share of the pooled sum at (graph, feature): the sum over the block's nodes. -/
def blockTerm (x : FVec Ideal S100000x4 .f32) (d : FVec Ideal S100000x1 .f32) (b : FVec Ideal S1x4 .f32) (bt : IVec S100000x1 32)
    (t : Fin 50) (g : Fin 256) (dd : Fin 4) : Ideal .f32 :=
  ∑ r : Fin 2000,
    KerTerm.oneHot (bt (ix2 (KerTerm.blockRow t r) (0 : Fin 1))) g
      * KerTerm.eluK (x (ix2 (KerTerm.blockRow t r) dd) * d (ix2 (KerTerm.blockRow t r) (0 : Fin 1)) + b (ix2 (0 : Fin 1) dd))

/-- The pooled sum is the sum of the blocks' shares. -/
theorem pooled_as_blocks (x : FVec Ideal S100000x4 .f32) (d : FVec Ideal S100000x1 .f32) (b : FVec Ideal S1x4 .f32) (bt : IVec S100000x1 32)
    (g : Fin 256) (dd : Fin 4) : KerTerm.pooled x d b bt g dd = ∑ t : Fin 50, blockTerm x d b bt t g dd := rfl

/-- Point t's update adds block t's share. -/
theorem step_apply (c : Dev nD) (t : Fin cfg2.N) (s : Vec Ideal S256x4 .f32) (g : Fin 256) (dd : Fin 4) :
    accStep (F := Ideal) (iblk2 V c 0 t) (iblk2 V c 1 t) (iblk2 V c 2 t) (iblk2 V c 3 t) s (ix2 g dd)
      = s (ix2 g dd) + blockTerm (arrX V c) (arrD V c) (arrB V c) (arrT V c) (blkNo t) g dd := by
  refine (accStep_apply (iblk2 V c 0 t) (iblk2 V c 1 t) (iblk2 V c 2 t) (iblk2 V c 3 t) s g dd).trans ?_
  refine congrArg (s (ix2 g dd) + ·) ?_
  unfold blockTerm
  refine Finset.sum_congr rfl fun r _ => ?_
  rw [iblk2_0_apply V c t r dd, iblk2_1_apply V c t r, iblk2_2_apply V c t dd, iblk2_3_apply V c t r]

/-- The accumulator after point n, at (graph, feature), is the sum of the shares of the blocks 0 … n. -/
theorem acc2_apply (c : Dev nD) (g : Fin 256) (dd : Fin 4) : ∀ (n : ℕ) (h : n < cfg2.N),
    acc2 V c n h (ix2 g dd)
      = ∑ t : Fin (n + 1), blockTerm (arrX V c) (arrD V c) (arrB V c) (arrT V c)
          ⟨t.val, by have := t.isLt; have hN : cfg2.N = 50 := N_2; omega⟩ g dd
  | 0, h => by
    rw [acc2_zero, step_apply V c ⟨0, h⟩ accInit g dd, accInit_apply, zero_add, Fin.sum_univ_one]
    rfl
  | n + 1, h => by
    rw [acc2_succ, step_apply V c ⟨n + 1, h⟩ (acc2 V c n (Nat.lt_of_succ_lt h)) g dd, acc2_apply c g dd n (Nat.lt_of_succ_lt h),
      Fin.sum_univ_castSucc (n := n + 1)]
    rfl

/-- The accumulator after a point depends on the point's number only. -/
theorem acc2_congr (c : Dev nD) (n m : ℕ) (hn : n < cfg2.N) (hm : m < cfg2.N) (e : n = m) : acc2 V c n hn = acc2 V c m hm := by
  subst e; rfl

/-- After the last point the accumulator holds the pooled sums. -/
theorem acc2_last (c : Dev nD) (g : Fin 256) (dd : Fin 4) (h : 49 < cfg2.N) :
    acc2 V c 49 h (ix2 g dd) = KerTerm.pooled (arrX V c) (arrD V c) (arrB V c) (arrT V c) g dd := by
  rw [acc2_apply V c g dd 49 h, pooled_as_blocks]

/-! ## The one write-back, and the array after the region -/

/-- An index of the output array is in point t's block iff each coordinate is in the block's range on its axis. -/
theorem mem_blk2_7 (t : Fin cfg2.N) (i : S256x1.Idx) :
    i ∈ ((cfg2.win 7).blk t).view.set ↔ ∀ a : Fin 2, win2_7.index t a * S256x1.size a ≤ (i a).val ∧ (i a).val < win2_7.index t a * S256x1.size a + S256x1.size a := by
  show i ∈ ((View.whole main_v47).slice (win2_7.rect t)).set ↔ _
  rw [View.set_slice_whole, Rect.mem_set_unit]
  exact Iff.rfl

/-- What the last point writes back is the whole of G2 of the arrays the region reads (its block is the array). -/
theorem flushed2_7_eq (c : Dev nD) (t : Fin cfg2.N) (hf : (cfg2.win 7).flush t = true) :
    (dat2 V c).flushed 7 t = ((cfg2.win 7).blk t).view.read (Elt Ideal)
      (KerTerm.G2 (arrX V c) (arrD V c) (arrB V c) (arrT V c) (arrC V c) (arrW V c) (arrE V c)) := by
  have hN : cfg2.N = 50 := N_2
  have h49 : t.val = 49 := by have := (flush2_7 t).mp hf; have := t.isLt; omega
  obtain ⟨-, -, -, -, -, -, -, -, -, -, -, -, -, -, e0, e1⟩ := idx_facts2 t
  show (cfg2.win 7).cut (grid2.coords t) ((dat2 V c).after 7 t) = _
  rw [after2_7]
  funext j
  obtain ⟨g, u, rfl⟩ : ∃ (g : Fin 256) (u : Fin 1), j = ix2 g u := ⟨j 0, j 1, eq_ix2 j⟩
  obtain rfl : u = 0 := Subsingleton.elim _ _
  rw [View.read_apply]
  have hemb : ((cfg2.win 7).blk t).view.emb (ix2 g (0 : Fin 1)) = ix2 g (0 : Fin 1) := by
    funext a; apply Fin.ext
    match a with
    | ⟨0, _⟩ => show win2_7.index t (0 : Fin 2) * 256 + 1 * g.val = g.val; rw [e0]; omega
    | ⟨1, _⟩ => show win2_7.index t (1 : Fin 2) * 1 + 1 * 0 = 0; rw [e1]
  rw [hemb]
  show out2_7 (F := Ideal) (acc2 V c t.val t.isLt) (iblk2 V c 4 t) (iblk2 V c 5 t) (iblk2 V c 6 t) (ix2 g (0 : Fin 1)) = _
  refine (out2_7_apply (acc2 V c t.val t.isLt) (iblk2 V c 4 t) (iblk2 V c 5 t) (iblk2 V c 6 t) g).trans ?_
  show _ = (∑ dd : Fin 4, FloatOps.divf (F := Ideal) (KerTerm.pooled (arrX V c) (arrD V c) (arrB V c) (arrT V c) g dd)
        (FloatOps.maximumf (F := Ideal) (arrC V c (ix2 g (0 : Fin 1))) (FloatOps.ofBits (F := Ideal) .f32 0x3F800000#32))
      * arrW V c (ix2 dd (0 : Fin 1))) + arrE V c (ix2 (0 : Fin 1) (0 : Fin 1))
  rw [iblk2_4_apply V c t g, iblk2_6_apply V c t]
  congr 1
  refine Finset.sum_congr rfl fun dd _ => ?_
  rw [iblk2_5_apply V c t dd, acc2_congr V c t.val 49 t.isLt (by omega) h49, acc2_last V c g dd]

/-- THE ARRAY after the region: G2 of the arrays the region reads. The last point's block covers every index. -/
theorem final2 (c : Dev nD) :
    (dat2 (F := Ideal) V c).arrAt 7 cfg2.N
      = KerTerm.G2 (V c main_v38) (V c main_v15) (V c main_v45) (V c main_v44) (V c main_v43) (V c main_arg7) (V c main_v46) := by
  have hN : cfg2.N = 50 := N_2
  refine (dat2 V c).arrAt_eq_of_cover 7
    (KerTerm.G2 (arrX V c) (arrD V c) (arrB V c) (arrT V c) (arrC V c) (arrW V c) (arrE V c))
    (fun t hf => flushed2_7_eq V c t hf) fun i => ⟨⟨49, by omega⟩, (flush2_7 _).mpr rfl, ?_⟩
  obtain ⟨-, -, -, -, -, -, -, -, -, -, -, -, -, -, e0, e1⟩ := idx_facts2 ⟨49, by omega⟩
  rw [mem_blk2_7]
  intro a
  have h0 : (i 0).val < 256 := idx2_lt0 i
  have h1 : (i 1).val < 1 := idx2_lt1 i
  match a with
  | ⟨0, _⟩ => show win2_7.index ⟨49, _⟩ (0 : Fin 2) * 256 ≤ (i 0).val ∧ (i 0).val < win2_7.index ⟨49, _⟩ (0 : Fin 2) * 256 + 256; rw [e0]; omega
  | ⟨1, _⟩ => show win2_7.index ⟨49, _⟩ (1 : Fin 2) * 1 ≤ (i 1).val ∧ (i 1).val < win2_7.index ⟨49, _⟩ (1 : Fin 2) * 1 + 1; rw [e1]; omega

end Cert.KernelIdeal.Val

end
-- ==== Proof.KHost.lean ====
/-
  The kernel program's host lines between its regions, read as terms: what each region finds in the arrays it reads,
  and with the three regions' output arrays (each the function of its inputs the value modules prove) the program's
  result as the one term KerTerm.out of the argument arrays.
-/
import proofs.«418016_j33054068310762_3_alg».proof.Proof.Gen.KernelIdeal.Regions
import proofs.«418016_j33054068310762_3_alg».proof.Proof.Val0
import proofs.«418016_j33054068310762_3_alg».proof.Proof.Val1
import proofs.«418016_j33054068310762_3_alg».proof.Proof.Val2
import Idealize.ShloMosaic.Lib.StableHlo.Run

set_option maxRecDepth 16384

noncomputable section

namespace Cert.KernelIdeal.KHost

open Idealize.ShloMosaic Idealize.ShloMosaic.TcCoe Idealize.ShloMosaic.StableHlo Idealize.SL.Sem
open Idealize.ShloMosaic.Pipeline (Dat)
open Cert.KernelIdeal Cert.KernelIdeal.Gen Cert.KernelIdeal.Reg

variable (m : (ℓ : Loc nD τ sig) → Buf (Elt Ideal) ℓ) (outs : Gen.Outs (F := Ideal))

/-! ## Each host stretch read over an arbitrary valuation -/

section Stretch

variable (W : Valuation τ sig (Elt Ideal))

attribute [local irreducible] Host.scatterAdd Host.gather concatenate Host.rsqrt in
/-- The first stretch leaves in main_v3 the source list followed by the self loops. -/
theorem s0_v3 : StableHlo.after hostOps0 W (Proc.devRef .tc main_v3) = KerTerm.rowv (W main_arg1) := by
  after_results
  rfl

attribute [local irreducible] Host.scatterAdd Host.gather concatenate Host.rsqrt in
/-- … in main_v6 the target list followed by the self loops. -/
theorem s0_v6 : StableHlo.after hostOps0 W (Proc.devRef .tc main_v6) = KerTerm.colv (W main_arg1) := by
  after_results
  rfl

attribute [local irreducible] Host.scatterAdd Host.gather concatenate Host.rsqrt in
/-- … in main_v12 where the degree is positive. -/
theorem s0_v12 : StableHlo.after hostOps0 W (Proc.devRef .tc main_v12)
    = cmpf .ogt (KerTerm.deg (F := Ideal) (W main_arg1)) (broadcastInDim S100000 ![] bcast_S_S100000 (constant S_ .f32 0x00000000#32)) := by
  after_results
  rfl

attribute [local irreducible] Host.scatterAdd Host.gather concatenate Host.rsqrt in
/-- … in main_v13 the degree's inverse square root. -/
theorem s0_v13 : StableHlo.after hostOps0 W (Proc.devRef .tc main_v13) = Host.rsqrt (KerTerm.deg (F := Ideal) (W main_arg1)) := by
  after_results
  rfl

/-- … in main_cst_2 the number zero. -/
theorem s0_cst2 : StableHlo.after hostOps0 W (Proc.devRef .tc main_cst_2) = constant (F := Ideal) S_ .f32 0x00000000#32 := by
  after_results

end Stretch

section Stretch2

variable (W : Valuation τ sig (Elt Ideal))

/-- The outlined selection leaves in main_v14 the second array where the mask holds and the zero elsewhere. -/
theorem s01_v14 : StableHlo.after hostOps0_1 W (Proc.devRef .tc main_v14)
    = select (W main_v12) (W main_v13) (broadcastInDim S100000 ![] bcast_S_S100000 (id (W main_cst_2))) := by
  after_results
  rfl

/-- The reshape leaves in main_v15 the array of main_v14 as a column. -/
theorem s02_v15 : StableHlo.after hostOps0_2 W (Proc.devRef .tc main_v15)
    = shapeCast S100000x1 (W main_v14) shapeCasts_S100000_S100000x1 := by
  after_results
  rfl

attribute [local irreducible] Host.scatterAdd Host.gather concatenate in
/-- The stretch between regions 0 and 1 leaves in main_v26 the rows of main_v16 at the sources (main_v3), added up at
    the targets (main_v6). -/
theorem s1_v26 : StableHlo.after hostOps1 W (Proc.devRef .tc main_v26)
    = Host.scatterAdd (F := Ideal) scatter_S100000x64_S3300000x1_S3300000x64_1_0_0_1
        (broadcastInDim S100000x64 ![] bcast_S_S100000x64 (constant S_ .f32 0x00000000#32))
        (KerTerm.col2d (W main_v6))
        (Host.gather gather_S100000x64_S3300000x1_S3300000x64_1_0_n_n_0_1_164 (W main_v16) (KerTerm.wrap2d (W main_v3))) := by
  after_results
  rfl

/-- … in main_v27 the first bias as a row. -/
theorem s1_v27 : StableHlo.after hostOps1 W (Proc.devRef .tc main_v27) = KerTerm.b1row (F := Ideal) (W main_arg4) := by
  after_results
  rfl

attribute [local irreducible] Host.scatterAdd Host.gather concatenate in
/-- The stretch between regions 1 and 2 leaves in main_v38 the rows of main_v28 at the sources, added up at the targets. -/
theorem s2_v38 : StableHlo.after hostOps2 W (Proc.devRef .tc main_v38)
    = Host.scatterAdd (F := Ideal) scatter_S100000x4_S3300000x1_S3300000x4_1_0_0_1
        (broadcastInDim S100000x4 ![] bcast_S_S100000x4 (constant S_ .f32 0x00000000#32))
        (KerTerm.col2d (W main_v6))
        (Host.gather gather_S100000x4_S3300000x1_S3300000x4_1_0_n_n_0_1_14 (W main_v28) (KerTerm.wrap2d (W main_v3))) := by
  after_results
  rfl

attribute [local irreducible] Host.scatterAdd Host.gather concatenate in
/-- … in main_v43 the nodes per graph as a column. -/
theorem s2_v43 : StableHlo.after hostOps2 W (Proc.devRef .tc main_v43) = KerTerm.counts (F := Ideal) (W main_arg2) := by
  after_results
  rfl

/-- … in main_v44 the graph numbers as a column. -/
theorem s2_v44 : StableHlo.after hostOps2 W (Proc.devRef .tc main_v44) = KerTerm.batch2d (W main_arg2) := by
  after_results
  rfl

/-- … in main_v45 the second bias as a row. -/
theorem s2_v45 : StableHlo.after hostOps2 W (Proc.devRef .tc main_v45) = KerTerm.b2row (F := Ideal) (W main_arg6) := by
  after_results
  rfl

/-- … in main_v46 the third bias as a row. -/
theorem s2_v46 : StableHlo.after hostOps2 W (Proc.devRef .tc main_v46) = KerTerm.b3row (F := Ideal) (W main_arg8) := by
  after_results
  rfl

end Stretch2

/-! ## What each region finds in the arrays it reads -/

section Reads

variable (c : Dev nD)

/-- A reference no item before region 0 writes holds its launch contents there. -/
theorem V3_keep (r : Ref sig .tc) (h1 : r ∉ hostOps0_W := by decide) (h2 : r ∉ hostOps0_1_W := by decide)
    (h3 : r ∉ hostOps0_2_W := by decide) : Gen.V3 m c r = Gen.V0 m c r :=
  (V3_of m c r h3).trans ((V2_of m c r h2).trans (V1_of m c r h1))

/-- … before the stretch between regions 0 and 1. -/
theorem V4_keep (r : Ref sig .tc) (h1 : r ∉ hostOps0_W := by decide) (h2 : r ∉ hostOps0_1_W := by decide)
    (h3 : r ∉ hostOps0_2_W := by decide) (h4 : r ∉ ([main_v16] : List (Ref sig .tc)) := by decide) :
    Gen.V4 m outs c r = Gen.V0 m c r :=
  (V4_of m outs c r h4).trans (V3_keep m c r h1 h2 h3)

/-- … before region 1. -/
theorem V5_keep (r : Ref sig .tc) (h1 : r ∉ hostOps0_W := by decide) (h2 : r ∉ hostOps0_1_W := by decide)
    (h3 : r ∉ hostOps0_2_W := by decide) (h4 : r ∉ ([main_v16] : List (Ref sig .tc)) := by decide)
    (h5 : r ∉ hostOps1_W := by decide) : Gen.V5 m outs c r = Gen.V0 m c r :=
  (V5_of m outs c r h5).trans (V4_keep m outs c r h1 h2 h3 h4)

/-- … before the stretch between regions 1 and 2. -/
theorem V6_keep (r : Ref sig .tc) (h1 : r ∉ hostOps0_W := by decide) (h2 : r ∉ hostOps0_1_W := by decide)
    (h3 : r ∉ hostOps0_2_W := by decide) (h4 : r ∉ ([main_v16] : List (Ref sig .tc)) := by decide)
    (h5 : r ∉ hostOps1_W := by decide) (h6 : r ∉ ([main_v28] : List (Ref sig .tc)) := by decide) :
    Gen.V6 m outs c r = Gen.V0 m c r :=
  (V6_of m outs c r h6).trans (V5_keep m outs c r h1 h2 h3 h4 h5)

/-- … before region 2. -/
theorem V7_keep (r : Ref sig .tc) (h1 : r ∉ hostOps0_W := by decide) (h2 : r ∉ hostOps0_1_W := by decide)
    (h3 : r ∉ hostOps0_2_W := by decide) (h4 : r ∉ ([main_v16] : List (Ref sig .tc)) := by decide)
    (h5 : r ∉ hostOps1_W := by decide) (h6 : r ∉ ([main_v28] : List (Ref sig .tc)) := by decide)
    (h7 : r ∉ hostOps2_W := by decide) : Gen.V7 m outs c r = Gen.V0 m c r :=
  (V7_of m outs c r h7).trans (V6_keep m outs c r h1 h2 h3 h4 h5 h6)

/-! ### After the first stretch -/

theorem V1_v3 : Gen.V1 m c main_v3 = KerTerm.rowv (m ((c.tc : Thread nD τ).loc main_arg1)) := s0_v3 (Gen.V0 m c)
theorem V1_v6 : Gen.V1 m c main_v6 = KerTerm.colv (m ((c.tc : Thread nD τ).loc main_arg1)) := s0_v6 (Gen.V0 m c)
theorem V1_v12 : Gen.V1 m c main_v12
    = cmpf .ogt (KerTerm.deg (F := Ideal) (m ((c.tc : Thread nD τ).loc main_arg1))) (broadcastInDim S100000 ![] bcast_S_S100000 (constant S_ .f32 0x00000000#32)) :=
  s0_v12 (Gen.V0 m c)
theorem V1_v13 : Gen.V1 m c main_v13 = Host.rsqrt (KerTerm.deg (F := Ideal) (m ((c.tc : Thread nD τ).loc main_arg1))) := s0_v13 (Gen.V0 m c)
theorem V1_cst2 : Gen.V1 m c main_cst_2 = constant (F := Ideal) S_ .f32 0x00000000#32 := s0_cst2 (Gen.V0 m c)

/-- After the outlined selection main_v14 holds the inverse square root of the degree where that is positive, zero
    elsewhere. -/
theorem V2_v14 : Gen.V2 m c main_v14 = KerTerm.dinv (F := Ideal) (m ((c.tc : Thread nD τ).loc main_arg1)) := by
  refine (s01_v14 (Gen.V1 m c)).trans ?_
  rw [V1_v12, V1_v13, V1_cst2]
  rfl

/-! ### Entering region 0 -/

theorem V3_v15 : Gen.V3 m c main_v15 = KerTerm.dinv2d (F := Ideal) (m ((c.tc : Thread nD τ).loc main_arg1)) := by
  refine (s02_v15 (Gen.V2 m c)).trans ?_
  rw [V2_v14]
  rfl
theorem V3_v3 : Gen.V3 m c main_v3 = KerTerm.rowv (m ((c.tc : Thread nD τ).loc main_arg1)) :=
  (V3_of m c main_v3 (by decide)).trans ((V2_of m c main_v3 (by decide)).trans (V1_v3 m c))
theorem V3_v6 : Gen.V3 m c main_v6 = KerTerm.colv (m ((c.tc : Thread nD τ).loc main_arg1)) :=
  (V3_of m c main_v6 (by decide)).trans ((V2_of m c main_v6 (by decide)).trans (V1_v6 m c))
theorem V3_arg0 : Gen.V3 m c main_arg0 = m ((c.tc : Thread nD τ).loc main_arg0) := V3_keep m c main_arg0
theorem V3_arg3 : Gen.V3 m c main_arg3 = m ((c.tc : Thread nD τ).loc main_arg3) := V3_keep m c main_arg3

/-! ### Entering region 1 -/

theorem V4_v3 : Gen.V4 m outs c main_v3 = KerTerm.rowv (m ((c.tc : Thread nD τ).loc main_arg1)) :=
  (V4_of m outs c main_v3 (by decide)).trans (V3_v3 m c)
theorem V4_v6 : Gen.V4 m outs c main_v6 = KerTerm.colv (m ((c.tc : Thread nD τ).loc main_arg1)) :=
  (V4_of m outs c main_v6 (by decide)).trans (V3_v6 m c)
theorem V4_v15 : Gen.V4 m outs c main_v15 = KerTerm.dinv2d (F := Ideal) (m ((c.tc : Thread nD τ).loc main_arg1)) :=
  (V4_of m outs c main_v15 (by decide)).trans (V3_v15 m c)

theorem V5_v26 : Gen.V5 m outs c main_v26 = KerTerm.raw1 (F := Ideal) (Gen.V4 m outs c main_v16) (m ((c.tc : Thread nD τ).loc main_arg1)) := by
  refine (s1_v26 (Gen.V4 m outs c)).trans ?_
  rw [V4_v6, V4_v3]
  rfl
theorem V5_v15 : Gen.V5 m outs c main_v15 = KerTerm.dinv2d (F := Ideal) (m ((c.tc : Thread nD τ).loc main_arg1)) :=
  (V5_of m outs c main_v15 (by decide)).trans (V4_v15 m outs c)
theorem V5_v27 : Gen.V5 m outs c main_v27 = KerTerm.b1row (F := Ideal) (m ((c.tc : Thread nD τ).loc main_arg4)) := by
  refine (s1_v27 (Gen.V4 m outs c)).trans ?_
  rw [V4_keep m outs c main_arg4]
theorem V5_arg5 : Gen.V5 m outs c main_arg5 = m ((c.tc : Thread nD τ).loc main_arg5) := V5_keep m outs c main_arg5

/-! ### Entering region 2 -/

theorem V6_v3 : Gen.V6 m outs c main_v3 = KerTerm.rowv (m ((c.tc : Thread nD τ).loc main_arg1)) :=
  (V6_of m outs c main_v3 (by decide)).trans ((V5_of m outs c main_v3 (by decide)).trans (V4_v3 m outs c))
theorem V6_v6 : Gen.V6 m outs c main_v6 = KerTerm.colv (m ((c.tc : Thread nD τ).loc main_arg1)) :=
  (V6_of m outs c main_v6 (by decide)).trans ((V5_of m outs c main_v6 (by decide)).trans (V4_v6 m outs c))

theorem V7_v38 : Gen.V7 m outs c main_v38 = KerTerm.raw2 (F := Ideal) (Gen.V6 m outs c main_v28) (m ((c.tc : Thread nD τ).loc main_arg1)) := by
  refine (s2_v38 (Gen.V6 m outs c)).trans ?_
  rw [V6_v6, V6_v3]
  rfl
theorem V7_v15 : Gen.V7 m outs c main_v15 = KerTerm.dinv2d (F := Ideal) (m ((c.tc : Thread nD τ).loc main_arg1)) :=
  (V7_of m outs c main_v15 (by decide)).trans ((V6_of m outs c main_v15 (by decide)).trans (V5_v15 m outs c))
theorem V7_v45 : Gen.V7 m outs c main_v45 = KerTerm.b2row (F := Ideal) (m ((c.tc : Thread nD τ).loc main_arg6)) := by
  refine (s2_v45 (Gen.V6 m outs c)).trans ?_
  rw [V6_keep m outs c main_arg6]
theorem V7_v44 : Gen.V7 m outs c main_v44 = KerTerm.batch2d (m ((c.tc : Thread nD τ).loc main_arg2)) := by
  refine (s2_v44 (Gen.V6 m outs c)).trans ?_
  rw [V6_keep m outs c main_arg2]
theorem V7_v43 : Gen.V7 m outs c main_v43 = KerTerm.counts (F := Ideal) (m ((c.tc : Thread nD τ).loc main_arg2)) := by
  refine (s2_v43 (Gen.V6 m outs c)).trans ?_
  rw [V6_keep m outs c main_arg2]
theorem V7_arg7 : Gen.V7 m outs c main_arg7 = m ((c.tc : Thread nD τ).loc main_arg7) := V7_keep m outs c main_arg7
theorem V7_v46 : Gen.V7 m outs c main_v46 = KerTerm.b3row (F := Ideal) (m ((c.tc : Thread nD τ).loc main_arg8)) := by
  refine (s2_v46 (Gen.V6 m outs c)).trans ?_
  rw [V6_keep m outs c main_arg8]

end Reads

/-- Given what the three regions leave in their output arrays (each pipeline's proof data read after its last point),
    the program's result array holds KerTerm.out of the argument arrays. -/
theorem kernel_result (c : Dev nD)
    (h0 : Gen.V4 m outs c main_v16 = (dat0 (F := Ideal) (fun c b => Gen.V3 m c b) c).arrAt 3 cfg0.N)
    (h1 : Gen.V6 m outs c main_v28 = (dat1 (F := Ideal) (fun c b => Gen.V5 m outs c b) c).arrAt 4 cfg1.N)
    (h2 : Gen.V8 m outs c main_v47 = (dat2 (F := Ideal) (fun c b => Gen.V7 m outs c b) c).arrAt 7 cfg2.N) :
    Gen.V8 m outs c main_v47
      = KerTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [h2, Val.final2 (fun c b => Gen.V7 m outs c b) c]
  rw [V7_v38, V7_v15, V7_v45, V7_v44, V7_v43, V7_arg7, V7_v46]
  rw [h1, Val.final1 (fun c b => Gen.V5 m outs c b) c]
  rw [V5_v26, V5_v15, V5_v27, V5_arg5]
  rw [h0, Val.final0 (fun c b => Gen.V3 m c b) c]
  rw [V3_arg0, V3_v15, V3_arg3]
  unfold KerTerm.out
  rfl

end Cert.KernelIdeal.KHost

end
-- ==== Proof.RefTerm.lean ====
/-
  The reference's result as one term of the nine argument arrays, stage by stage: the edge lists with a self
  loop per node, the in-degree and its inverse square root (zero where the degree is not positive), the edge
  weight dinv[row]·dinv[col], two rounds of "transform, gather the source rows, weight, add up at the target,
  add the bias, ELU", the per-graph sums and node counts, the mean and the last linear map.
-/
import proofs.«418016_j33054068310762_3_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Cert.ReferenceIdeal.Facts]

/-- Row `r` of the edge array followed by the node numbers 0 … 99999 (one self loop per node). -/
def rowv (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0
def colv (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- An edge list as a column of scatter indices. -/
def col2d (v : IVec S3300000 32) : IVec S3300000x1 32 := broadcastInDim S3300000x1 ![0] bcast_S3300000_S3300000x1_0 v
/-- An edge list with negative entries moved up by the node count, as a column of gather indices. -/
def wrap2d (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The in-degree: one per edge (self loops included) added up at the edge's target. -/
def deg (ei : IVec S2x3200000 32) : FVec F S100000 .f32 :=
  Host.scatterAdd scatter_S100000_S3300000x1_S3300000_n_0_0_1
    (broadcastInDim S100000 ![] bcast_S_S100000 (constant S_ .f32 0x00000000#32))
    (col2d (colv ei))
    (broadcastInDim S3300000 ![] bcast_S_S3300000 (constant S_ .f32 0x3F800000#32))
/-- Its inverse square root where it is positive, zero elsewhere. -/
def dinv (ei : IVec S2x3200000 32) : FVec F S100000 .f32 :=
  select (cmpf .ogt (deg (F := F) ei) (broadcastInDim S100000 ![] bcast_S_S100000 (constant S_ .f32 0x00000000#32)))
    (Host.rsqrt (deg (F := F) ei))
    (broadcastInDim S100000 ![] bcast_S_S100000 (id (constant S_ .f32 0x00000000#32)))

/-- The edge weight dinv[row]·dinv[col]. -/
def nrm (ei : IVec S2x3200000 32) : FVec F S3300000 .f32 :=
  mulf (Host.gather gather_S100000_S3300000x1_S3300000_n_0_n_n_0_1_1 (dinv (F := F) ei) (wrap2d (rowv ei)))
    (Host.gather gather_S100000_S3300000x1_S3300000_n_0_n_n_0_1_1 (dinv (F := F) ei) (wrap2d (colv ei)))

/-- Layer one before the activation: (x·W1)[row]·weight summed at the target, plus the bias. -/
def z1 (x : FVec F S100000x128 .f32) (ei : IVec S2x3200000 32) (W1 : FVec F S128x64 .f32) (b1 : FVec F S64 .f32) : FVec F S100000x64 .f32 :=
  addf
    (Host.scatterAdd scatter_S100000x64_S3300000x1_S3300000x64_1_0_0_1
      (broadcastInDim S100000x64 ![] bcast_S_S100000x64 (constant S_ .f32 0x00000000#32))
      (col2d (colv ei))
      (mulf (Host.gather gather_S100000x64_S3300000x1_S3300000x64_1_0_n_n_0_1_164
              (Host.dotGeneral dot_S100000x128_S128x64_S100000x64_1_0_0_1_n_n none x W1) (wrap2d (rowv ei)))
        (broadcastInDim S3300000x64 ![0, 1] bcast_S3300000x1_S3300000x64_0_1
          (broadcastInDim S3300000x1 ![0] bcast_S3300000_S3300000x1_0 (nrm (F := F) ei)))))
    (broadcastInDim S100000x64 ![0, 1] bcast_S1x64_S100000x64_0_1 (broadcastInDim S1x64 ![1] bcast_S64_S1x64_1 b1))

/-- jax.nn.elu on [100000, 64]: v where v > 0, else 1·expm1(v) (the argument of expm1 replaced by 0 where v > 0). -/
def elu64 (v : FVec F S100000x64 .f32) : FVec F S100000x64 .f32 :=
  select (cmpf .ogt v (broadcastInDim S100000x64 ![] bcast_S_S100000x64 (constant S_ .f32 0x00000000#32))) v
    (mulf (broadcastInDim S100000x64 ![] bcast_S_S100000x64 (constant S_ .f32 0x3F800000#32))
      (Host.expm1 (select (cmpf .ogt v (broadcastInDim S100000x64 ![] bcast_S_S100000x64 (constant S_ .f32 0x00000000#32)))
        (broadcastInDim S100000x64 ![] bcast_S_S100000x64 (id (constant S_ .f32 0x00000000#32))) v)))

/-- Layer two before the activation. -/
def z2 (a1 : FVec F S100000x64 .f32) (ei : IVec S2x3200000 32) (W2 : FVec F S64x4 .f32) (b2 : FVec F S4 .f32) : FVec F S100000x4 .f32 :=
  addf
    (Host.scatterAdd scatter_S100000x4_S3300000x1_S3300000x4_1_0_0_1
      (broadcastInDim S100000x4 ![] bcast_S_S100000x4 (constant S_ .f32 0x00000000#32))
      (col2d (colv ei))
      (mulf (Host.gather gather_S100000x4_S3300000x1_S3300000x4_1_0_n_n_0_1_14
              (Host.dotGeneral dot_S100000x64_S64x4_S100000x4_1_0_0_1_n_n none a1 W2) (wrap2d (rowv ei)))
        (broadcastInDim S3300000x4 ![0, 1] bcast_S3300000x1_S3300000x4_0_1
          (broadcastInDim S3300000x1 ![0] bcast_S3300000_S3300000x1_0 (nrm (F := F) ei)))))
    (broadcastInDim S100000x4 ![0, 1] bcast_S1x4_S100000x4_0_1 (broadcastInDim S1x4 ![1] bcast_S4_S1x4_1 b2))

def elu4 (v : FVec F S100000x4 .f32) : FVec F S100000x4 .f32 :=
  select (cmpf .ogt v (broadcastInDim S100000x4 ![] bcast_S_S100000x4 (constant S_ .f32 0x00000000#32))) v
    (mulf (broadcastInDim S100000x4 ![] bcast_S_S100000x4 (constant S_ .f32 0x3F800000#32))
      (Host.expm1 (select (cmpf .ogt v (broadcastInDim S100000x4 ![] bcast_S_S100000x4 (constant S_ .f32 0x00000000#32)))
        (broadcastInDim S100000x4 ![] bcast_S_S100000x4 (id (constant S_ .f32 0x00000000#32))) v)))

/-- Nodes per graph, at least one. -/
def cnt1 (batch : IVec S100000 32) : FVec F S256 .f32 :=
  maximumf
    (Host.scatterAdd scatter_S256_S100000x1_S100000_n_0_0_1
      (broadcastInDim S256 ![] bcast_S_S256 (constant S_ .f32 0x00000000#32))
      (broadcastInDim S100000x1 ![0] bcast_S100000_S100000x1_0 batch)
      (broadcastInDim S100000 ![] bcast_S_S100000 (constant S_ .f32 0x3F800000#32)))
    (broadcastInDim S256 ![] bcast_S_S256 (constant S_ .f32 0x3F800000#32))

/-- The per-graph mean of the node features, through the last linear map. -/
def pool (a2 : FVec F S100000x4 .f32) (batch : IVec S100000 32) (W3 : FVec F S4x1 .f32) (b3 : FVec F S1 .f32) : FVec F S256x1 .f32 :=
  addf
    (Host.dotGeneral dot_S256x4_S4x1_S256x1_1_0_0_1_n_n none
      (Host.divf
        (Host.scatterAdd scatter_S256x4_S100000x1_S100000x4_1_0_0_1
          (broadcastInDim S256x4 ![] bcast_S_S256x4 (constant S_ .f32 0x00000000#32))
          (broadcastInDim S100000x1 ![0] bcast_S100000_S100000x1_0 batch) a2)
        (broadcastInDim S256x4 ![0, 1] bcast_S256x1_S256x4_0_1 (broadcastInDim S256x1 ![0] bcast_S256_S256x1_0 (cnt1 (F := F) batch))))
      W3)
    (broadcastInDim S256x1 ![0, 1] bcast_S1x1_S256x1_0_1 (broadcastInDim S1x1 ![1] bcast_S1_S1x1_1 b3))

/-- The reference's result. -/
def out (x : FVec F S100000x128 .f32) (ei : IVec S2x3200000 32) (batch : IVec S100000 32) (W1 : FVec F S128x64 .f32) (b1 : FVec F S64 .f32)
    (W2 : FVec F S64x4 .f32) (b2 : FVec F S4 .f32) (W3 : FVec F S4x1 .f32) (b3 : FVec F S1 .f32) : FVec F S256x1 .f32 :=
  pool (elu4 (z2 (elu64 (z1 x ei W1 b1)) ei W2 b2)) batch W3 b3

end Cert.ReferenceIdeal.RefTerm

end
-- ==== Proof.RefRun.lean ====
/-
  The reference program's run, read back as mathematics.  Its entry function is a straight line of host
  operations: the two edge rows are cut out of the edge array and each is extended by the node numbers (a self
  loop per node); the in-degree is a scatter-add of ones at the targets, its inverse square root is kept where
  the degree is positive; the edge weight is the product of that value gathered at both ends; twice, the node
  features go through a dense map, are gathered at the edges' sources, weighted, added up at the targets,
  shifted by a bias and passed through ELU; at the end the rows are added up per graph, divided by the node
  count (at least one) and sent through the last dense map.  Three of those steps are calls of outlined
  functions (the masked inverse square root, and the two ELUs, each of which calls two selects); a call runs
  the callee's operations on the caller's buffers, so the whole is one list of 130 operations.  Folding the
  list over any starting contents leaves, at the result buffer, exactly the term `RefTerm.out` of the nine
  argument buffers' starting contents, and leaves the nine argument buffers as they were; hence every fair
  execution from a memory with zero counters terminates with that result and the arguments untouched.
-/
import proofs.«418016_j33054068310762_3_alg».proof.ReferenceIdeal
import proofs.«418016_j33054068310762_3_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]
/-- The entry function's 130 operations in order, each call replaced by its callee's operations over the call's
    own buffers.  Operations 1-7: the two edge rows with the self loops appended.  8-21: the in-degree, and its
    inverse square root masked to the positive degrees (19-21 are the outlined select: the zero converted to
    its own type, broadcast, the select).  22-40: both edge rows wrapped into range as gather indices, the
    masked value gathered at each, and the product.  41-60: the first dense map, its rows gathered at the
    sources, weighted, added up at the targets, plus the bias.  61-75: ELU (a comparison with zero, twice; the
    argument of expm1 replaced by zero where positive, by the outlined select 68-70; expm1; times one; the
    outer outlined select 75).  76-95 and 96-110: the same again at width four.  111-130: per-graph sums and
    node counts, the mean, the last dense map and its bias. -/
abbrev ops : List (HloOp τ sig (Elt F)) :=
  [ nullary main_v0 (iotaInDim S100000 32 0),
    unary main_arg1 main_v1 (extractStridedSlice S1x3200000 ![0, 0] · slices_S2x3200000_S1x3200000_0_0),
    reshape main_v1 main_v2 rfl shapeCasts_S1x3200000_S3200000,
    binary main_v2 main_v0 main_v3 (fun a b => concatenate S3300000 0 [⟨S3200000, a⟩, ⟨S100000, b⟩] concatenates_S3200000_S100000_S3300000_d0),
    unary main_arg1 main_v4 (extractStridedSlice S1x3200000 ![1, 0] · slices_S2x3200000_S1x3200000_1_0),
    reshape main_v4 main_v5 rfl shapeCasts_S1x3200000_S3200000,
    binary main_v5 main_v0 main_v6 (fun a b => concatenate S3300000 0 [⟨S3200000, a⟩, ⟨S100000, b⟩] concatenates_S3200000_S100000_S3300000_d0),
    nullary main_cst (constant S_ .f32 0x3F800000#32),
    unary main_cst main_v7 (broadcastInDim S3300000 ![] bcast_S_S3300000),
    nullary main_cst_0 (constant S_ .f32 0x00000000#32),
    unary main_cst_0 main_v8 (broadcastInDim S100000 ![] bcast_S_S100000),
    unary main_v6 main_v9 (broadcastInDim S3300000x1 ![0] bcast_S3300000_S3300000x1_0),
    ternary main_v8 main_v9 main_v7 main_v10 (fun x i u => Host.scatterAdd scatter_S100000_S3300000x1_S3300000_n_0_0_1 x i u),
    nullary main_cst_1 (constant S_ .f32 0x00000000#32),
    unary main_cst_1 main_v11 (broadcastInDim S100000 ![] bcast_S_S100000),
    binary main_v10 main_v11 main_v12 (cmpf .ogt),
    unary main_v10 main_v13 Host.rsqrt,
    nullary main_cst_2 (constant S_ .f32 0x00000000#32),
    TRef.unary (.of main_cst_2) main_call0.v0 id,
    TRef.unary main_call0.v0 main_call0.v1 (broadcastInDim S100000 ![] bcast_S_S100000),
    TRef.ternary (.of main_v12) (.of main_v13) main_call0.v1 main_call0.v2 select,
    nullary main_c (constantI S_ 32 0#32),
    unary main_c main_v15 (broadcastInDim S3300000 ![] bcast_S_S3300000),
    binary main_v3 main_v15 main_v16 (cmpi .slt),
    nullary main_c_3 (constantI S_ 32 100000#32),
    unary main_c_3 main_v17 (broadcastInDim S3300000 ![] bcast_S_S3300000),
    binary main_v3 main_v17 main_v18 addi,
    ternary main_v16 main_v18 main_v3 main_v19 select,
    unary main_v19 main_v20 (broadcastInDim S3300000x1 ![0] bcast_S3300000_S3300000x1_0),
    binary main_v14 main_v20 main_v21 (fun x i => Host.gather gather_S100000_S3300000x1_S3300000_n_0_n_n_0_1_1 x i),
    nullary main_c_4 (constantI S_ 32 0#32),
    unary main_c_4 main_v22 (broadcastInDim S3300000 ![] bcast_S_S3300000),
    binary main_v6 main_v22 main_v23 (cmpi .slt),
    nullary main_c_5 (constantI S_ 32 100000#32),
    unary main_c_5 main_v24 (broadcastInDim S3300000 ![] bcast_S_S3300000),
    binary main_v6 main_v24 main_v25 addi,
    ternary main_v23 main_v25 main_v6 main_v26 select,
    unary main_v26 main_v27 (broadcastInDim S3300000x1 ![0] bcast_S3300000_S3300000x1_0),
    binary main_v14 main_v27 main_v28 (fun x i => Host.gather gather_S100000_S3300000x1_S3300000_n_0_n_n_0_1_1 x i),
    binary main_v21 main_v28 main_v29 mulf,
    binary main_arg0 main_arg3 main_v30 (fun l r => Host.dotGeneral dot_S100000x128_S128x64_S100000x64_1_0_0_1_n_n none l r),
    nullary main_c_6 (constantI S_ 32 0#32),
    unary main_c_6 main_v31 (broadcastInDim S3300000 ![] bcast_S_S3300000),
    binary main_v3 main_v31 main_v32 (cmpi .slt),
    nullary main_c_7 (constantI S_ 32 100000#32),
    unary main_c_7 main_v33 (broadcastInDim S3300000 ![] bcast_S_S3300000),
    binary main_v3 main_v33 main_v34 addi,
    ternary main_v32 main_v34 main_v3 main_v35 select,
    unary main_v35 main_v36 (broadcastInDim S3300000x1 ![0] bcast_S3300000_S3300000x1_0),
    binary main_v30 main_v36 main_v37 (fun x i => Host.gather gather_S100000x64_S3300000x1_S3300000x64_1_0_n_n_0_1_164 x i),
    unary main_v29 main_v38 (broadcastInDim S3300000x1 ![0] bcast_S3300000_S3300000x1_0),
    unary main_v38 main_v39 (broadcastInDim S3300000x64 ![0, 1] bcast_S3300000x1_S3300000x64_0_1),
    binary main_v37 main_v39 main_v40 mulf,
    nullary main_cst_8 (constant S_ .f32 0x00000000#32),
    unary main_cst_8 main_v41 (broadcastInDim S100000x64 ![] bcast_S_S100000x64),
    unary main_v6 main_v42 (broadcastInDim S3300000x1 ![0] bcast_S3300000_S3300000x1_0),
    ternary main_v41 main_v42 main_v40 main_v43 (fun x i u => Host.scatterAdd scatter_S100000x64_S3300000x1_S3300000x64_1_0_0_1 x i u),
    unary main_arg4 main_v44 (broadcastInDim S1x64 ![1] bcast_S64_S1x64_1),
    unary main_v44 main_v45 (broadcastInDim S100000x64 ![0, 1] bcast_S1x64_S100000x64_0_1),
    binary main_v43 main_v45 main_v46 addf,
    TRef.nullary main_call1.cst (constant S_ .f32 0x00000000#32),
    TRef.unary main_call1.cst main_call1.v0 (broadcastInDim S100000x64 ![] bcast_S_S100000x64),
    TRef.binary (.of main_v46) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v46) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v46) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v46) main_call1.v7 main_call1.call1.v0 select,
    binary main_v47 main_arg5 main_v48 (fun l r => Host.dotGeneral dot_S100000x64_S64x4_S100000x4_1_0_0_1_n_n none l r),
    nullary main_c_9 (constantI S_ 32 0#32),
    unary main_c_9 main_v49 (broadcastInDim S3300000 ![] bcast_S_S3300000),
    binary main_v3 main_v49 main_v50 (cmpi .slt),
    nullary main_c_10 (constantI S_ 32 100000#32),
    unary main_c_10 main_v51 (broadcastInDim S3300000 ![] bcast_S_S3300000),
    binary main_v3 main_v51 main_v52 addi,
    ternary main_v50 main_v52 main_v3 main_v53 select,
    unary main_v53 main_v54 (broadcastInDim S3300000x1 ![0] bcast_S3300000_S3300000x1_0),
    binary main_v48 main_v54 main_v55 (fun x i => Host.gather gather_S100000x4_S3300000x1_S3300000x4_1_0_n_n_0_1_14 x i),
    unary main_v29 main_v56 (broadcastInDim S3300000x1 ![0] bcast_S3300000_S3300000x1_0),
    unary main_v56 main_v57 (broadcastInDim S3300000x4 ![0, 1] bcast_S3300000x1_S3300000x4_0_1),
    binary main_v55 main_v57 main_v58 mulf,
    nullary main_cst_11 (constant S_ .f32 0x00000000#32),
    unary main_cst_11 main_v59 (broadcastInDim S100000x4 ![] bcast_S_S100000x4),
    unary main_v6 main_v60 (broadcastInDim S3300000x1 ![0] bcast_S3300000_S3300000x1_0),
    ternary main_v59 main_v60 main_v58 main_v61 (fun x i u => Host.scatterAdd scatter_S100000x4_S3300000x1_S3300000x4_1_0_0_1 x i u),
    unary main_arg6 main_v62 (broadcastInDim S1x4 ![1] bcast_S4_S1x4_1),
    unary main_v62 main_v63 (broadcastInDim S100000x4 ![0, 1] bcast_S1x4_S100000x4_0_1),
    binary main_v61 main_v63 main_v64 addf,
    TRef.nullary main_call2.cst (constant S_ .f32 0x00000000#32),
    TRef.unary main_call2.cst main_call2.v0 (broadcastInDim S100000x4 ![] bcast_S_S100000x4),
    TRef.binary (.of main_v64) main_call2.v0 main_call2.v1 (cmpf .ogt),
    TRef.nullary main_call2.cst_0 (constant S_ .f32 0x00000000#32),
    TRef.unary main_call2.cst_0 main_call2.v2 (broadcastInDim S100000x4 ![] bcast_S_S100000x4),
    TRef.binary (.of main_v64) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x4 ![] bcast_S_S100000x4),
    TRef.ternary main_call2.v3 main_call2.call0.v1 (.of main_v64) main_call2.call0.v2 select,
    TRef.unary main_call2.call0.v2 main_call2.v5 Host.expm1,
    TRef.nullary main_call2.cst_2 (constant S_ .f32 0x3F800000#32),
    TRef.unary main_call2.cst_2 main_call2.v6 (broadcastInDim S100000x4 ![] bcast_S_S100000x4),
    TRef.binary main_call2.v6 main_call2.v5 main_call2.v7 mulf,
    TRef.ternary main_call2.v1 (.of main_v64) main_call2.v7 main_call2.call1.v0 select,
    nullary main_cst_12 (constant S_ .f32 0x00000000#32),
    unary main_cst_12 main_v66 (broadcastInDim S256x4 ![] bcast_S_S256x4),
    unary main_arg2 main_v67 (broadcastInDim S100000x1 ![0] bcast_S100000_S100000x1_0),
    ternary main_v66 main_v67 main_v65 main_v68 (fun x i u => Host.scatterAdd scatter_S256x4_S100000x1_S100000x4_1_0_0_1 x i u),
    nullary main_cst_13 (constant S_ .f32 0x3F800000#32),
    unary main_cst_13 main_v69 (broadcastInDim S100000 ![] bcast_S_S100000),
    nullary main_cst_14 (constant S_ .f32 0x00000000#32),
    unary main_cst_14 main_v70 (broadcastInDim S256 ![] bcast_S_S256),
    unary main_arg2 main_v71 (broadcastInDim S100000x1 ![0] bcast_S100000_S100000x1_0),
    ternary main_v70 main_v71 main_v69 main_v72 (fun x i u => Host.scatterAdd scatter_S256_S100000x1_S100000_n_0_0_1 x i u),
    nullary main_cst_15 (constant S_ .f32 0x3F800000#32),
    unary main_cst_15 main_v73 (broadcastInDim S256 ![] bcast_S_S256),
    binary main_v72 main_v73 main_v74 maximumf,
    unary main_v74 main_v75 (broadcastInDim S256x1 ![0] bcast_S256_S256x1_0),
    unary main_v75 main_v76 (broadcastInDim S256x4 ![0, 1] bcast_S256x1_S256x4_0_1),
    binary main_v68 main_v76 main_v77 Host.divf,
    binary main_v77 main_arg7 main_v78 (fun l r => Host.dotGeneral dot_S256x4_S4x1_S256x1_1_0_0_1_n_n none l r),
    unary main_arg8 main_v79 (broadcastInDim S1x1 ![1] bcast_S1_S1x1_1),
    unary main_v79 main_v80 (broadcastInDim S256x1 ![0, 1] bcast_S1x1_S256x1_0_1),
    binary main_v78 main_v80 main_v81 addf ]

-- one hundred and thirty binds re-associated: the rewrite under the chain recurses once per statement
set_option maxRecDepth 8192 in
set_option maxHeartbeats 4000000 in
/-- The entry function is that straight line: its two halves, and the outlined functions at their calls with the
    call records read at their fields, unfold to one chain of operation steps once sequencing is re-associated. -/
theorem main_eq (c : Dev nD) : main (F := F) c = StableHlo.seq ops := by
  simp only [main, main_part0, main_part1, fn_where.body, fn_elu.body, fn_where_0.body, fn_where_1.body,
    fn_elu_2.body, fn_where_3.body, fn_where_4.body, StableHlo.seq, bind_assoc, pure_bind]
  rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches only the TensorCore's own buffers: each is one of the five builders, and a builder's
    buffers are its operands' and its result's. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

attribute [local irreducible] Host.scatterAdd Host.gather concatenate in
set_option maxRecDepth 8192 in
set_option maxHeartbeats 4000000 in
/-- Folding the list over any contents leaves `RefTerm.out` of the nine argument buffers' contents at the result
    buffer.  Each operation's result at its own buffer is its function of what its operand buffers held before
    it, and at any other buffer what was there (two literal references are equal or not by computation); read
    backwards from the result buffer this composes the pure operations exactly as the entry function's lines do,
    a typed reference's transport being the identity at a literal reference, and that composition is how
    `RefTerm.out` is spelled.  The scatter-add, the gathers and the concatenation are kept closed meanwhile: the
    equation never looks inside them. -/
theorem out_eq (V : Valuation τ sig (Elt F)) :
    StableHlo.after ops V (main_v81 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-! No operation writes an argument buffer: each of the nine keeps its contents through the fold. -/

set_option maxRecDepth 8192 in
theorem arg0_eq (V : Valuation τ sig (Elt F)) :
    StableHlo.after ops V (main_arg0 : DevRef τ sig) = V (main_arg0 : DevRef τ sig) := by
  after_results_simp

set_option maxRecDepth 8192 in
theorem arg1_eq (V : Valuation τ sig (Elt F)) :
    StableHlo.after ops V (main_arg1 : DevRef τ sig) = V (main_arg1 : DevRef τ sig) := by
  after_results_simp

set_option maxRecDepth 8192 in
theorem arg2_eq (V : Valuation τ sig (Elt F)) :
    StableHlo.after ops V (main_arg2 : DevRef τ sig) = V (main_arg2 : DevRef τ sig) := by
  after_results_simp

set_option maxRecDepth 8192 in
theorem arg3_eq (V : Valuation τ sig (Elt F)) :
    StableHlo.after ops V (main_arg3 : DevRef τ sig) = V (main_arg3 : DevRef τ sig) := by
  after_results_simp

set_option maxRecDepth 8192 in
theorem arg4_eq (V : Valuation τ sig (Elt F)) :
    StableHlo.after ops V (main_arg4 : DevRef τ sig) = V (main_arg4 : DevRef τ sig) := by
  after_results_simp

set_option maxRecDepth 8192 in
theorem arg5_eq (V : Valuation τ sig (Elt F)) :
    StableHlo.after ops V (main_arg5 : DevRef τ sig) = V (main_arg5 : DevRef τ sig) := by
  after_results_simp

set_option maxRecDepth 8192 in
theorem arg6_eq (V : Valuation τ sig (Elt F)) :
    StableHlo.after ops V (main_arg6 : DevRef τ sig) = V (main_arg6 : DevRef τ sig) := by
  after_results_simp

set_option maxRecDepth 8192 in
theorem arg7_eq (V : Valuation τ sig (Elt F)) :
    StableHlo.after ops V (main_arg7 : DevRef τ sig) = V (main_arg7 : DevRef τ sig) := by
  after_results_simp

set_option maxRecDepth 8192 in
theorem arg8_eq (V : Valuation τ sig (Elt F)) :
    StableHlo.after ops V (main_arg8 : DevRef τ sig) = V (main_arg8 : DevRef τ sig) := by
  after_results_simp

/-- From any memory with zero counters, for any float values: every weakly fair execution of the entry function
    terminates, and in every final state the result buffer holds `RefTerm.out` of what the nine argument buffers
    held at the start, and those nine hold what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
          = RefTerm.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v81).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.RefRun

end
-- ==== Proof.LibReal.lean ====
/-
  Finite extended reals. An extended real is FINITE when it is the image of a real number; the finite ones are closed
  under the ring operations and under finite sums, which is what lets a law of the reals (distributivity, cancelling a
  common factor) be used on values computed from finite inputs by sums and products.
-/
import Mathlib.Data.EReal.Operations
import Mathlib.Algebra.BigOperators.Group.Finset.Basic

namespace Cert

/-- `x` is a real number seen in the extended reals. -/
def IsReal (x : EReal) : Prop := ∃ r : ℝ, x = (r : EReal)

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

/-- A finite sum of finite extended reals is finite. -/
theorem sum {ι : Type*} (s : Finset ι) (f : ι → EReal) (hf : ∀ i ∈ s, IsReal (f i)) : IsReal (∑ i ∈ s, f i) := by
  classical
  induction s using Finset.induction_on with
  | empty => simpa using zero
  | insert a s ha ih =>
    rw [Finset.sum_insert ha]
    exact add (hf a (Finset.mem_insert_self a s)) (ih fun i hi => hf i (Finset.mem_insert_of_mem hi))

/-- The real number a finite extended real is. -/
noncomputable def val {x : EReal} (hx : IsReal x) : ℝ := hx.choose

theorem val_spec {x : EReal} (hx : IsReal x) : x = (hx.val : EReal) := hx.choose_spec

/-- A family of finite extended reals is the image of a family of reals. -/
theorem exists_fun {ι : Type*} (f : ι → EReal) (hf : ∀ i, IsReal (f i)) : ∃ g : ι → ℝ, f = fun i => (g i : EReal) :=
  ⟨fun i => (hf i).val, funext fun i => (hf i).val_spec⟩

theorem ne_top {x : EReal} (hx : IsReal x) : x ≠ ⊤ := by obtain ⟨a, rfl⟩ := hx; exact EReal.coe_ne_top a

theorem ne_bot {x : EReal} (hx : IsReal x) : x ≠ ⊥ := by obtain ⟨a, rfl⟩ := hx; exact EReal.coe_ne_bot a

theorem of_ne {x : EReal} (h1 : x ≠ ⊤) (h2 : x ≠ ⊥) : IsReal x := by
  induction x using EReal.rec with
  | bot => exact absurd rfl h2
  | coe r => exact ⟨r, rfl⟩
  | top => exact absurd rfl h1

end IsReal

end Cert
-- ==== Proof.BrElu.lean ====
/-
  The activation.  The reference spells ELU as jax.nn.elu does — v where v > 0, else 1 · expm1 of v with the argument
  replaced by 0 where v > 0 —, the kernels as v where v > 0, else exp v − 1.  At the extended reals expm1 x is
  exp x − 1, so the two are one function of v; and it sends real numbers to real numbers.
-/
import proofs.«418016_j33054068310762_3_alg».proof.Proof.RefTerm
import proofs.«418016_j33054068310762_3_alg».proof.Proof.KerTerm
import proofs.«418016_j33054068310762_3_alg».proof.Proof.LibReal
import Idealize.ShloMosaic.PureOps.Ideal.Laws
import Idealize.ShloMosaic.Lib.IdealHost

noncomputable section

open scoped BigOperators

namespace Cert.Br

open Idealize.ShloMosaic Idealize.ShloMosaic.ValueIdx Cert.ReferenceIdeal
open Cert.ReferenceIdeal.Facts₀ Cert.ReferenceIdeal.Facts
open Cert.KernelIdeal (KerTerm.G0 KerTerm.G1 KerTerm.G2 KerTerm.eluK KerTerm.pooled KerTerm.oneHot KerTerm.blockRow)

/-! ## The two spellings of ELU -/

/-- At every extended real the reference's ELU — v where v > 0, else 1 · (exp(v') − 1) with v' = 0 where v > 0 and
    v elsewhere — is the kernels' — v where v > 0, else exp v − 1: on the second branch v' is v and the factor 1 drops. -/
theorem elu_scalar (v : Ideal .f32) :
    Scalar.select (FloatOps.cmpf (F := Ideal) .ogt v (FloatOps.ofBits (F := Ideal) .f32 0x00000000#32)) v
      (FloatOps.mulf (F := Ideal) (FloatOps.ofBits (F := Ideal) .f32 0x3F800000#32)
        (FloatOps.hostUnary (F := Ideal) .expm1
          (Scalar.select (FloatOps.cmpf (F := Ideal) .ogt v (FloatOps.ofBits (F := Ideal) .f32 0x00000000#32))
            (id (FloatOps.ofBits (F := Ideal) .f32 0x00000000#32)) v)))
      = Cert.KernelIdeal.KerTerm.eluK v := by
  unfold Cert.KernelIdeal.KerTerm.eluK
  by_cases h : FloatOps.cmpf (F := Ideal) .ogt v (FloatOps.ofBits (F := Ideal) .f32 0x00000000#32) = 1
  · simp only [Scalar.select, if_pos h]
  · simp only [Scalar.select, if_neg h]
    rw [Ideal.ofBits_def, Ideal.ofBits_one_f32, Ideal.mulf_def, Ideal.hostUnary_expm1_def, Ideal.subf_def,
      Ideal.exp_def, one_mul]

/-- ELU of a real number is a real number: the number itself, or exp of it minus one. -/
theorem eluK_real {v : EReal} (hv : Cert.IsReal v) : Cert.IsReal (Cert.KernelIdeal.KerTerm.eluK v) := by
  obtain ⟨r, rfl⟩ := hv
  unfold Cert.KernelIdeal.KerTerm.eluK
  by_cases h : FloatOps.cmpf (F := Ideal) .ogt ((r : EReal) : Ideal .f32) (FloatOps.ofBits (F := Ideal) .f32 0x00000000#32) = 1
  · simp only [Scalar.select, if_pos h]
    exact Cert.IsReal.coe r
  · simp only [Scalar.select, if_neg h]
    rw [Ideal.ofBits_def, Ideal.ofBits_one_f32, Ideal.subf_def, Ideal.exp_def, Ideal.exp_coe]
    exact Cert.IsReal.sub (Cert.IsReal.coe _) Cert.IsReal.one

variable [Cert.KernelIdeal.Facts] [Cert.ReferenceIdeal.Facts]

/-- The reference's ELU on [100000 × 64], element by element. -/
theorem elu64_apply (v : FVec Ideal S100000x64 .f32) (i : S100000x64.Idx) :
    RefTerm.elu64 (F := Ideal) v i = Cert.KernelIdeal.KerTerm.eluK (v i) := by
  exact elu_scalar (v i)

/-- The reference's ELU on [100000 × 4], element by element. -/
theorem elu4_apply (v : FVec Ideal S100000x4 .f32) (i : S100000x4.Idx) :
    RefTerm.elu4 (F := Ideal) v i = Cert.KernelIdeal.KerTerm.eluK (v i) := by
  exact elu_scalar (v i)

end Cert.Br

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.BrIndex.lean ====
/-
  The index arithmetic of the edge lists, read at one element.

  A gather whose start indices are an [e × 1] column reads operand row idx[p, 0], read as a signed integer and
  CLAMPED into the operand: row min(max(idx, 0), n − 1).  The two statements here are the general forms (no
  hypothesis that the index word is in range); the rest of the file reads this certificate's edge lists through
  them.  An edge-list word w is first moved up by the node count when it is negative ("wrapW"); the node the
  gather then reads is "gam w", the wrapped word clamped into [0, 99999].  The accumulating scatter does not
  clamp: an update lands on node t exactly when its index word, read signed, is t; for such a word the wrapped
  and clamped index is t itself ("gam_of_toInt").
-/
import proofs.«418016_j33054068310762_3_alg».proof.Proof.RefTerm
import proofs.«418016_j33054068310762_3_alg».proof.Proof.KerTerm
import proofs.«418016_j33054068310762_3_alg».proof.Proof.LibIndexMaps
import proofs.«418016_j33054068310762_3_alg».proof.Proof.LibLayoutReads
import Idealize.ShloMosaic.PureOps.Ideal.Laws
import Idealize.ShloMosaic.Lib.Pipeline.Value

noncomputable section

open scoped BigOperators

namespace Cert.Br

open Idealize.ShloMosaic Idealize.ShloMosaic.ValueIdx Cert.ReferenceIdeal
open Cert.ReferenceIdeal.Facts₀ Cert.ReferenceIdeal.Facts

/-! ## The general clamped gathers -/

/-- Rank-1 operand, [e × 1] start indices, rank-1 result: result element p is the operand's element
    min(max(idx[p,0], 0), n − 1). -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, Cert.Gcn.IndexMaps.gather_siIdx_rank1 d hivd (ix1 p) _ _ (0 : Fin 1) hi, hsl]
  rfl

/-- [n × f] operand, [e × 1] start indices, [e × f] result, the second axis an offset axis of full width: result
    element (p, c) is the operand's element (min(max(idx[p,0], 0), n − 1), c). -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases Cert.Gcn.IndexMaps.fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, Cert.Gcn.IndexMaps.gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [Cert.Gcn.IndexMaps.coord_of_val1 (ix2 p c) _ (hall _ (List.getElem_mem _))]
    show 0 + 0 + c.val = c.val
    omega

/-! ## The edge lists of this certificate -/

/-- An edge-list word with a negative value moved up by the node count. -/
def wrapW (w : BitVec 32) : BitVec 32 := Scalar.select (IntOp.cmpi .slt w 0#32) (IntOp.addi w 100000#32) w

/-- The node a gather reads for the edge-list word w: the wrapped word, read signed, clamped into [0, 99999]. -/
def gam (w : BitVec 32) : Fin 100000 := ⟨min (wrapW w).toInt.toNat 99999, by omega⟩

/-- A word that reads the node number t is sent to t: it is not negative, so it is not moved, and the clamp keeps it. -/
theorem gam_of_toInt (w : BitVec 32) (t : Fin 100000) (h : w.toInt = ((t.val : ℕ) : Int)) : gam w = t := by
  have hnn : ¬ (w.toInt < (0#32 : BitVec 32).toInt) := by
    rw [h]
    show ¬ (((t.val : ℕ) : Int) < 0)
    omega
  have hslt : w.slt 0#32 = false := by
    unfold BitVec.slt
    exact decide_eq_false hnn
  have hw : wrapW w = w := by
    unfold wrapW IntOp.cmpi Scalar.select
    rw [hslt]
    rfl
  apply Fin.ext
  show min (wrapW w).toInt.toNat 99999 = t.val
  rw [hw, h]
  have := t.isLt
  omega

variable [Cert.KernelIdeal.Facts] [Cert.ReferenceIdeal.Facts]

/-- The column of scatter indices reads the edge list. -/
theorem col2d_apply (v : IVec S3300000 32) (p : Fin 3300000) :
    RefTerm.col2d v (ix2 p (0 : Fin 1)) = v (ix1 p) := by
  unfold RefTerm.col2d
  exact Cert.Gcn.LayoutReads.broadcastInDim_a_a1_apply _ v p 0

/-- The column of gather indices reads the wrapped edge list. -/
theorem wrap2d_apply (v : IVec S3300000 32) (p : Fin 3300000) :
    RefTerm.wrap2d v (ix2 p (0 : Fin 1)) = wrapW (v (ix1 p)) := by
  unfold RefTerm.wrap2d
  rw [Cert.Gcn.LayoutReads.broadcastInDim_a_a1_apply]
  rfl

/-- The gather of a node vector along an edge list. -/
theorem gatherNode_apply {α : Type} (x : S100000.Idx → α) (v : IVec S3300000 32) (p : Fin 3300000) :
    Host.gather gather_S100000_S3300000x1_S3300000_n_0_n_n_0_1_1 x (RefTerm.wrap2d v) (ix1 p) = x (ix1 (gam (v (ix1 p)))) := by
  rw [gather1_clamp_apply (by norm_num) gather_S100000_S3300000x1_S3300000_n_0_n_n_0_1_1 rfl rfl rfl rfl x
    (RefTerm.wrap2d v) p]
  refine congrArg x (congrArg ix1 (Fin.ext ?_))
  show min (RefTerm.wrap2d v (ix2 p (0 : Fin 1))).toInt.toNat (100000 - 1) = min (wrapW (v (ix1 p))).toInt.toNat 99999
  rw [wrap2d_apply]

/-- The gather of the rows of a [100000 × 64] array along an edge list. -/
theorem gatherRows64_apply {α : Type} (x : S100000x64.Idx → α) (v : IVec S3300000 32) (p : Fin 3300000) (c : Fin 64) :
    Host.gather gather_S100000x64_S3300000x1_S3300000x64_1_0_n_n_0_1_164 x (RefTerm.wrap2d v) (ix2 p c)
      = x (ix2 (gam (v (ix1 p))) c) := by
  rw [gather2_clamp_apply (by norm_num) gather_S100000x64_S3300000x1_S3300000x64_1_0_n_n_0_1_164 rfl rfl rfl rfl rfl x
    (RefTerm.wrap2d v) p c]
  refine congrArg x (congrArg (fun r => ix2 r c) (Fin.ext ?_))
  show min (RefTerm.wrap2d v (ix2 p (0 : Fin 1))).toInt.toNat (100000 - 1) = min (wrapW (v (ix1 p))).toInt.toNat 99999
  rw [wrap2d_apply]

/-- The gather of the rows of a [100000 × 4] array along an edge list. -/
theorem gatherRows4_apply {α : Type} (x : S100000x4.Idx → α) (v : IVec S3300000 32) (p : Fin 3300000) (c : Fin 4) :
    Host.gather gather_S100000x4_S3300000x1_S3300000x4_1_0_n_n_0_1_14 x (RefTerm.wrap2d v) (ix2 p c)
      = x (ix2 (gam (v (ix1 p))) c) := by
  rw [gather2_clamp_apply (by norm_num) gather_S100000x4_S3300000x1_S3300000x4_1_0_n_n_0_1_14 rfl rfl rfl rfl rfl x
    (RefTerm.wrap2d v) p c]
  refine congrArg x (congrArg (fun r => ix2 r c) (Fin.ext ?_))
  show min (RefTerm.wrap2d v (ix2 p (0 : Fin 1))).toInt.toNat (100000 - 1) = min (wrapW (v (ix1 p))).toInt.toNat 99999
  rw [wrap2d_apply]

/-- The accumulating scatter of rank-1 updates into an operand that is zero at element r: the updates whose index
    word reads r, added up. -/
theorem hostScatterAdd1_zero {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (X : FVec Ideal ⟨1, ![n]⟩ .f32) (idx : IVec ⟨2, ![e, 1]⟩ w) (upd : FVec Ideal ⟨1, ![e]⟩ .f32) (r : Fin n)
    (hX : X (ix1 r) = (0 : EReal)) :
    Host.scatterAdd (F := Ideal) d X idx upd (ix1 r)
      = ∑ p : Fin e, if (idx (ix2 p (0 : Fin 1))).toInt = ((r.val : ℕ) : Int) then upd (ix1 p) else 0 := by
  unfold Host.scatterAdd
  rw [Ideal.hostScatterAdd_def, Cert.Gcn.IndexMaps.hostScatterAdd1_apply d huw hiw hsd hivd, hX, zero_add]

/-- The accumulating scatter of [e × f] updates into an operand that is zero at element (r, c): column c of the
    update rows whose index word reads r, added up. -/
theorem hostScatterAdd2_zero {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (X : FVec Ideal ⟨2, ![n, f]⟩ .f32) (idx : IVec ⟨2, ![e, 1]⟩ w) (upd : FVec Ideal ⟨2, ![e, f]⟩ .f32) (r : Fin n) (c : Fin f)
    (hX : X (ix2 r c) = (0 : EReal)) :
    Host.scatterAdd (F := Ideal) d X idx upd (ix2 r c)
      = ∑ p : Fin e, if (idx (ix2 p (0 : Fin 1))).toInt = ((r.val : ℕ) : Int) then upd (ix2 p c) else 0 := by
  unfold Host.scatterAdd
  rw [Ideal.hostScatterAdd_def, Cert.Gcn.IndexMaps.hostScatterAdd2_apply d huw hiw hsd hivd, hX, zero_add]

/-- The zero vector over the nodes reads zero. -/
theorem zeros1_apply (t : Fin 100000) :
    broadcastInDim S100000 ![] bcast_S_S100000 (constant (F := Ideal) S_ .f32 0x00000000#32) (ix1 t) = (0 : EReal) := by
  show Ideal.ofBits .f32 0x00000000#32 = 0
  exact Ideal.ofBits_zero_f32

/-- The zero [100000 × 64] array reads zero. -/
theorem zeros64_apply (t : Fin 100000) (c : Fin 64) :
    broadcastInDim S100000x64 ![] bcast_S_S100000x64 (constant (F := Ideal) S_ .f32 0x00000000#32) (ix2 t c) = (0 : EReal) := by
  show Ideal.ofBits .f32 0x00000000#32 = 0
  exact Ideal.ofBits_zero_f32

/-- The zero [100000 × 4] array reads zero. -/
theorem zeros4_apply (t : Fin 100000) (c : Fin 4) :
    broadcastInDim S100000x4 ![] bcast_S_S100000x4 (constant (F := Ideal) S_ .f32 0x00000000#32) (ix2 t c) = (0 : EReal) := by
  show Ideal.ofBits .f32 0x00000000#32 = 0
  exact Ideal.ofBits_zero_f32

/-- The accumulating scatter of a per-edge vector into zeros along an edge list, at node t: the sum of the entries
    of the edges whose word reads t. -/
theorem scatterNode_apply (v : IVec S3300000 32) (upd : FVec Ideal S3300000 .f32) (t : Fin 100000) :
    Host.scatterAdd (F := Ideal) scatter_S100000_S3300000x1_S3300000_n_0_0_1
        (broadcastInDim S100000 ![] bcast_S_S100000 (constant (F := Ideal) S_ .f32 0x00000000#32)) (RefTerm.col2d v) upd (ix1 t)
      = ∑ p : Fin 3300000, if (v (ix1 p)).toInt = ((t.val : ℕ) : Int) then upd (ix1 p) else 0 := by
  refine (hostScatterAdd1_zero scatter_S100000_S3300000x1_S3300000_n_0_0_1 rfl rfl rfl rfl _ (RefTerm.col2d v) upd t
    (zeros1_apply t)).trans ?_
  refine Finset.sum_congr rfl fun p _ => ?_
  rw [col2d_apply]

/-- The accumulating scatter of per-edge rows of width 64 into zeros along an edge list, at (t, c). -/
theorem scatterRows64_apply (v : IVec S3300000 32) (upd : FVec Ideal S3300000x64 .f32) (t : Fin 100000) (c : Fin 64) :
    Host.scatterAdd (F := Ideal) scatter_S100000x64_S3300000x1_S3300000x64_1_0_0_1
        (broadcastInDim S100000x64 ![] bcast_S_S100000x64 (constant (F := Ideal) S_ .f32 0x00000000#32)) (RefTerm.col2d v) upd (ix2 t c)
      = ∑ p : Fin 3300000, if (v (ix1 p)).toInt = ((t.val : ℕ) : Int) then upd (ix2 p c) else 0 := by
  refine (hostScatterAdd2_zero scatter_S100000x64_S3300000x1_S3300000x64_1_0_0_1 rfl rfl rfl rfl _ (RefTerm.col2d v) upd t c
    (zeros64_apply t c)).trans ?_
  refine Finset.sum_congr rfl fun p _ => ?_
  rw [col2d_apply]

/-- The accumulating scatter of per-edge rows of width 4 into zeros along an edge list, at (t, c). -/
theorem scatterRows4_apply (v : IVec S3300000 32) (upd : FVec Ideal S3300000x4 .f32) (t : Fin 100000) (c : Fin 4) :
    Host.scatterAdd (F := Ideal) scatter_S100000x4_S3300000x1_S3300000x4_1_0_0_1
        (broadcastInDim S100000x4 ![] bcast_S_S100000x4 (constant (F := Ideal) S_ .f32 0x00000000#32)) (RefTerm.col2d v) upd (ix2 t c)
      = ∑ p : Fin 3300000, if (v (ix1 p)).toInt = ((t.val : ℕ) : Int) then upd (ix2 p c) else 0 := by
  refine (hostScatterAdd2_zero scatter_S100000x4_S3300000x1_S3300000x4_1_0_0_1 rfl rfl rfl rfl _ (RefTerm.col2d v) upd t c
    (zeros4_apply t c)).trans ?_
  refine Finset.sum_congr rfl fun p _ => ?_
  rw [col2d_apply]

end Cert.Br

end
-- ==== Proof.BrDinv.lean ====
/-
  The normalisation.  The in-degree of a node is a finite sum of ones (one per edge, self loops included, whose
  target word reads the node), so it is a non-negative real number; its inverse square root where it is positive,
  and zero elsewhere, is a real number.
-/
import proofs.«418016_j33054068310762_3_alg».proof.Proof.BrIndex
import proofs.«418016_j33054068310762_3_alg».proof.Proof.LibReal
import Idealize.ShloMosaic.PureOps.Ideal.Laws
import Idealize.ShloMosaic.Lib.IdealHost

noncomputable section

open scoped BigOperators

namespace Cert.Br

open Idealize.ShloMosaic Idealize.ShloMosaic.ValueIdx Cert.ReferenceIdeal
open Cert.ReferenceIdeal.Facts₀ Cert.ReferenceIdeal.Facts
open Cert.KernelIdeal (KerTerm.G0 KerTerm.G1 KerTerm.G2 KerTerm.eluK KerTerm.pooled KerTerm.oneHot KerTerm.blockRow)

/-- For a real number r, the value "inverse square root of r where r is positive, zero elsewhere" is a real number:
    where r is positive its square root is not zero, and the inverse of it is a real number. -/
theorem dinvAux_scalar_real (r : ℝ) :
    Cert.IsReal (Scalar.select (Ideal.cmp .ogt (r : EReal) 0) (Ideal.rsqrt (r : EReal)) (0 : EReal)) := by
  by_cases h : (0 : ℝ) < r
  · have hc : Ideal.cmp .ogt (r : EReal) 0 = 1#1 := by
      have h' : (0 : EReal) < (r : EReal) := by exact_mod_cast h
      simp only [Ideal.cmp, h', decide_true, BitVec.ofBool_true]
      rfl
    rw [hc, ValueIdx.select_one, Ideal.rsqrt_coe, if_neg (not_lt.mpr h.le), if_neg h.ne']
    exact Cert.IsReal.coe _
  · have hc : Ideal.cmp .ogt (r : EReal) 0 = 0#1 := by
      have h' : ¬ (0 : EReal) < (r : EReal) := by
        intro h''; exact h (by exact_mod_cast h'')
      simp only [Ideal.cmp, h', decide_false, BitVec.ofBool_false]
      rfl
    rw [hc, ValueIdx.select_zero]
    exact Cert.IsReal.zero

/-- The host's inverse square root of an array, read at an index, is the inverse square root of the entry. -/
theorem dinvAux_rsqrt_apply {s : Shape} {φ : FTy} (x : FVec Ideal s φ) (i : s.Idx) :
    Host.rsqrt x i = Ideal.rsqrt (x i) := rfl

variable [Cert.KernelIdeal.Facts] [Cert.ReferenceIdeal.Facts]

/-- The broadcast constant one reads one at every edge. -/
theorem dinvAux_one_apply (p : Fin 3300000) :
    (broadcastInDim S3300000 ![] bcast_S_S3300000 (constant (F := Ideal) S_ .f32 0x3F800000#32)) (ix1 p) = (1 : EReal) := by
  rw [broadcastInDim_scalar_apply]
  show Ideal.ofBits .f32 0x3F800000#32 = 1
  exact Ideal.ofBits_one_f32

/-- The in-degree of node t: the number of edges (self loops included) whose target word reads t, a finite sum of
    ones and zeros. -/
theorem deg_apply (ei : IVec S2x3200000 32) (t : Fin 100000) :
    RefTerm.deg (F := Ideal) ei (ix1 t)
      = ∑ p : Fin 3300000, if ((RefTerm.colv ei) (ix1 p)).toInt = ((t.val : ℕ) : Int) then (1 : EReal) else 0 := by
  unfold RefTerm.deg
  rw [scatterNode_apply]
  refine Finset.sum_congr rfl fun p _ => ?_
  rw [dinvAux_one_apply]

/-- The broadcast zero constant reads zero at every node. -/
theorem dinvAux_zero_apply (t : Fin 100000) :
    (broadcastInDim S100000 ![] bcast_S_S100000 (constant (F := Ideal) S_ .f32 0x00000000#32)) (ix1 t) = (0 : EReal) := by
  rw [broadcastInDim_scalar_apply]
  show Ideal.ofBits .f32 0x00000000#32 = 0
  exact Ideal.ofBits_zero_f32

/-- The degree is a real number: a finite sum of ones and zeros. -/
theorem dinvAux_deg_real (ei : IVec S2x3200000 32) (t : Fin 100000) : Cert.IsReal (RefTerm.deg (F := Ideal) ei (ix1 t)) := by
  rw [deg_apply]
  refine Cert.IsReal.sum _ _ fun p _ => ?_
  split
  · exact Cert.IsReal.one
  · exact Cert.IsReal.zero

/-- The inverse square root of the degree (zero where the degree is not positive) is a real number: the degree is a
    finite sum of ones and zeros, hence real, and the inverse square root of a positive real is real. -/
theorem dinv_real (ei : IVec S2x3200000 32) (t : Fin 100000) :
    Cert.IsReal (RefTerm.dinv (F := Ideal) ei (ix1 t)) := by
  obtain ⟨r, hr⟩ := dinvAux_deg_real ei t
  unfold RefTerm.dinv
  rw [ValueIdx.select_apply, ValueIdx.cmpf_apply, dinvAux_rsqrt_apply, hr]
  simp only [id_eq]
  rw [dinvAux_zero_apply, Ideal.cmpf_def]
  exact dinvAux_scalar_real r

end Cert.Br

end
-- ==== Proof.BrLayer.lean ====
/-
  One graph-convolution layer, reference against kernel program.

  Reference: z[t, j] = Σ over the edges p whose target word reads t of h[γ(row p), j] · (dinv[γ(row p)] · dinv[γ(col p)]),
  plus b[j], with h the dense transform of the layer's input and γ the gather's wrapped and clamped index.
  Kernel program: the dense transform is scaled by dinv row by row before the gather, the gathered rows are added up
  at the targets, and the sum is scaled by dinv[t] afterwards, plus b[j].
  For an edge whose target word reads t the wrapped and clamped target index is t, so the reference's weight is
  dinv[γ(row p)] · dinv[t]; and (Σ_p A_p · D_p) · T = Σ_p A_p · (D_p · T) when every A_p, D_p and T is a real number
  (at an infinity the extended reals do not distribute): h is a finite sum of products of reals, dinv is real.
-/
import proofs.«418016_j33054068310762_3_alg».proof.Proof.BrIndex
import proofs.«418016_j33054068310762_3_alg».proof.Proof.BrDinv
import proofs.«418016_j33054068310762_3_alg».proof.Proof.BrElu
import proofs.«418016_j33054068310762_3_alg».proof.Proof.LibReal
import proofs.«418016_j33054068310762_3_alg».proof.Proof.LibLayoutReads
import Idealize.ShloMosaic.Lib.StackMember
import Idealize.ShloMosaic.Lib.Pipeline.Value

noncomputable section

open scoped BigOperators

namespace Cert.Br

open Idealize.ShloMosaic Idealize.ShloMosaic.ValueIdx Cert.ReferenceIdeal
open Cert.ReferenceIdeal.Facts₀ Cert.ReferenceIdeal.Facts
open Cert.KernelIdeal (KerTerm.G0 KerTerm.G1 KerTerm.G2 KerTerm.eluK KerTerm.pooled KerTerm.oneHot KerTerm.blockRow)

variable [Cert.KernelIdeal.Facts] [Cert.ReferenceIdeal.Facts]

/-! ## The law -/

/-- A finite sum of real numbers times a real number is the sum of the products. -/
theorem sum_mul_real {ι : Type*} (s : Finset ι) (F : ι → EReal) (T : EReal)
    (hF : ∀ i ∈ s, Cert.IsReal (F i)) (hT : Cert.IsReal T) : (∑ i ∈ s, F i) * T = ∑ i ∈ s, F i * T := by
  classical
  induction s using Finset.induction_on with
  | empty => simp
  | insert a s ha ih =>
    rw [Finset.sum_insert ha, Finset.sum_insert ha, ← ih (fun i hi => hF i (Finset.mem_insert_of_mem hi))]
    obtain ⟨a', ha'⟩ := hF a (Finset.mem_insert_self a s)
    obtain ⟨s', hs'⟩ := Cert.IsReal.sum s F (fun i hi => hF i (Finset.mem_insert_of_mem hi))
    obtain ⟨t', ht'⟩ := hT
    rw [ha', hs', ht', ← EReal.coe_add, ← EReal.coe_mul, ← EReal.coe_mul, ← EReal.coe_mul, ← EReal.coe_add, add_mul]

/-- The law of one layer over an abstract finite set of edges: with real terms A_p, real weights D1_p, D2_p and a real
    T that D2_p equals on the selected edges, Σ_p [c_p] A_p · (D1_p · D2_p) = (Σ_p [c_p] A_p · D1_p) · T. -/
theorem layer_core {ι : Type*} [Fintype ι] (c : ι → Prop) [DecidablePred c] (A D1 D2 : ι → EReal) (T : EReal)
    (hA : ∀ p, Cert.IsReal (A p)) (hD1 : ∀ p, Cert.IsReal (D1 p)) (hT : Cert.IsReal T) (hD2 : ∀ p, c p → D2 p = T) :
    ∑ p, (if c p then A p * (D1 p * D2 p) else 0) = (∑ p, if c p then A p * D1 p else 0) * T := by
  rw [sum_mul_real _ _ _ (fun p _ => ?_) hT]
  · refine Finset.sum_congr rfl fun p _ => ?_
    by_cases hc : c p
    · rw [if_pos hc, if_pos hc, hD2 p hc, mul_assoc]
    · rw [if_neg hc, if_neg hc, zero_mul]
  · by_cases hc : c p
    · rw [if_pos hc]; exact (hA p).mul (hD1 p)
    · rw [if_neg hc]; exact Cert.IsReal.zero

/-- The same over the edge lists: the selected edges are those whose target word reads t, the source and target nodes
    are the wrapped and clamped words, and on a selected edge the target node is t. -/
theorem layer_math {f : ℕ} (rw cw : Fin 3300000 → BitVec 32) (h : Fin 100000 → Fin f → EReal) (D : Fin 100000 → EReal) (bj : EReal)
    (hh : ∀ i j, Cert.IsReal (h i j)) (hD : ∀ i, Cert.IsReal (D i)) (t : Fin 100000) (j : Fin f) :
    (∑ p : Fin 3300000, if (cw p).toInt = ((t.val : ℕ) : Int) then h (gam (rw p)) j * (D (gam (rw p)) * D (gam (cw p))) else 0) + bj
      = (∑ p : Fin 3300000, if (cw p).toInt = ((t.val : ℕ) : Int) then h (gam (rw p)) j * D (gam (rw p)) else 0) * D t + bj := by
  rw [layer_core (fun p => (cw p).toInt = ((t.val : ℕ) : Int)) (fun p => h (gam (rw p)) j) (fun p => D (gam (rw p)))
    (fun p => D (gam (cw p))) (D t) (fun p => hh _ _) (fun p => hD _) (hD t) (fun p hc => by rw [gam_of_toInt _ t hc])]

/-! ## Layouts read at an index -/

/-- A vector made a column and spread over f lanes reads, at (p, c), the vector's entry p. -/
theorem colSpread_apply {α : Type} {a f : ℕ} (h1 : (⟨1, ![a]⟩ : Shape).BroadcastsInDim ⟨2, ![a, 1]⟩ ![0])
    (h2 : (⟨2, ![a, 1]⟩ : Shape).BroadcastsInDim ⟨2, ![a, f]⟩ ![0, 1]) (u : (⟨1, ![a]⟩ : Shape).Idx → α) (p : Fin a) (c : Fin f) :
    broadcastInDim ⟨2, ![a, f]⟩ ![0, 1] h2 (broadcastInDim ⟨2, ![a, 1]⟩ ![0] h1 u) (ix2 p c) = u (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => rfl)]
  exact Cert.Gcn.LayoutReads.broadcastInDim_a_a1_apply h1 u p 0

/-- A vector made a row and spread down m rows reads, at (t, j), the vector's entry j. -/
theorem rowSpread_apply {α : Type} {m f : ℕ} (h1 : (⟨1, ![f]⟩ : Shape).BroadcastsInDim ⟨2, ![1, f]⟩ ![1])
    (h2 : (⟨2, ![1, f]⟩ : Shape).BroadcastsInDim ⟨2, ![m, f]⟩ ![0, 1]) (u : (⟨1, ![f]⟩ : Shape).Idx → α) (t : Fin m) (j : Fin f) :
    broadcastInDim ⟨2, ![m, f]⟩ ![0, 1] h2 (broadcastInDim ⟨2, ![1, f]⟩ ![1] h1 u) (ix2 t j) = u (ix1 j) := by
  rw [broadcastInDim_apply ![0, 1] h2 _ (ix2 t j) (ix2 (0 : Fin 1) j) (fun ax => by
    match ax with
    | ⟨0, _⟩ => rfl
    | ⟨1, _⟩ =>
      show j.val = if f = 1 then 0 else j.val
      split
      · have := j.isLt; omega
      · rfl)]
  exact broadcastInDim_apply ![1] h1 u (ix2 (0 : Fin 1) j) (ix1 j) (fun ax => by
    match ax with
    | ⟨0, _⟩ =>
      show j.val = if f = 1 then 0 else j.val
      split
      · have := j.isLt; omega
      · rfl)

/-- The scale column reads the normalisation vector. -/
theorem dinv2d_apply (ei : IVec S2x3200000 32) (i : Fin 100000) :
    Cert.KernelIdeal.KerTerm.dinv2d (F := Ideal) ei (ix2 i (0 : Fin 1)) = RefTerm.dinv (F := Ideal) ei (ix1 i) :=
  Cert.Gcn.LayoutReads.shapeCast_a_a1_apply _ _ i 0

/-- A bias vector reshaped to one row reads the vector. -/
theorem b1row_apply (b1 : FVec Ideal S64 .f32) (j : Fin 64) : Cert.KernelIdeal.KerTerm.b1row b1 (ix2 (0 : Fin 1) j) = b1 (ix1 j) :=
  Cert.Gcn.LayoutReads.shapeCast_n_ab_apply _ _ 0 j j (by simp)
/-- The same for the second layer's bias. -/
theorem b2row_apply (b2 : FVec Ideal S4 .f32) (j : Fin 4) : Cert.KernelIdeal.KerTerm.b2row b2 (ix2 (0 : Fin 1) j) = b2 (ix1 j) :=
  Cert.Gcn.LayoutReads.shapeCast_n_ab_apply _ _ 0 j j (by simp)

/-- The first layer's dense transform read at an index: the sum over the contracted coordinate of the products. -/
theorem dot1_apply (x : FVec Ideal S100000x128 .f32) (W1 : FVec Ideal S128x64 .f32) (i : Fin 100000) (j : Fin 64) :
    Host.dotGeneral dot_S100000x128_S128x64_S100000x64_1_0_0_1_n_n none x W1 (ix2 i j) = ∑ k : Fin 128, x (ix2 i k) * W1 (ix2 k j) :=
  StackMember.dotGeneral_plain_apply none x W1 i j
/-- The second layer's dense transform read at an index. -/
theorem dot2_apply (a : FVec Ideal S100000x64 .f32) (W2 : FVec Ideal S64x4 .f32) (i : Fin 100000) (j : Fin 4) :
    Host.dotGeneral dot_S100000x64_S64x4_S100000x4_1_0_0_1_n_n none a W2 (ix2 i j) = ∑ k : Fin 64, a (ix2 i k) * W2 (ix2 k j) :=
  StackMember.dotGeneral_plain_apply none a W2 i j

/-- Layer one before the activation, the reference's side, as the sum over the edges. -/
theorem z1_ref (x : FVec Ideal S100000x128 .f32) (ei : IVec S2x3200000 32) (W1 : FVec Ideal S128x64 .f32) (b1 : FVec Ideal S64 .f32)
    (t : Fin 100000) (j : Fin 64) :
    RefTerm.z1 (F := Ideal) x ei W1 b1 (ix2 t j)
      = (∑ p : Fin 3300000, if ((RefTerm.colv ei) (ix1 p)).toInt = ((t.val : ℕ) : Int) then
            (∑ k : Fin 128, x (ix2 (gam ((RefTerm.rowv ei) (ix1 p))) k) * W1 (ix2 k j))
              * (RefTerm.dinv (F := Ideal) ei (ix1 (gam ((RefTerm.rowv ei) (ix1 p))))
                  * RefTerm.dinv (F := Ideal) ei (ix1 (gam ((RefTerm.colv ei) (ix1 p))))) else 0)
        + b1 (ix1 j) := by
  unfold RefTerm.z1
  rw [addf_apply, scatterRows64_apply, rowSpread_apply]
  refine congrArg (fun s => s + b1 (ix1 j)) ?_
  refine Finset.sum_congr rfl fun p _ => ?_
  rw [mulf_apply, gatherRows64_apply, colSpread_apply, dot1_apply]
  unfold RefTerm.nrm
  rw [mulf_apply, gatherNode_apply, gatherNode_apply]

/-- Layer one before the activation is real: a finite sum of products of reals, plus a real bias. -/
theorem z1_real (x : FVec Ideal S100000x128 .f32) (ei : IVec S2x3200000 32) (W1 : FVec Ideal S128x64 .f32) (b1 : FVec Ideal S64 .f32)
    (hx : ∀ i, Cert.IsReal (x i)) (hW1 : ∀ i, Cert.IsReal (W1 i)) (hb1 : ∀ i, Cert.IsReal (b1 i)) (i : S100000x64.Idx) :
    Cert.IsReal (RefTerm.z1 (F := Ideal) x ei W1 b1 i) := by
  obtain ⟨t, j, rfl⟩ : ∃ (t : Fin 100000) (j : Fin 64), i = ix2 t j := ⟨i 0, i 1, eq_ix2 i⟩
  rw [z1_ref]
  refine Cert.IsReal.add (Cert.IsReal.sum _ _ fun p _ => ?_) (hb1 _)
  split
  · exact (Cert.IsReal.sum _ _ fun k _ => (hx _).mul (hW1 _)).mul ((dinv_real ei _).mul (dinv_real ei _))
  · exact Cert.IsReal.zero

/-- The rows of an array gathered at the edges' sources and added up at the targets, read at (t, j). -/
theorem raw1_apply (hs : FVec Ideal S100000x64 .f32) (ei : IVec S2x3200000 32) (t : Fin 100000) (j : Fin 64) :
    Cert.KernelIdeal.KerTerm.raw1 hs ei (ix2 t j)
      = ∑ p : Fin 3300000, if ((RefTerm.colv ei) (ix1 p)).toInt = ((t.val : ℕ) : Int) then
          hs (ix2 (gam ((RefTerm.rowv ei) (ix1 p))) j) else 0 := by
  show Host.scatterAdd (F := Ideal) scatter_S100000x64_S3300000x1_S3300000x64_1_0_0_1
      (broadcastInDim S100000x64 ![] bcast_S_S100000x64 (constant (F := Ideal) S_ .f32 0x00000000#32)) (RefTerm.col2d (RefTerm.colv ei))
      (Host.gather gather_S100000x64_S3300000x1_S3300000x64_1_0_n_n_0_1_164 hs (RefTerm.wrap2d (RefTerm.rowv ei))) (ix2 t j) = _
  rw [scatterRows64_apply]
  refine Finset.sum_congr rfl fun p _ => ?_
  rw [gatherRows64_apply]

/-- The same for rows of width 4. -/
theorem raw2_apply (hs : FVec Ideal S100000x4 .f32) (ei : IVec S2x3200000 32) (t : Fin 100000) (j : Fin 4) :
    Cert.KernelIdeal.KerTerm.raw2 hs ei (ix2 t j)
      = ∑ p : Fin 3300000, if ((RefTerm.colv ei) (ix1 p)).toInt = ((t.val : ℕ) : Int) then
          hs (ix2 (gam ((RefTerm.rowv ei) (ix1 p))) j) else 0 := by
  show Host.scatterAdd (F := Ideal) scatter_S100000x4_S3300000x1_S3300000x4_1_0_0_1
      (broadcastInDim S100000x4 ![] bcast_S_S100000x4 (constant (F := Ideal) S_ .f32 0x00000000#32)) (RefTerm.col2d (RefTerm.colv ei))
      (Host.gather gather_S100000x4_S3300000x1_S3300000x4_1_0_n_n_0_1_14 hs (RefTerm.wrap2d (RefTerm.rowv ei))) (ix2 t j) = _
  rw [scatterRows4_apply]
  refine Finset.sum_congr rfl fun p _ => ?_
  rw [gatherRows4_apply]

/-- Layer one before the activation: the reference's value at (t, j) is the kernel program's aggregated row times the
    target's scale plus the bias. -/
theorem z1_eq (x : FVec Ideal S100000x128 .f32) (ei : IVec S2x3200000 32) (W1 : FVec Ideal S128x64 .f32) (b1 : FVec Ideal S64 .f32)
    (hx : ∀ i, Cert.IsReal (x i)) (hW1 : ∀ i, Cert.IsReal (W1 i)) (t : Fin 100000) (j : Fin 64) :
    RefTerm.z1 (F := Ideal) x ei W1 b1 (ix2 t j)
      = Cert.KernelIdeal.KerTerm.raw1 (Cert.KernelIdeal.KerTerm.G0 x (Cert.KernelIdeal.KerTerm.dinv2d ei) W1) ei (ix2 t j)
          * Cert.KernelIdeal.KerTerm.dinv2d (F := Ideal) ei (ix2 t (0 : Fin 1))
        + Cert.KernelIdeal.KerTerm.b1row b1 (ix2 (0 : Fin 1) j) := by
  rw [z1_ref, raw1_apply, dinv2d_apply, b1row_apply]
  have hG : ∀ (i : Fin 100000), Cert.KernelIdeal.KerTerm.G0 x (Cert.KernelIdeal.KerTerm.dinv2d ei) W1 (ix2 i j)
      = (∑ k : Fin 128, x (ix2 i k) * W1 (ix2 k j)) * RefTerm.dinv (F := Ideal) ei (ix1 i) := fun i => by
    rw [← dinv2d_apply]; rfl
  simp only [hG]
  exact layer_math (fun p => (RefTerm.rowv ei) (ix1 p)) (fun p => (RefTerm.colv ei) (ix1 p))
    (fun i j => ∑ k : Fin 128, x (ix2 i k) * W1 (ix2 k j)) (fun i => RefTerm.dinv (F := Ideal) ei (ix1 i)) (b1 (ix1 j))
    (fun i j => Cert.IsReal.sum _ _ fun k _ => (hx _).mul (hW1 _)) (fun i => dinv_real ei i) t j

/-- Layer two before the activation, the reference's side, as the sum over the edges. -/
theorem z2_ref (a1 : FVec Ideal S100000x64 .f32) (ei : IVec S2x3200000 32) (W2 : FVec Ideal S64x4 .f32) (b2 : FVec Ideal S4 .f32)
    (t : Fin 100000) (j : Fin 4) :
    RefTerm.z2 (F := Ideal) a1 ei W2 b2 (ix2 t j)
      = (∑ p : Fin 3300000, if ((RefTerm.colv ei) (ix1 p)).toInt = ((t.val : ℕ) : Int) then
            (∑ k : Fin 64, a1 (ix2 (gam ((RefTerm.rowv ei) (ix1 p))) k) * W2 (ix2 k j))
              * (RefTerm.dinv (F := Ideal) ei (ix1 (gam ((RefTerm.rowv ei) (ix1 p))))
                  * RefTerm.dinv (F := Ideal) ei (ix1 (gam ((RefTerm.colv ei) (ix1 p))))) else 0)
        + b2 (ix1 j) := by
  unfold RefTerm.z2
  rw [addf_apply, scatterRows4_apply, rowSpread_apply]
  refine congrArg (fun s => s + b2 (ix1 j)) ?_
  refine Finset.sum_congr rfl fun p _ => ?_
  rw [mulf_apply, gatherRows4_apply, colSpread_apply, dot2_apply]
  unfold RefTerm.nrm
  rw [mulf_apply, gatherNode_apply, gatherNode_apply]

/-- Layer two before the activation, for any real activations a1 that the kernel program recomputes from the
    aggregated rows X and the bias row b as ELU(X·scale + b). -/
theorem z2_eq (a1 X : FVec Ideal S100000x64 .f32) (b : FVec Ideal S1x64 .f32) (ei : IVec S2x3200000 32)
    (W2 : FVec Ideal S64x4 .f32) (b2 : FVec Ideal S4 .f32)
    (ha1 : ∀ i, Cert.IsReal (a1 i)) (hW2 : ∀ i, Cert.IsReal (W2 i))
    (hrel : ∀ (i : Fin 100000) (k : Fin 64),
      a1 (ix2 i k) = Cert.KernelIdeal.KerTerm.eluK (X (ix2 i k) * Cert.KernelIdeal.KerTerm.dinv2d (F := Ideal) ei (ix2 i (0 : Fin 1)) + b (ix2 (0 : Fin 1) k)))
    (t : Fin 100000) (j : Fin 4) :
    RefTerm.z2 (F := Ideal) a1 ei W2 b2 (ix2 t j)
      = Cert.KernelIdeal.KerTerm.raw2 (Cert.KernelIdeal.KerTerm.G1 X (Cert.KernelIdeal.KerTerm.dinv2d ei) b W2) ei (ix2 t j)
          * Cert.KernelIdeal.KerTerm.dinv2d (F := Ideal) ei (ix2 t (0 : Fin 1))
        + Cert.KernelIdeal.KerTerm.b2row b2 (ix2 (0 : Fin 1) j) := by
  rw [z2_ref, raw2_apply, dinv2d_apply, b2row_apply]
  have hG : ∀ (i : Fin 100000), Cert.KernelIdeal.KerTerm.G1 X (Cert.KernelIdeal.KerTerm.dinv2d ei) b W2 (ix2 i j)
      = (∑ k : Fin 64, a1 (ix2 i k) * W2 (ix2 k j)) * RefTerm.dinv (F := Ideal) ei (ix1 i) := fun i => by
    rw [← dinv2d_apply]
    simp only [hrel]
    rfl
  simp only [hG]
  exact layer_math (fun p => (RefTerm.rowv ei) (ix1 p)) (fun p => (RefTerm.colv ei) (ix1 p))
    (fun i j => ∑ k : Fin 64, a1 (ix2 i k) * W2 (ix2 k j)) (fun i => RefTerm.dinv (F := Ideal) ei (ix1 i)) (b2 (ix1 j))
    (fun i j => Cert.IsReal.sum _ _ fun k _ => (ha1 _).mul (hW2 _)) (fun i => dinv_real ei i) t j

end Cert.Br

end
-- ==== Proof.LibIntOps.lean ====
/-
  Integer host operations as finite sums.

  (a) A left fold of the step "add g n to the accumulator" over the positions 0, …, N-1 in order, started at a,
      is a plus the sum of g over all positions, in any commutative monoid: addition is associative and
      commutative, so the order of the fold does not matter.

  (b) Integer scatter-add.  The scatter visits the update indices in row-major order; at an update index j
      whose result index is i₀ it replaces the element at i₀ by that element plus the update's element, and
      it skips an update whose result index falls outside the operand.  Read at one result index i, every
      step adds either the update's element (when the step's result index is i) or nothing.  Hence the
      scattered array at i is the operand at i plus the sum of the update elements whose result index is
      i.  Row-major numbering is a bijection between positions and update indices, so the sum over positions
      is a sum over update indices.

  (c) Cumulative sum as a windowed sum.  A window of N positions slides over a length-N vector padded by
      N - 1 zeros on the low side, with stride one; the result at j adds, for each window position p, the
      padded vector's element at j + p, which is the vector's element at j + p - (N-1) when
      j + p ≥ N - 1 and zero otherwise.  The map p ↦ j + p - (N-1) is a bijection from the positions
      p ≥ N - 1 - j onto the vector indices q ≤ j, so the result at j is the sum of the vector's elements
      at the indices q ≤ j.

  (d) Words and naturals.  The natural number of a sum of words is the sum of their natural numbers
      modulo 2^w; when the sum of all the naturals is below 2^32 no partial sum wraps, so the cumulative
      sum read as a natural is the cumulative sum of the naturals.
-/
import Idealize.ShloMosaic.Lib.ValueIdx
import Idealize.ShloMosaic.PureOps.Contract
import Idealize.ShloMosaic.PureOps.ShapeOps
import Mathlib.Data.BitVec
import Mathlib.Algebra.BigOperators.Fin
import Mathlib.Algebra.BigOperators.Group.Finset.Basic

noncomputable section

open scoped BigOperators

namespace Cert.Gcn.IntOps

open Idealize.ShloMosaic Idealize.ShloMosaic.ValueIdx

/-- (a) A left fold of additions over all positions in order is the start plus the sum over the positions. -/
theorem foldl_finRange_add {M : Type} [AddCommMonoid M] (N : Nat) (g : Fin N → M) (a : M) :
    List.foldl (fun r n => r + g n) a (List.finRange N) = a + ∑ n : Fin N, g n := by
  rw [Fin.sum_univ_def]
  generalize List.finRange N = l
  induction l generalizing a with
  | nil => simp
  | cons n l ih => rw [List.foldl_cons, ih, List.map_cons, List.sum_cons, add_assoc]

/-- (b), one result index along any list of positions: each step adds the update's element when the step's
    result index is the index read, and nothing otherwise. -/
private theorem scatter_fold_apply {s si u : Shape} {w w' : Nat} [DecidableEq s.Idx] (d : ScatterDims s si u)
    (idx : IVec si w') (upd : u.Idx → BitVec w) (i : s.Idx)
    [DecidablePred fun j : u.Idx => d.resultIdx? j idx = some i] (l : List (Fin u.numel)) :
    ∀ r : s.Idx → BitVec w,
      (l.foldl (fun r n =>
        match d.resultIdx? (u.rowMajor.symm n) idx with
        | some i => fun i' => if i' = i then IntOp.addi (r i) (upd (u.rowMajor.symm n)) else r i'
        | none => r) r) i
      = r i + (l.map fun n => if d.resultIdx? (u.rowMajor.symm n) idx = some i
                                then upd (u.rowMajor.symm n) else 0).sum := by
  induction l with
  | nil => intro r; simp
  | cons n l ih =>
    intro r
    rw [List.foldl_cons, ih, List.map_cons, List.sum_cons, ← add_assoc]
    congr 1
    by_cases hc : d.resultIdx? (u.rowMajor.symm n) idx = some i
    · rw [if_pos hc, hc]
      simp [IntOp.addi]
    · rw [if_neg hc, add_zero]
      cases hres : d.resultIdx? (u.rowMajor.symm n) idx with
      | none => rfl
      | some i0 =>
        have hi : i ≠ i0 := fun e => hc (by rw [hres, e])
        simp [hi]

/-- (b) Integer scatter-add at a result index: the operand's element plus the sum of the update elements whose
    result index it is. -/
theorem scatter_addi_apply {s si u : Shape} {w w' : Nat} (d : ScatterDims s si u) (x : s.Idx → BitVec w)
    (idx : IVec si w') (upd : u.Idx → BitVec w) (i : s.Idx)
    [DecidablePred fun j : u.Idx => d.resultIdx? j idx = some i] :
    Host.scatter d IntOp.addi x idx upd i
      = x i + ∑ j ∈ Finset.univ.filter (fun j : u.Idx => d.resultIdx? j idx = some i), upd j := by
  unfold Host.scatter
  refine (scatter_fold_apply d idx upd i (List.finRange u.numel) x).trans ?_
  rw [← Fin.sum_univ_def, Finset.sum_filter]
  congr 1
  exact Equiv.sum_comp u.rowMajor.symm (fun j => if d.resultIdx? j idx = some i then upd j else 0)

/-- (d) The natural number of a sum of words is the sum of the natural numbers modulo 2^w. -/
theorem toNat_sum {w : Nat} {ι : Type} (S : Finset ι) (f : ι → BitVec w) :
    (∑ q ∈ S, f q).toNat = (∑ q ∈ S, (f q).toNat) % 2 ^ w := by
  classical
  induction S using Finset.induction_on with
  | empty => simp
  | insert a S ha ih =>
    rw [Finset.sum_insert ha, Finset.sum_insert ha, BitVec.toNat_add, ih, Nat.add_mod_mod]

/-- (b), (d) When the operand's element and the updates landing on it add up to less than 2^w as natural
    numbers, the scattered element read as a natural number is that sum. -/
theorem scatter_addi_toNat {s si u : Shape} {w w' : Nat} (d : ScatterDims s si u) (x : s.Idx → BitVec w)
    (idx : IVec si w') (upd : u.Idx → BitVec w) (i : s.Idx)
    [DecidablePred fun j : u.Idx => d.resultIdx? j idx = some i]
    (hlt : (x i).toNat
      + ∑ j ∈ Finset.univ.filter (fun j : u.Idx => d.resultIdx? j idx = some i), (upd j).toNat < 2 ^ w) :
    (Host.scatter d IntOp.addi x idx upd i).toNat
      = (x i).toNat
        + ∑ j ∈ Finset.univ.filter (fun j : u.Idx => d.resultIdx? j idx = some i), (upd j).toNat := by
  rw [scatter_addi_apply, BitVec.toNat_add, toNat_sum, Nat.add_mod_mod, Nat.mod_eq_of_lt hlt]

/-- A rank-one index is its one coordinate. -/
def idx1Equiv (n : Nat) : (⟨1, ![n]⟩ : Shape).Idx ≃ Fin n where
  toFun i := i 0
  invFun a := ix1 a
  left_inv i := (eq_ix1 i).symm
  right_inv _ := rfl

/-- (c) The cumulative sum, written as a windowed sum of N positions over the vector padded low by L = N - 1
    zeros, is at j the sum of the vector's elements at the indices up to j. -/
theorem cumsum_apply (N L : Nat) (hL : L + 1 = N) (x : (⟨1, ![N]⟩ : Shape).Idx → BitVec 32)
    (init : (⟨0, ![]⟩ : Shape).Idx → BitVec 32) (h0 : ∀ k, init k = 0#32)
    (h : (⟨1, ![N]⟩ : Shape).ReduceWindows (![N] : Fin 1 → Nat) ![1] ![L] ![0] ⟨1, ![N]⟩)
    (hu : 0 < (⟨0, ![]⟩ : Shape).numel) (j : (⟨1, ![N]⟩ : Shape).Idx) :
    Host.reduceWindow IntOp.addi (![N] : Fin 1 → Nat) ![1] ![L] ![0] x init h hu j
      = ∑ q ∈ Finset.univ.filter (fun q : Fin N => q.val ≤ (j 0).val), x (ix1 q) := by
  subst hL
  have hj : (j 0).val < L + 1 := (j 0).isLt
  -- the vector as a function of a natural position, zero outside
  let X : Nat → BitVec 32 := fun k => if hk : k < L + 1 then x (ix1 ⟨k, hk⟩) else 0
  -- the padded vector's element under window position i of the window at j
  let H : (⟨1, ![L + 1]⟩ : Shape).Idx → BitVec 32 := fun i =>
    if L ≤ (j 0).val + (i 0).val then X ((j 0).val + (i 0).val - L) else 0
  unfold Host.reduceWindow
  dsimp only
  rw [h0 (Shape.Idx.first hu)]
  simp only [IntOp.addi]
  rw [foldl_finRange_add, BitVec.zero_add]
  calc _ = ∑ n : Fin (Shape.numel ⟨1, ![L + 1]⟩), H ((Shape.rowMajor ⟨1, ![L + 1]⟩).symm n) :=
        Finset.sum_congr rfl (fun n _ => ?_)
    _ = ∑ i : (⟨1, ![L + 1]⟩ : Shape).Idx, H i := Equiv.sum_comp _ H
    _ = ∑ p : Fin (L + 1), H (ix1 p) := (Equiv.sum_comp (idx1Equiv (L + 1)).symm H).symm
    _ = ∑ q ∈ Finset.univ.filter (fun q : Fin (L + 1) => q.val ≤ (j 0).val), x (ix1 q) := ?_
  · -- one window position: inside the vector exactly when L ≤ j + p
    have hi : ((Shape.rowMajor ⟨1, ![L + 1]⟩).symm n 0).val < L + 1 := ((Shape.rowMajor ⟨1, ![L + 1]⟩).symm n 0).isLt
    show _ = (if L ≤ (j 0).val + ((Shape.rowMajor ⟨1, ![L + 1]⟩).symm n 0).val then X ((j 0).val + ((Shape.rowMajor ⟨1, ![L + 1]⟩).symm n 0).val - L) else 0)
    split_ifs with hin hc hc
    · show _ = (if hk : (j 0).val + ((Shape.rowMajor ⟨1, ![L + 1]⟩).symm n 0).val - L < L + 1 then x (ix1 ⟨_, hk⟩) else 0)
      rw [dif_pos (by omega)]
      congr 1
      funext a
      match a with
      | ⟨0, _⟩ => exact Fin.ext (by show (j 0).val * 1 + ((Shape.rowMajor ⟨1, ![L + 1]⟩).symm n 0).val - L = (j 0).val + ((Shape.rowMajor ⟨1, ![L + 1]⟩).symm n 0).val - L; omega)
    · exfalso
      have h1 := (hin 0).1
      change L ≤ (j 0).val * 1 + ((Shape.rowMajor ⟨1, ![L + 1]⟩).symm n 0).val at h1
      omega
    · exfalso
      apply hin
      rw [Fin.forall_fin_one]
      show L ≤ (j 0).val * 1 + ((Shape.rowMajor ⟨1, ![L + 1]⟩).symm n 0).val ∧ (j 0).val * 1 + ((Shape.rowMajor ⟨1, ![L + 1]⟩).symm n 0).val - L < L + 1
      omega
    · rfl
  · -- the positions p with L ≤ j + p correspond to the indices q = j + p - L ≤ j
    show ∑ p : Fin (L + 1), (if L ≤ (j 0).val + p.val then X ((j 0).val + p.val - L) else 0) = _
    rw [← Finset.sum_filter]
    refine Finset.sum_bij
      (fun p _ => (⟨(j 0).val + p.val - L, by have := p.isLt; omega⟩ : Fin (L + 1))) ?_ ?_ ?_ ?_
    · intro p hp
      rw [Finset.mem_filter] at hp ⊢
      exact ⟨Finset.mem_univ _, by show (j 0).val + p.val - L ≤ (j 0).val; have := p.isLt; omega⟩
    · intro p hp p' hp' e
      rw [Finset.mem_filter] at hp hp'
      have e' : (j 0).val + p.val - L = (j 0).val + p'.val - L := congrArg Fin.val e
      exact Fin.ext (by omega)
    · intro q hq
      rw [Finset.mem_filter] at hq
      have hq' := q.isLt
      refine ⟨⟨q.val + L - (j 0).val, by omega⟩, ?_, ?_⟩
      · rw [Finset.mem_filter]
        exact ⟨Finset.mem_univ _, by show L ≤ (j 0).val + (q.val + L - (j 0).val); omega⟩
      · exact Fin.ext (by show (j 0).val + (q.val + L - (j 0).val) - L = q.val; omega)
    · intro p hp
      have hp' := p.isLt
      show (if hk : (j 0).val + p.val - L < L + 1 then x (ix1 ⟨_, hk⟩) else 0) = _
      rw [dif_pos (by omega)]

/-- (c), (d) When the sum of all the elements' natural numbers is below 2^32, the cumulative sum read as a
    natural number is the cumulative sum of the natural numbers. -/
theorem cumsum_toNat (N L : Nat) (hL : L + 1 = N) (x : (⟨1, ![N]⟩ : Shape).Idx → BitVec 32)
    (init : (⟨0, ![]⟩ : Shape).Idx → BitVec 32) (h0 : ∀ k, init k = 0#32)
    (h : (⟨1, ![N]⟩ : Shape).ReduceWindows (![N] : Fin 1 → Nat) ![1] ![L] ![0] ⟨1, ![N]⟩)
    (hu : 0 < (⟨0, ![]⟩ : Shape).numel) (j : (⟨1, ![N]⟩ : Shape).Idx)
    (hsum : ∑ q : Fin N, (x (ix1 q)).toNat < 2 ^ 32) :
    (Host.reduceWindow IntOp.addi (![N] : Fin 1 → Nat) ![1] ![L] ![0] x init h hu j).toNat
      = ∑ q ∈ Finset.univ.filter (fun q : Fin N => q.val ≤ (j 0).val), (x (ix1 q)).toNat := by
  rw [cumsum_apply N L hL x init h0 h hu j, toNat_sum]
  refine Nat.mod_eq_of_lt (lt_of_le_of_lt ?_ hsum)
  exact Finset.sum_le_sum_of_subset (Finset.filter_subset _ _)

/-- The windowed sum at the length 4194304, padded low by 4194303: an instance of (c). -/
example (x : (⟨1, ![4194304]⟩ : Shape).Idx → BitVec 32) (v : (⟨0, ![]⟩ : Shape).Idx → BitVec 32)
    (h0 : ∀ k, v k = 0#32)
    (h : (⟨1, ![4194304]⟩ : Shape).ReduceWindows (![4194304] : Fin 1 → Nat) ![1] ![4194303] ![0] ⟨1, ![4194304]⟩)
    (hu : 0 < (⟨0, ![]⟩ : Shape).numel) (j : (⟨1, ![4194304]⟩ : Shape).Idx) :
    Host.reduceWindow IntOp.addi ![4194304] ![1] ![4194303] ![0] x v h hu j
      = ∑ q ∈ Finset.univ.filter (fun q : Fin 4194304 => q.val ≤ (j 0).val), x (ix1 q) :=
  cumsum_apply 4194304 4194303 rfl x v h0 h hu j

end Cert.Gcn.IntOps
-- ==== Proof.LibSums.lean ====
/-
  Two re-indexings of finite sums.

  (1) The positions below n * m are the pairs (r, c) with r below n and c below m, through p = r * m + c
      (division with remainder by m); so a sum over the positions below n * m is the double sum over the pairs.

  (2) A reduction over every axis of an array by integer addition.  The result has one element; every index of
      the array reduces to it, so the left fold visits all positions in row-major order, adding the element at
      each to the accumulator, started at the initial value.  Addition is associative and commutative, and
      row-major numbering is a bijection between positions and indices; hence the result is the initial value
      plus the sum of all the array's elements.
-/
import proofs.«418016_j33054068310762_3_alg».proof.Proof.LibIntOps
import Idealize.ShloMosaic.Lib.ValueIdx
import Idealize.ShloMosaic.PureOps.Contract
import Mathlib.Algebra.BigOperators.Fin
import Mathlib.Algebra.BigOperators.Group.Finset.Basic
import Mathlib.Logic.Equiv.Fin.Basic
import Mathlib.Tactic.Ring

noncomputable section

open scoped BigOperators

namespace Cert.Gcn.Sums

open Idealize.ShloMosaic Idealize.ShloMosaic.ValueIdx

/-- (1) A sum over the positions below n * m is the double sum over rows r and columns c of the term at
    r * m + c. -/
theorem sum_range_mul {M : Type*} [AddCommMonoid M] (n m : ℕ) (Φ : ℕ → M) :
    ∑ p ∈ Finset.range (n * m), Φ p = ∑ r : Fin n, ∑ c : Fin m, Φ (r.val * m + c.val) := by
  rw [Finset.sum_range, ← Equiv.sum_comp (finProdFinEquiv (m := n) (n := m)), Fintype.sum_prod_type]
  refine Finset.sum_congr rfl fun r _ => Finset.sum_congr rfl fun c _ => ?_
  rw [finProdFinEquiv_apply_val]
  congr 1
  ring

/-- (2) The reduction of an integer array over all its axes by addition is the initial value plus the sum of
    all the elements. -/
theorem reduce_addi_all {s : Shape} {axes : List (Fin s.rank)} (x : s.Idx → BitVec 32)
    (init : (⟨0, ![]⟩ : Shape).Idx → BitVec 32) (h : s.ReducesTo axes ⟨0, ![]⟩)
    (hu : 0 < (⟨0, ![]⟩ : Shape).numel) (j : (⟨0, ![]⟩ : Shape).Idx) :
    Host.reduce IntOp.addi x init h hu j = init (Shape.Idx.first hu) + ∑ i : s.Idx, x i := by
  unfold Host.reduce
  rw [List.filter_eq_self.2]
  · simp only [IntOp.addi]
    rw [IntOps.foldl_finRange_add]
    congr 1
    exact Equiv.sum_comp s.rowMajor.symm x
  · intro n _
    exact decide_eq_true (funext fun a => a.elim0)

end Cert.Gcn.Sums
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.BrPool.lean ====
/-
  The pooling stage: per graph the mean of the activated node features, through the last linear map.
-/
import proofs.«418016_j33054068310762_3_alg».proof.Proof.RefTerm
import proofs.«418016_j33054068310762_3_alg».proof.Proof.KerTerm
import proofs.«418016_j33054068310762_3_alg».proof.Proof.LibIndexMaps
import proofs.«418016_j33054068310762_3_alg».proof.Proof.LibLayoutReads
import proofs.«418016_j33054068310762_3_alg».proof.Proof.LibSums
import proofs.«418016_j33054068310762_3_alg».proof.Proof.LibWordArith
import proofs.«418016_j33054068310762_3_alg».proof.Proof.LibReal
import Idealize.ShloMosaic.PureOps.Ideal.Laws
import Idealize.ShloMosaic.Lib.Pipeline.Value
import Idealize.ShloMosaic.Lib.StackMember

noncomputable section

open scoped BigOperators

namespace Cert.Br

open Idealize.ShloMosaic Idealize.ShloMosaic.ValueIdx Cert.ReferenceIdeal
open Cert.ReferenceIdeal.Facts₀ Cert.ReferenceIdeal.Facts
open Cert.KernelIdeal (KerTerm.G0 KerTerm.G1 KerTerm.G2 KerTerm.eluK KerTerm.pooled KerTerm.oneHot KerTerm.blockRow)

variable [Cert.KernelIdeal.Facts] [Cert.ReferenceIdeal.Facts]

/-! ## Words, the one-hot entry, and the block coordinates -/

/-- The graph words made a column by a broadcast along a new unit axis read, at (p, 0), node p's word. -/
theorem bcol_apply (batch : IVec S100000 32) (p : Fin 100000) (u : Fin 1) :
    broadcastInDim S100000x1 ![0] bcast_S100000_S100000x1_0 batch (ix2 p u) = batch (ix1 p) :=
  Cert.Gcn.LayoutReads.broadcastInDim_a_a1_apply _ batch p u

/-- The graph words made a column by a reshape read, at (p, 0), node p's word. -/
theorem batch2d_apply (batch : IVec S100000 32) (p : Fin 100000) (u : Fin 1) :
    Cert.KernelIdeal.KerTerm.batch2d batch (ix2 p u) = batch (ix1 p) :=
  Cert.Gcn.LayoutReads.shapeCast_a_a1_apply batch _ p u

/-- The last linear map's dimension numbers are those of the plain product of a 256 × 4 by a 4 × 1 matrix. -/
theorem dot_eq_plain : dot_S256x4_S4x1_S256x1_1_0_0_1_n_n = DotDims.plain 256 4 1 := rfl

/-- A word is the word of g < 256 exactly when it reads g as a signed integer: the word of g reads g, and two
    words that read the same integer are the same word. -/
theorem word_eq_iff (wd : BitVec 32) (g : Fin 256) :
    wd = BitVec.ofNat 32 g.val ↔ wd.toInt = ((g.val : ℕ) : Int) := by
  have hg : (BitVec.ofNat 32 g.val).toInt = ((g.val : ℕ) : Int) :=
    Cert.Gcn.WordArith.toInt_ofNat_small g.val (by have := g.isLt; omega)
  constructor
  · intro h; rw [h, hg]
  · intro h; exact BitVec.eq_of_toInt_eq (h.trans hg.symm)

/-- The one-hot entry is 1 where the word reads g and 0 elsewhere: the compare bit widened to a word is the word
    1 or the word 0, and the signed integer of that word, as a real, is 1 or 0. -/
theorem oneHot_eq (wd : BitVec 32) (g : Fin 256) :
    Cert.KernelIdeal.KerTerm.oneHot wd g = if wd.toInt = ((g.val : ℕ) : Int) then 1 else 0 := by
  unfold Cert.KernelIdeal.KerTerm.oneHot
  show (((((IntOp.cmpi .eq wd (BitVec.ofNat 32 g.val)).setWidth 32).toInt : ℝ)) : EReal) = _
  by_cases h : wd.toInt = ((g.val : ℕ) : Int)
  · rw [if_pos h]
    have h1 : IntOp.cmpi .eq wd (BitVec.ofNat 32 g.val) = 1#1 :=
      StableHlo.Predicate.cmpi_eq_iff.mpr ((word_eq_iff wd g).mpr h)
    have h2 : ((1#1 : BitVec 1).setWidth 32).toInt = 1 := by decide
    rw [h1, h2, Int.cast_one, EReal.coe_one]
  · rw [if_neg h]
    have h1 : IntOp.cmpi .eq wd (BitVec.ofNat 32 g.val) = 0#1 := by
      rcases BitVec.eq_zero_or_eq_one (IntOp.cmpi .eq wd (BitVec.ofNat 32 g.val)) with h0 | h0
      · exact h0
      · exact absurd ((word_eq_iff wd g).mp (StableHlo.Predicate.cmpi_eq_iff.mp h0)) h
    have h2 : ((0#1 : BitVec 1).setWidth 32).toInt = 0 := by decide
    rw [h1, h2, Int.cast_zero, EReal.coe_zero]

/-- The 50 blocks of 2000 nodes run through all 100000 nodes once: node n is node n mod 2000 of block n / 2000. -/
theorem sum_blocks {M : Type*} [AddCommMonoid M] (Φ : Fin 100000 → M) :
    ∑ t : Fin 50, ∑ r : Fin 2000, Φ (Cert.KernelIdeal.KerTerm.blockRow t r) = ∑ n : Fin 100000, Φ n := by
  rw [← Equiv.sum_comp (finProdFinEquiv (m := 50) (n := 2000)) Φ, Fintype.sum_prod_type]
  refine Finset.sum_congr rfl fun t _ => Finset.sum_congr rfl fun r _ => congrArg Φ (Fin.ext ?_)
  rw [finProdFinEquiv_apply_val]
  show 2000 * t.val + r.val = r.val + 2000 * t.val
  omega

/-! ## Splats and broadcasts read at an index -/

/-- The zero splat reads the extended real 0 everywhere. -/
theorem zero_splat_apply {T : Shape} (h : S_.BroadcastsInDim T ![]) (j : T.Idx) :
    broadcastInDim T ![] h (constant (F := Ideal) S_ .f32 0x00000000#32) j = 0 := by
  unfold broadcastInDim
  exact Ideal.ofBits_zero_f32

/-- The pattern 0x3F800000 is the extended real 1. -/
theorem ofBits_one : Ideal.ofBits .f32 0x3F800000#32 = 1 := by
  rw [show (1 : EReal) = ((1 : ℝ) : EReal) by norm_cast]
  simp [Ideal.ofBits, Ideal.ieee, -EReal.coe_mul]; norm_num

/-- The one splat reads the extended real 1 everywhere. -/
theorem one_splat_apply {T : Shape} (h : S_.BroadcastsInDim T ![]) (j : T.Idx) :
    broadcastInDim T ![] h (constant (F := Ideal) S_ .f32 0x3F800000#32) j = 1 := by
  unfold broadcastInDim
  exact ofBits_one

/-- A vector made a column and the column spread across the row reads, at (p, q), the vector at p. -/
theorem col_spread_apply {α : Type} {m n : ℕ} (v : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q)
      = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : ℕ) = 1 then 0 else q.val
      rw [if_pos rfl])]
  exact Cert.Gcn.LayoutReads.broadcastInDim_a_a1_apply h1 v p 0

/-- A one-entry vector made a 1 × 1 matrix and spread down a column reads its entry everywhere. -/
theorem entry_spread_apply {α : Type} {m : ℕ} (v : (⟨1, ![1]⟩ : Shape).Idx → α)
    (h1 : (⟨1, ![1]⟩ : Shape).BroadcastsInDim ⟨2, ![1, 1]⟩ ![1])
    (h2 : (⟨2, ![1, 1]⟩ : Shape).BroadcastsInDim ⟨2, ![m, 1]⟩ ![0, 1]) (p : Fin m) (q : Fin 1) :
    broadcastInDim (⟨2, ![m, 1]⟩ : Shape) ![0, 1] h2 (broadcastInDim (⟨2, ![1, 1]⟩ : Shape) ![1] h1 v) (ix2 p q)
      = v (ix1 (0 : Fin 1)) := by
  rw [broadcastInDim_apply ![0, 1] h2 _ (ix2 p q) (ix2 (0 : Fin 1) (0 : Fin 1)) (fun ax => by
    match ax with
    | ⟨0, _⟩ =>
      show 0 = if (1 : ℕ) = 1 then 0 else p.val
      rw [if_pos rfl]
    | ⟨1, _⟩ =>
      show 0 = if (1 : ℕ) = 1 then 0 else q.val
      rw [if_pos rfl])]
  exact broadcastInDim_apply ![1] h1 v _ (ix1 (0 : Fin 1)) (fun ax => by
    match ax with
    | ⟨0, _⟩ =>
      show 0 = if (1 : ℕ) = 1 then 0 else _
      rw [if_pos rfl])

/-! ## The per-graph sums and counts -/

/-- The reference's per-graph sum at (g, dd): from zero, column dd of the feature rows whose graph word reads g. -/
theorem scat_apply (a2 : FVec Ideal S100000x4 .f32) (batch : IVec S100000 32) (g : Fin 256) (dd : Fin 4) :
    Host.scatterAdd (F := Ideal) scatter_S256x4_S100000x1_S100000x4_1_0_0_1
        (broadcastInDim S256x4 ![] bcast_S_S256x4 (constant S_ .f32 0x00000000#32))
        (broadcastInDim S100000x1 ![0] bcast_S100000_S100000x1_0 batch) a2 (ix2 g dd)
      = ∑ n : Fin 100000, if (batch (ix1 n)).toInt = ((g.val : ℕ) : Int) then a2 (ix2 n dd) else 0 := by
  show Ideal.hostScatterAdd _ _ _ _ (ix2 g dd) = _
  rw [Cert.Gcn.IndexMaps.hostScatterAdd2_apply _ rfl rfl rfl rfl, zero_splat_apply, zero_add]
  refine Finset.sum_congr rfl fun n _ => ?_
  rw [bcol_apply]

/-- The reference's node count of graph g: from zero, one for every node whose graph word reads g. -/
theorem cnt_apply (batch : IVec S100000 32) (g : Fin 256) :
    Host.scatterAdd (F := Ideal) scatter_S256_S100000x1_S100000_n_0_0_1
        (broadcastInDim S256 ![] bcast_S_S256 (constant S_ .f32 0x00000000#32))
        (broadcastInDim S100000x1 ![0] bcast_S100000_S100000x1_0 batch)
        (broadcastInDim S100000 ![] bcast_S_S100000 (constant S_ .f32 0x3F800000#32)) (ix1 g)
      = ∑ n : Fin 100000, if (batch (ix1 n)).toInt = ((g.val : ℕ) : Int) then 1 else 0 := by
  show Ideal.hostScatterAdd _ _ _ _ (ix1 g) = _
  rw [Cert.Gcn.IndexMaps.hostScatterAdd1_apply _ rfl rfl rfl rfl, zero_splat_apply, zero_add]
  refine Finset.sum_congr rfl fun n _ => ?_
  rw [bcol_apply, one_splat_apply]

/-- The kernel program's node count of graph g, kept as a column, is the same sum. -/
theorem counts_apply (batch : IVec S100000 32) (g : Fin 256) (u : Fin 1) :
    Cert.KernelIdeal.KerTerm.counts (F := Ideal) batch (ix2 g u)
      = ∑ n : Fin 100000, if (batch (ix1 n)).toInt = ((g.val : ℕ) : Int) then 1 else 0 := by
  unfold Cert.KernelIdeal.KerTerm.counts
  rw [Cert.Gcn.LayoutReads.shapeCast_a_a1_apply]
  show Ideal.hostScatterAdd _ _ _ _ (ix1 g) = _
  rw [Cert.Gcn.IndexMaps.hostScatterAdd1_apply _ rfl rfl rfl rfl, zero_splat_apply, zero_add]
  refine Finset.sum_congr rfl fun n _ => ?_
  rw [Cert.Gcn.LayoutReads.broadcastInDim_a_a1_apply, one_splat_apply]

/-- The reference's divisor for graph g: the larger of the node count and 1. -/
theorem cnt1_apply (batch : IVec S100000 32) (g : Fin 256) :
    RefTerm.cnt1 (F := Ideal) batch (ix1 g)
      = max (∑ n : Fin 100000, if (batch (ix1 n)).toInt = ((g.val : ℕ) : Int) then 1 else 0) 1 := by
  unfold RefTerm.cnt1
  rw [maximumf_apply, cnt_apply, one_splat_apply]

/-- The kernel's accumulator at (g, dd) is the reference's per-graph sum: the blocks run through all nodes, the
    one-hot entry is 1 or 0 according to whether the node's word reads g, and 1·a = a, 0·a = 0 for every
    extended real a. -/
theorem pooled_eq (a2 x : FVec Ideal S100000x4 .f32) (d : FVec Ideal S100000x1 .f32) (b : FVec Ideal S1x4 .f32)
    (batch : IVec S100000 32)
    (h : ∀ (n : Fin 100000) (dd : Fin 4),
      a2 (ix2 n dd) = Cert.KernelIdeal.KerTerm.eluK (x (ix2 n dd) * d (ix2 n (0 : Fin 1)) + b (ix2 (0 : Fin 1) dd)))
    (g : Fin 256) (dd : Fin 4) :
    Cert.KernelIdeal.KerTerm.pooled x d b (Cert.KernelIdeal.KerTerm.batch2d batch) g dd
      = ∑ n : Fin 100000, if (batch (ix1 n)).toInt = ((g.val : ℕ) : Int) then a2 (ix2 n dd) else 0 := by
  unfold Cert.KernelIdeal.KerTerm.pooled
  refine (sum_blocks (fun n => Cert.KernelIdeal.KerTerm.oneHot (Cert.KernelIdeal.KerTerm.batch2d batch (ix2 n (0 : Fin 1))) g
      * Cert.KernelIdeal.KerTerm.eluK (x (ix2 n dd) * d (ix2 n (0 : Fin 1)) + b (ix2 (0 : Fin 1) dd)))).trans ?_
  refine Finset.sum_congr rfl fun n _ => ?_
  rw [batch2d_apply, oneHot_eq, ← h n dd]
  split_ifs
  · exact one_mul _
  · exact zero_mul _

/-! ## The two sides read at (g, 0) -/

/-- The kernel's region-2 function at (g, 0): the four quotients through the last linear map, plus the bias. -/
theorem G2_apply (x : FVec Ideal S100000x4 .f32) (d : FVec Ideal S100000x1 .f32) (b : FVec Ideal S1x4 .f32)
    (bt : IVec S100000x1 32) (cn : FVec Ideal S256x1 .f32) (w : FVec Ideal S4x1 .f32) (b3 : FVec Ideal S1x1 .f32)
    (g : Fin 256) (u : Fin 1) :
    Cert.KernelIdeal.KerTerm.G2 x d b bt cn w b3 (ix2 g u)
      = (∑ dd : Fin 4,
          Ideal.div (Cert.KernelIdeal.KerTerm.pooled x d b bt g dd) (max (cn (ix2 g (0 : Fin 1))) 1)
            * w (ix2 dd (0 : Fin 1)))
        + b3 (ix2 (0 : Fin 1) (0 : Fin 1)) := by
  unfold Cert.KernelIdeal.KerTerm.G2
  show (∑ dd : Fin 4,
          Ideal.div (Cert.KernelIdeal.KerTerm.pooled x d b bt g dd) (max (cn (ix2 g (0 : Fin 1))) (Ideal.ofBits .f32 0x3F800000#32))
            * w (ix2 dd (0 : Fin 1)))
        + b3 (ix2 (0 : Fin 1) (0 : Fin 1)) = _
  rw [ofBits_one]

/-- The per-graph mean the reference feeds the last linear map, read at (g, dd): the per-graph sum divided by the
    larger of the node count and 1. -/
theorem ref_mean_apply (a2 : FVec Ideal S100000x4 .f32) (batch : IVec S100000 32) (g : Fin 256) (dd : Fin 4) :
    Host.divf
        (Host.scatterAdd (F := Ideal) scatter_S256x4_S100000x1_S100000x4_1_0_0_1
          (broadcastInDim S256x4 ![] bcast_S_S256x4 (constant S_ .f32 0x00000000#32))
          (broadcastInDim S100000x1 ![0] bcast_S100000_S100000x1_0 batch) a2)
        (broadcastInDim S256x4 ![0, 1] bcast_S256x1_S256x4_0_1
          (broadcastInDim S256x1 ![0] bcast_S256_S256x1_0 (RefTerm.cnt1 (F := Ideal) batch))) (ix2 g dd)
      = Ideal.div (∑ n : Fin 100000, if (batch (ix1 n)).toInt = ((g.val : ℕ) : Int) then a2 (ix2 n dd) else 0)
          (max (∑ n : Fin 100000, if (batch (ix1 n)).toInt = ((g.val : ℕ) : Int) then 1 else 0) 1) := by
  unfold Host.divf
  rw [Ideal.hostDivf_def, scat_apply, col_spread_apply, cnt1_apply]

/-- The pooling stage.  The reference adds the activated features a2[n, ·] of the nodes whose graph word reads g
    (an accumulating scatter), the kernel adds, block of 2000 nodes by block, the one-hot entry (1 where the node's
    graph word is the word of g, else 0) times the activated feature it recomputes from the aggregated rows x, the
    scale column d and the bias row b.  A word reads g < 256 exactly when it is the word of g, a product by 1 or 0 is
    the term or 0, and the 50 × 2000 block coordinates run through all 100000 nodes once; the node counts, the
    division by max(count, 1), the last linear map and its bias are the same operations on both sides. -/
theorem pool_eq (a2 x : FVec Ideal S100000x4 .f32) (d : FVec Ideal S100000x1 .f32) (b : FVec Ideal S1x4 .f32)
    (batch : IVec S100000 32) (W3 : FVec Ideal S4x1 .f32) (b3 : FVec Ideal S1 .f32)
    (h : ∀ (n : Fin 100000) (dd : Fin 4),
      a2 (ix2 n dd) = Cert.KernelIdeal.KerTerm.eluK (x (ix2 n dd) * d (ix2 n (0 : Fin 1)) + b (ix2 (0 : Fin 1) dd))) :
    RefTerm.pool (F := Ideal) a2 batch W3 b3
      = Cert.KernelIdeal.KerTerm.G2 x d b (Cert.KernelIdeal.KerTerm.batch2d batch)
          (Cert.KernelIdeal.KerTerm.counts (F := Ideal) batch) W3 (Cert.KernelIdeal.KerTerm.b3row b3) := by
  funext i
  obtain ⟨g, u, rfl⟩ : ∃ (g : Fin 256) (u : Fin 1), i = ix2 g u := ⟨i 0, i 1, eq_ix2 i⟩
  obtain rfl : u = 0 := Subsingleton.elim _ _
  rw [G2_apply]
  unfold RefTerm.pool
  rw [addf_apply, entry_spread_apply, dot_eq_plain, StackMember.dotGeneral_plain_apply]
  refine congrArg₂ (· + ·) ?_ ?_
  · refine Finset.sum_congr rfl fun dd _ => ?_
    rw [ref_mean_apply, pooled_eq a2 x d b batch h, counts_apply]
  · unfold Cert.KernelIdeal.KerTerm.b3row
    exact (Cert.Gcn.LayoutReads.shapeCast_a_a1_apply b3 _ (0 : Fin 1) (0 : Fin 1)).symm

end Cert.Br

end
-- ==== Proof.Bridge.lean ====
/-
  The reference's result and the kernel program's result are one function of the argument arrays wherever the
  float arguments are real numbers.

  Layer one before the activation agrees entry by entry (the normalisation folded into a scale before the gather and
  a scale after the scatter), and is real; so the activations agree and are real; so layer two before the
  activation agrees entry by entry; so the activated features the pooling stage adds up agree, and the pooling
  stage, the division by the node counts and the last linear map are the same on both sides.
-/
import proofs.«418016_j33054068310762_3_alg».proof.Proof.RefTerm
import proofs.«418016_j33054068310762_3_alg».proof.Proof.KerTerm
import proofs.«418016_j33054068310762_3_alg».proof.Proof.LibReal
import proofs.«418016_j33054068310762_3_alg».proof.Proof.BrElu
import proofs.«418016_j33054068310762_3_alg».proof.Proof.BrLayer
import proofs.«418016_j33054068310762_3_alg».proof.Proof.BrPool

noncomputable section

namespace Cert.Bridge

open Idealize.ShloMosaic

theorem out_eq [Cert.KernelIdeal.Facts] [Cert.ReferenceIdeal.Facts]
    (x : FVec Ideal Cert.KernelIdeal.S100000x128 .f32) (ei : IVec Cert.KernelIdeal.S2x3200000 32) (batch : IVec Cert.KernelIdeal.S100000 32)
    (W1 : FVec Ideal Cert.KernelIdeal.S128x64 .f32) (b1 : FVec Ideal Cert.KernelIdeal.S64 .f32)
    (W2 : FVec Ideal Cert.KernelIdeal.S64x4 .f32) (b2 : FVec Ideal Cert.KernelIdeal.S4 .f32)
    (W3 : FVec Ideal Cert.KernelIdeal.S4x1 .f32) (b3 : FVec Ideal Cert.KernelIdeal.S1 .f32)
    (hx : ∀ i, Cert.IsReal (x i)) (hW1 : ∀ i, Cert.IsReal (W1 i)) (hb1 : ∀ i, Cert.IsReal (b1 i))
    (hW2 : ∀ i, Cert.IsReal (W2 i)) (hb2 : ∀ i, Cert.IsReal (b2 i))
    (hW3 : ∀ i, Cert.IsReal (W3 i)) (hb3 : ∀ i, Cert.IsReal (b3 i)) :
    Cert.ReferenceIdeal.RefTerm.out x ei batch W1 b1 W2 b2 W3 b3 = Cert.KernelIdeal.KerTerm.out x ei batch W1 b1 W2 b2 W3 b3 := by
  -- the first layer's activations are real
  have ha1 : ∀ i, Cert.IsReal (Cert.ReferenceIdeal.RefTerm.elu64 (F := Ideal) (Cert.ReferenceIdeal.RefTerm.z1 x ei W1 b1) i) := fun i => by
    rw [Cert.Br.elu64_apply]
    exact Cert.Br.eluK_real (Cert.Br.z1_real x ei W1 b1 hx hW1 hb1 i)
  unfold Cert.ReferenceIdeal.RefTerm.out Cert.KernelIdeal.KerTerm.out
  -- the pooling stage, given that the activated features of layer two agree
  refine Cert.Br.pool_eq _ _ _ _ batch W3 b3 (fun n dd => ?_)
  -- layer two, given that the activations of layer one agree
  rw [Cert.Br.elu4_apply,
    Cert.Br.z2_eq _ (Cert.KernelIdeal.KerTerm.raw1 (Cert.KernelIdeal.KerTerm.G0 x (Cert.KernelIdeal.KerTerm.dinv2d ei) W1) ei)
      (Cert.KernelIdeal.KerTerm.b1row b1) ei W2 b2 ha1 hW2 (fun i k => ?_) n dd]
  -- layer one
  rw [Cert.Br.elu64_apply, Cert.Br.z1_eq x ei W1 b1 hx hW1 i k]

end Cert.Bridge

end
-- ==== Proof.Finite.lean ====
/-
  Under the precondition every entry of every float argument is a real number.

  The precondition is a conjunction of seven statements "every entry x of the array satisfies |x| < +∞", one per float
  argument. In the extended reals |x| = max x (-x), and max x (-x) < ⊤ holds exactly when x is neither ⊤ nor ⊥, that is,
  when x is the image of a real number.
-/
import proofs.«418016_j33054068310762_3_alg».proof.Pre_finite_inputs
import proofs.«418016_j33054068310762_3_alg».proof.Proof.LibReal
import Idealize.ShloMosaic.PureOps.Ideal
import Idealize.ShloMosaic.Lib.ReduceAll

noncomputable section

namespace Cert.Finite

open Idealize.ShloMosaic Cert.Pre_finite_inputs

/-- A shape of rank 0 has exactly one index. -/
instance : Subsingleton S_.Idx := ⟨fun a b => funext fun d => d.elim0⟩

/-- The one-bit word of a truth value is 1 exactly when the truth value is true. -/
theorem ofBool_eq_one_iff (b : Bool) : BitVec.ofBool b = 1#1 ↔ b = true := by cases b <;> decide

/-- The f32 word with exponent all ones and significand zero denotes +∞. -/
theorem top_word : Ideal.ofBits .f32 0x7F800000#32 = (⊤ : EReal) := by
  simp [Ideal.ofBits, Ideal.ieee]

/-- One value: if |x| < +∞ then x is a real number. From max x (-x) < ⊤ we get x < ⊤, so x ≠ ⊤, and -x < ⊤, which
    fails at x = ⊥ because -⊥ = ⊤. -/
theorem real_of_abs_lt_top (x : Ideal .f32)
    (h : FloatOps.cmpf .olt (FloatOps.hostAbsf x) (FloatOps.ofBits (F := Ideal) .f32 0x7F800000#32) = 1#1) :
    Cert.IsReal x := by
  change Ideal.cmp .olt (max (x : EReal) (-(x : EReal))) (Ideal.ofBits .f32 0x7F800000#32) = 1#1 at h
  rw [top_word] at h
  have hlt : max (x : EReal) (-(x : EReal)) < ⊤ := by
    simpa [Ideal.cmp, ofBool_eq_one_iff] using h
  rw [max_lt_iff] at hlt
  refine IsReal.of_ne (ne_of_lt hlt.1) ?_
  intro hb
  rw [hb] at hlt
  exact absurd hlt.2 (by simp)

/-- An array of any shape: if the conjunction over all entries of |a i| < +∞ is true, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
        (cmpf .olt (Host.absf a) (broadcastInDim s ![] hb (constant S_ .f32 0x7F800000#32))) init hr hu j = 1#1) :
    ∀ i, Cert.IsReal (a i) := fun i =>
  real_of_abs_lt_top (a i) (Host.reduce_andi_all _ _ hr hu j h i)

theorem of_pre [Cert.Pre_finite_inputs.Facts]
    (a0 : FVec Ideal S100000x128 .f32) (a1 : IVec S2x3200000 32) (a2 : IVec S100000 32) (a3 : FVec Ideal S128x64 .f32) (a4 : FVec Ideal S64 .f32)
    (a5 : FVec Ideal S64x4 .f32) (a6 : FVec Ideal S4 .f32) (a7 : FVec Ideal S4x1 .f32) (a8 : FVec Ideal S1 .f32)
    (h : Cert.Pre_finite_inputs.fn (F := Ideal) a0 a1 a2 a3 a4 a5 a6 a7 a8 = fun _ => 1#1) :
    (∀ i, Cert.IsReal (a0 i)) ∧ (∀ i, Cert.IsReal (a3 i)) ∧ (∀ i, Cert.IsReal (a4 i)) ∧ (∀ i, Cert.IsReal (a5 i))
      ∧ (∀ i, Cert.IsReal (a6 i)) ∧ (∀ i, Cert.IsReal (a7 i)) ∧ (∀ i, Cert.IsReal (a8 i)) := by
  -- the precondition at its one index: a conjunction, nested to the left, of the seven per-array conjunctions
  have h0 := congrFun h (fun d => d.elim0)
  dsimp only [fn, fn_part1] at h0
  simp only [andi, IntOp.andi_eq_one] at h0
  obtain ⟨⟨⟨⟨⟨⟨h0, h3⟩, h4⟩, h5⟩, h6⟩, h7⟩, h8⟩ := h0
  exact ⟨all_real a0 _ _ _ _ _ h0, all_real a3 _ _ _ _ _ h3, all_real a4 _ _ _ _ _ h4, all_real a5 _ _ _ _ _ h5,
    all_real a6 _ _ _ _ _ h6, all_real a7 _ _ _ _ _ h7, all_real a8 _ _ _ _ _ h8⟩

end Cert.Finite

end
-- ==== Proof.lean ====
/-
  The certificate of a two-layer graph convolution with mean pooling and a linear head. The kernel program runs three
  Pallas regions among host lines (edge lists with self loops, degrees, gathers and scatter-adds); the reference is
  plain host code. The kernel folds the symmetric edge weight dinv[row]·dinv[col] into a node-wise scaling before the
  gather and another after the scatter-add; over the reals that is the distributive law, which is where the
  precondition (every float argument finite) is used. The frames of the two kernel programs are their runs through the
  three regions; the reference's frame is its run with the result dropped; the kernel's idealization rewrites nothing.
-/
import proofs.«418016_j33054068310762_3_alg».proof.Defs
import proofs.«418016_j33054068310762_3_alg».proof.Proof.Gen.Kernel
import proofs.«418016_j33054068310762_3_alg».proof.Proof.Gen.KernelIdeal
import proofs.«418016_j33054068310762_3_alg».proof.Proof.Gen.ReferenceIdeal
import proofs.«418016_j33054068310762_3_alg».proof.Proof.Gen.Pre_finite_inputs
import proofs.«418016_j33054068310762_3_alg».proof.Proof.KRun
import proofs.«418016_j33054068310762_3_alg».proof.Proof.Run
import proofs.«418016_j33054068310762_3_alg».proof.Proof.KHost
import proofs.«418016_j33054068310762_3_alg».proof.Proof.RefRun
import proofs.«418016_j33054068310762_3_alg».proof.Proof.Bridge
import proofs.«418016_j33054068310762_3_alg».proof.Proof.Finite

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end with the one term of the argument arrays: the kernel program by its run through the three regions
    and the host lines read as terms, the reference by its run; the two terms agree where the float arguments are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KerTerm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Run.run_main (F := Ideal) m ρ)
    exact ⟨(h c _ (Cert.KernelIdeal.Run.mem_uc Cert.KernelIdeal.main_v47 (by decide))).trans
        (Cert.KernelIdeal.KHost.kernel_result m (Cert.KernelIdeal.Run.outs m) c
          (Cert.KernelIdeal.Run.exit0 m c) (Cert.KernelIdeal.Run.exit1 m c) (Cert.KernelIdeal.Run.exit2 m c)),
      (h c _ (Cert.KernelIdeal.Run.mem_uc Cert.KernelIdeal.main_arg0 (by decide))).trans (Cert.KernelIdeal.Gen.V8_main_arg0 m (Cert.KernelIdeal.Run.outs m) c),
      (h c _ (Cert.KernelIdeal.Run.mem_uc Cert.KernelIdeal.main_arg1 (by decide))).trans (Cert.KernelIdeal.Gen.V8_main_arg1 m (Cert.KernelIdeal.Run.outs m) c),
      (h c _ (Cert.KernelIdeal.Run.mem_uc Cert.KernelIdeal.main_arg2 (by decide))).trans (Cert.KernelIdeal.Gen.V8_main_arg2 m (Cert.KernelIdeal.Run.outs m) c),
      (h c _ (Cert.KernelIdeal.Run.mem_uc Cert.KernelIdeal.main_arg3 (by decide))).trans (Cert.KernelIdeal.Gen.V8_main_arg3 m (Cert.KernelIdeal.Run.outs m) c),
      (h c _ (Cert.KernelIdeal.Run.mem_uc Cert.KernelIdeal.main_arg4 (by decide))).trans (Cert.KernelIdeal.Gen.V8_main_arg4 m (Cert.KernelIdeal.Run.outs m) c),
      (h c _ (Cert.KernelIdeal.Run.mem_uc Cert.KernelIdeal.main_arg5 (by decide))).trans (Cert.KernelIdeal.Gen.V8_main_arg5 m (Cert.KernelIdeal.Run.outs m) c),
      (h c _ (Cert.KernelIdeal.Run.mem_uc Cert.KernelIdeal.main_arg6 (by decide))).trans (Cert.KernelIdeal.Gen.V8_main_arg6 m (Cert.KernelIdeal.Run.outs m) c),
      (h c _ (Cert.KernelIdeal.Run.mem_uc Cert.KernelIdeal.main_arg7 (by decide))).trans (Cert.KernelIdeal.Gen.V8_main_arg7 m (Cert.KernelIdeal.Run.outs m) c),
      (h c _ (Cert.KernelIdeal.Run.mem_uc Cert.KernelIdeal.main_arg8 (by decide))).trans (Cert.KernelIdeal.Gen.V8_main_arg8 m (Cert.KernelIdeal.Run.outs m) c)⟩
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8⟩ := hagree c
    rw [h0, h1, h2, h3, h4, h5, h6, h7, h8]
    obtain ⟨f0, f3, f4, f5, f6, f7, f8⟩ := Cert.Finite.of_pre _ _ _ _ _ _ _ _ _ (hpre c)
    exact Cert.Bridge.out_eq _ _ _ _ _ _ _ _ _ f0 f3 f4 f5 f6 f7 f8

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
